-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S128x1 : Shape := ⟨2, ![128, 1]⟩
abbrev S1 : Shape := ⟨1, ![1]⟩
abbrev S16x1 : Shape := ⟨2, ![16, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16x16 : S_.BroadcastsInDim S16x16 (![] : Fin 0 → Fin S16x16.rank)
  reducesTo_S16x16_S_d0_1 : S16x16.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S16x1 : S_.BroadcastsInDim S16x1 (![] : Fin 0 → Fin S16x1.rank)
  reducesTo_S16x1_S_d0_1 : S16x1.ReducesTo [0, 1] S_

variable [Facts]

def fn_part3 {F : FTy → Type} [FloatOps F] (main_arg11 : FVec F S16x1 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S16x1 .f32 := Host.absf main_arg11
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S128x1 .f32) (main_arg8 : FVec F S1 .f32) (main_arg9 : FVec F S16x1 .f32) (main_arg10 : FVec F S1 .f32) (main_arg11 : FVec F S16x1 .f32) (main_arg12 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S16x1 .f32 := Host.absf main_arg9
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S16x16 .f32) (main_arg5 : FVec F S128x1 .f32) (main_arg6 : FVec F S1 .f32) (main_arg7 : FVec F S128x1 .f32) (main_arg8 : FVec F S1 .f32) (main_arg9 : FVec F S16x1 .f32) (main_arg10 : FVec F S1 .f32) (main_arg11 : FVec F S16x1 .f32) (main_arg12 : FVec F S1 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S10000x10000 .f32) (main_arg3 : FVec F S128x16 .f32) (main_arg4 : FVec F S16x16 .f32) (main_arg5 : FVec F S128x1 .f32) (main_arg6 : FVec F S1 .f32) (main_arg7 : FVec F S128x1 .f32) (main_arg8 : FVec F S1 .f32) (main_arg9 : FVec F S16x1 .f32) (main_arg10 : FVec F S1 .f32) (main_arg11 : FVec F S16x1 .f32) (main_arg12 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S128x1 : Shape := ⟨2, ![128, 1]⟩
abbrev S1 : Shape := ⟨1, ![1]⟩
abbrev S16x1 : Shape := ⟨2, ![16, 1]⟩
abbrev S_ : Shape := ⟨0, ![]⟩
abbrev S1x16 : Shape := ⟨2, ![1, 16]⟩
abbrev S128x18 : Shape := ⟨2, ![128, 18]⟩
abbrev S1x1 : Shape := ⟨2, ![1, 1]⟩
abbrev S1x18 : Shape := ⟨2, ![1, 18]⟩
abbrev S16x18 : Shape := ⟨2, ![16, 18]⟩
abbrev S10000x16 : Shape := ⟨2, ![10000, 16]⟩
abbrev S200x10000 : Shape := ⟨2, ![200, 10000]⟩
abbrev S200x16 : Shape := ⟨2, ![200, 16]⟩
abbrev S10000x18 : Shape := ⟨2, ![10000, 18]⟩
abbrev S200x1 : Shape := ⟨2, ![200, 1]⟩

abbrev nBuf : Space → Nat
  | .hbm => 24
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x16, .f32⟩
  | .hbm, ⟨4, _⟩ => ⟨S16x16, .f32⟩
  | .hbm, ⟨5, _⟩ => ⟨S128x1, .f32⟩
  | .hbm, ⟨6, _⟩ => ⟨S1, .f32⟩
  | .hbm, ⟨7, _⟩ => ⟨S128x1, .f32⟩
  | .hbm, ⟨8, _⟩ => ⟨S1, .f32⟩
  | .hbm, ⟨9, _⟩ => ⟨S16x1, .f32⟩
  | .hbm, ⟨10, _⟩ => ⟨S1, .f32⟩
  | .hbm, ⟨11, _⟩ => ⟨S16x1, .f32⟩
  | .hbm, ⟨12, _⟩ => ⟨S1, .f32⟩
  | .hbm, ⟨13, _⟩ => ⟨S_, .f32⟩
  | .hbm, ⟨14, _⟩ => ⟨S1x16, .f32⟩
  | .hbm, ⟨15, _⟩ => ⟨S128x18, .f32⟩
  | .hbm, ⟨16, _⟩ => ⟨S1x1, .f32⟩
  | .hbm, ⟨17, _⟩ => ⟨S1x1, .f32⟩
  | .hbm, ⟨18, _⟩ => ⟨S1x18, .f32⟩
  | .hbm, ⟨19, _⟩ => ⟨S16x18, .f32⟩
  | .hbm, ⟨20, _⟩ => ⟨S1x1, .f32⟩
  | .hbm, ⟨21, _⟩ => ⟨S1x1, .f32⟩
  | .hbm, ⟨22, _⟩ => ⟨S1x18, .f32⟩
  | .hbm, ⟨23, _⟩ => ⟨S10000x16, .f32⟩
  | .local _ .vmem, ⟨0, _⟩ => ⟨S10000x128, .f32⟩
  | .local _ .vmem, ⟨1, _⟩ => ⟨S128x18, .f32⟩
  | .local _ .vmem, ⟨2, _⟩ => ⟨S1x18, .f32⟩
  | .local _ .vmem, ⟨3, _⟩ => ⟨S16x18, .f32⟩
  | .local _ .vmem, ⟨4, _⟩ => ⟨S1x18, .f32⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S200x16, .f32⟩
  | .local _ .vmem, ⟨10, _⟩ => ⟨S200x16, .f32⟩
  | .local _ .vmem, ⟨11, _⟩ => ⟨S10000x18, .f32⟩
  | .local _ .vmem, ⟨12, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def k0_off1 (i : grid0.Coords) : Fin 2 → Nat :=
  let arg0 : BitVec 32 := BitVec.ofNat 32 (i 0).val
  let c50_i32_2 : BitVec 32 := 50#32
  let v6 : BitVec 32 := Scalar.remsi arg0 c50_i32_2
  let c200_i32 : BitVec 32 := 200#32
  let v7 : BitVec 32 := Scalar.muli v6 c200_i32
  let v9 : Index := Scalar.indexCast v7
  let c16 : Index := 16#32
  ![v9.toNat, 16]
def k0_off2 (i : grid0.Coords) : Fin 2 → Nat :=
  let arg0 : BitVec 32 := BitVec.ofNat 32 (i 0).val
  let c50_i32_2 : BitVec 32 := 50#32
  let v6 : BitVec 32 := Scalar.remsi arg0 c50_i32_2
  let c200_i32 : BitVec 32 := 200#32
  let v7 : BitVec 32 := Scalar.muli v6 c200_i32
  let v12 : Index := Scalar.indexCast v7
  let c17 : Index := 17#32
  ![v12.toNat, 17]
def k0_off3 (i : grid0.Coords) : Fin 2 → Nat :=
  let arg0 : BitVec 32 := BitVec.ofNat 32 (i 0).val
  let c50_i32_2 : BitVec 32 := 50#32
  let v6 : BitVec 32 := Scalar.remsi arg0 c50_i32_2
  let c200_i32 : BitVec 32 := 200#32
  let v7 : BitVec 32 := Scalar.muli v6 c200_i32
  let v24 : Index := Scalar.indexCast v7
  let c0_10 : Index := 0#32
  ![v24.toNat, 0]
def k0_cond3 (i : grid0.Coords) : BitVec 1 :=
  let arg0 : BitVec 32 := BitVec.ofNat 32 (i 0).val
  let c50_i32_11 : BitVec 32 := 50#32
  let v29 : BitVec 1 := Scalar.cmpi .slt arg0 c50_i32_11
  let v30 : BitVec 32 := Scalar.extui v29
  let c0_i32_12 : BitVec 32 := 0#32
  let v31 : BitVec 1 := Scalar.cmpi .ne v30 c0_i32_12
  v31

def k0_off4 (i : grid0.Coords) : Fin 2 → Nat :=
  let arg0 : BitVec 32 := BitVec.ofNat 32 (i 0).val
  let c50_i32_2 : BitVec 32 := 50#32
  let v6 : BitVec 32 := Scalar.remsi arg0 c50_i32_2
  let c200_i32 : BitVec 32 := 200#32
  let v7 : BitVec 32 := Scalar.muli v6 c200_i32
  let v35 : Index := Scalar.indexCast v7
  let c0_15 : Index := 0#32
  ![v35.toNat, 0]
def k0_cond4 (i : grid0.Coords) : BitVec 1 :=
  let arg0 : BitVec 32 := BitVec.ofNat 32 (i 0).val
  let c50_i32_13 : BitVec 32 := 50#32
  let v32 : BitVec 1 := Scalar.cmpi .sge arg0 c50_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c50_i32 : BitVec 32 := 50#32
  let v0 : BitVec 32 := Scalar.remsi arg0 c50_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c50_i32 : BitVec 32 := 50#32
  let v0 : BitVec 32 := Scalar.remsi arg0 c50_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1x16 : S_.BroadcastsInDim S1x16 (![] : Fin 0 → Fin S1x16.rank)
  concatenates_S128x16_S128x1_S128x1_S128x18_d1 : Shape.Concatenates [S128x16, S128x1, S128x1] S128x18 1
  shapeCasts_S1_S1x1 : S1.ShapeCasts S1x1
  concatenates_S1x16_S1x1_S1x1_S1x18_d1 : Shape.Concatenates [S1x16, S1x1, S1x1] S1x18 1
  concatenates_S16x16_S16x1_S16x1_S16x18_d1 : Shape.Concatenates [S16x16, S16x1, S16x1] S16x18 1
  inb_S10000x128_S10000x128_0_0 : ∀ a, (![0, 0] : Fin 2 → Nat) a + S10000x128.size a ≤ S10000x128.size a
  h_S10000x128 : 0 < S10000x128.numel
  inb_S128x18_S128x18_0_0 : ∀ a, (![0, 0] : Fin 2 → Nat) a + S128x18.size a ≤ S128x18.size a
  h_S128x18 : 0 < S128x18.numel
  shapeCasts_S128x18_S128x18 : S128x18.ShapeCasts S128x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S10000x18 : S1x18.Broadcasts S10000x18
  inb_S10000x18_S10000x18_0_0 : ∀ a, (![0, 0] : Fin 2 → Nat) a + S10000x18.size a ≤ S10000x18.size a
  h_S10000x18 : 0 < S10000x18.numel
  shapeCasts_S10000x18_S10000x18 : S10000x18.ShapeCasts S10000x18
  inb_S10000x16_S10000x16_0_0 : ∀ a, (![0, 0] : Fin 2 → Nat) a + S10000x16.size a ≤ S10000x16.size a
  h_S10000x16 : 0 < S10000x16.numel
  inb_S16x18_S16x18_0_0 : ∀ a, (![0, 0] : Fin 2 → Nat) a + S16x18.size a ≤ S16x18.size a
  h_S16x18 : 0 < S16x18.numel
  shapeCasts_S16x18_S16x18 : S16x18.ShapeCasts S16x18
  inb_S10000x18_S10000x16_0_0 : ∀ a, (![0, 0] : Fin 2 → Nat) a + S10000x16.size a ≤ S10000x18.size a
  h_S200x1 : 0 < S200x1.numel
  inb_S200x10000_S200x10000_0_0 : ∀ a, (![0, 0] : Fin 2 → Nat) a + S200x10000.size a ≤ S200x10000.size a
  h_S200x10000 : 0 < S200x10000.numel
  broadcasts_S200x1_S200x16 : S200x1.Broadcasts S200x16
  h_S200x16 : 0 < S200x16.numel
  shapeCasts_S200x16_S200x16 : S200x16.ShapeCasts S200x16
  inb_S200x16_S200x16_0_0 : ∀ a, (![0, 0] : Fin 2 → Nat) a + S200x16.size a ≤ S200x16.size a
  dot_S10000x128_S128x18_S10000x18_1_0_0_1_n_n_wf : DotDims.WF S10000x128 S128x18 S10000x18 [1] [0] [0] [1] [] []
  dot_S10000x16_S16x18_S10000x18_1_0_0_1_n_n_wf : DotDims.WF S10000x16 S16x18 S10000x18 [1] [0] [0] [1] [] []
  dot_S200x10000_S10000x16_S200x16_1_0_0_1_n_n_wf : DotDims.WF S200x10000 S10000x16 S200x16 [1] [0] [0] [1] [] []
  hrank0 : 0 < grid0.rank
  k0_off1_inb : ∀ i : grid0.Coords, ∀ a, (k0_off1 i) a + S200x1.size a ≤ S10000x18.size a
  k0_off2_inb : ∀ i : grid0.Coords, ∀ a, (k0_off2 i) a + S200x1.size a ≤ S10000x18.size a
  k0_off3_inb : ∀ i : grid0.Coords, ∀ a, (k0_off3 i) a + S200x16.size a ≤ S10000x18.size a
  k0_off4_inb : ∀ i : grid0.Coords, ∀ (k0_h3 : k0_cond3 i = 1#1), ∀ a, (k0_off4 i) a + S200x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x18.size a ≤ S128x18.size a
  hwx0_1 : ∀ i : grid0.Coords, EltTy.bits .f32 = 32 ∨ (Rect.block (s := S128x18) S128x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x18.size a ≤ S1x18.size a
  hwx0_2 : ∀ i : grid0.Coords, EltTy.bits .f32 = 32 ∨ (Rect.block (s := S1x18) S1x18.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x18.size a ≤ S16x18.size a
  hwx0_3 : ∀ i : grid0.Coords, EltTy.bits .f32 = 32 ∨ (Rect.block (s := S16x18) S16x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x18.size a ≤ S1x18.size a
  hwx0_4 : ∀ i : grid0.Coords, EltTy.bits .f32 = 32 ∨ (Rect.block (s := S1x18) S1x18.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .f32 = 32 ∨ (Rect.block (s := S10000x10000) S200x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .f32 = 32 ∨ (Rect.block (s := S10000x10000) S200x10000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x16.size a ≤ S10000x16.size a
  hwx0_7 : ∀ i : grid0.Coords, EltTy.bits .f32 = 32 ∨ (Rect.block (s := S10000x16) S200x16.size (cc0_transform_7 i) (hinb0_7 i)).WholeWords (EltTy.packing .f32)

variable [Facts₀]

def dot_S10000x128_S128x18_S10000x18_1_0_0_1_n_n : DotDims S10000x128 S128x18 S10000x18 where
  lhsContracting := [1]
  rhsContracting := [0]
  lhsNonContracting := [0]
  rhsNonContracting := [1]
  lhsBatch := []
  rhsBatch := []
  wf := dot_S10000x128_S128x18_S10000x18_1_0_0_1_n_n_wf
def dot_S10000x16_S16x18_S10000x18_1_0_0_1_n_n : DotDims S10000x16 S16x18 S10000x18 where
  lhsContracting := [1]
  rhsContracting := [0]
  lhsNonContracting := [0]
  rhsNonContracting := [1]
  lhsBatch := []
  rhsBatch := []
  wf := dot_S10000x16_S16x18_S10000x18_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x18.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x18.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S200x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S200x10000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S200x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S128x1 : Shape := ⟨2, ![128, 1]⟩
abbrev S1 : Shape := ⟨1, ![1]⟩
abbrev S16x1 : Shape := ⟨2, ![16, 1]⟩
abbrev S10000x1 : Shape := ⟨2, ![10000, 1]⟩
abbrev S1x1 : Shape := ⟨2, ![1, 1]⟩
abbrev S_ : Shape := ⟨0, ![]⟩
abbrev S10000x16 : Shape := ⟨2, ![10000, 16]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x16, .f32⟩
  | .hbm, ⟨4, _⟩ => ⟨S16x16, .f32⟩
  | .hbm, ⟨5, _⟩ => ⟨S128x1, .f32⟩
  | .hbm, ⟨6, _⟩ => ⟨S1, .f32⟩
  | .hbm, ⟨7, _⟩ => ⟨S128x1, .f32⟩
  | .hbm, ⟨8, _⟩ => ⟨S1, .f32⟩
  | .hbm, ⟨9, _⟩ => ⟨S16x1, .f32⟩
  | .hbm, ⟨10, _⟩ => ⟨S1, .f32⟩
  | .hbm, ⟨11, _⟩ => ⟨S16x1, .f32⟩
  | .hbm, ⟨12, _⟩ => ⟨S1, .f32⟩
  | .hbm, ⟨13, _⟩ => ⟨S10000x1, .f32⟩
  | .hbm, ⟨14, _⟩ => ⟨S1x1, .f32⟩
  | .hbm, ⟨15, _⟩ => ⟨S10000x1, .f32⟩
  | .hbm, ⟨16, _⟩ => ⟨S10000x1, .f32⟩
  | .hbm, ⟨17, _⟩ => ⟨S10000x1, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S_, .f32⟩
  | .hbm, ⟨23, _⟩ => ⟨S10000x1, .f32⟩
  | .hbm, ⟨24, _⟩ => ⟨S10000x1, .f32⟩
  | .hbm, ⟨25, _⟩ => ⟨S10000x1, .f32⟩
  | .hbm, ⟨26, _⟩ => ⟨S1x1, .f32⟩
  | .hbm, ⟨27, _⟩ => ⟨S10000x1, .f32⟩
  | .hbm, ⟨28, _⟩ => ⟨S10000x1, .f32⟩
  | .hbm, ⟨29, _⟩ => ⟨S10000x16, .f32⟩
  | .hbm, ⟨30, _⟩ => ⟨S10000x16, .f32⟩
  | .hbm, ⟨31, _⟩ => ⟨S10000x16, .f32⟩
  | .hbm, ⟨32, _⟩ => ⟨S10000x16, .f32⟩
  | .hbm, ⟨33, _⟩ => ⟨S_, .f32⟩
  | .hbm, ⟨34, _⟩ => ⟨S10000x1, .f32⟩
  | .hbm, ⟨35, _⟩ => ⟨S10000x1, .f32⟩
  | .hbm, ⟨36, _⟩ => ⟨S10000x16, .f32⟩
  | .hbm, ⟨37, _⟩ => ⟨S10000x16, .f32⟩
  | .hbm, ⟨38, _⟩ => ⟨S10000x16, .f32⟩
  | .hbm, ⟨39, _⟩ => ⟨S10000x16, .f32⟩
  | .hbm, ⟨40, _⟩ => ⟨S_, .f32⟩
  | .hbm, ⟨41, _⟩ => ⟨S10000x1, .f32⟩
  | .hbm, ⟨42, _⟩ => ⟨S10000x1, .f32⟩
  | .hbm, ⟨43, _⟩ => ⟨S10000x16, .f32⟩
  | .hbm, ⟨44, _⟩ => ⟨S10000x16, .f32⟩
  | .hbm, ⟨45, _⟩ => ⟨S10000x16, .f32⟩
  | .hbm, ⟨46, _⟩ => ⟨S10000x1, .f32⟩
  | .hbm, ⟨47, _⟩ => ⟨S1x1, .f32⟩
  | .hbm, ⟨48, _⟩ => ⟨S10000x1, .f32⟩
  | .hbm, ⟨49, _⟩ => ⟨S10000x1, .f32⟩
  | .hbm, ⟨50, _⟩ => ⟨S10000x1, .f32⟩
  | .hbm, ⟨51, _⟩ => ⟨S10000x1, .f32⟩
  | .hbm, ⟨52, _⟩ => ⟨S_, .f32⟩
  | .hbm, ⟨53, _⟩ => ⟨S10000x1, .f32⟩
  | .hbm, ⟨54, _⟩ => ⟨S10000x1, .f32⟩
  | .hbm, ⟨55, _⟩ => ⟨S_, .f32⟩
  | .hbm, ⟨56, _⟩ => ⟨S10000x1, .f32⟩
  | .hbm, ⟨57, _⟩ => ⟨S10000x1, .f32⟩
  | .hbm, ⟨58, _⟩ => ⟨S10000x1, .f32⟩
  | .hbm, ⟨59, _⟩ => ⟨S1x1, .f32⟩
  | .hbm, ⟨60, _⟩ => ⟨S10000x1, .f32⟩
  | .hbm, ⟨61, _⟩ => ⟨S10000x1, .f32⟩
  | .hbm, ⟨62, _⟩ => ⟨S10000x16, .f32⟩
  | .hbm, ⟨63, _⟩ => ⟨S10000x16, .f32⟩
  | .hbm, ⟨64, _⟩ => ⟨S10000x16, .f32⟩
  | .hbm, ⟨65, _⟩ => ⟨S10000x16, .f32⟩
  | .hbm, ⟨66, _⟩ => ⟨S_, .f32⟩
  | .hbm, ⟨67, _⟩ => ⟨S10000x1, .f32⟩
  | .hbm, ⟨68, _⟩ => ⟨S10000x1, .f32⟩
  | .hbm, ⟨69, _⟩ => ⟨S10000x16, .f32⟩
  | .hbm, ⟨70, _⟩ => ⟨S10000x16, .f32⟩
  | .hbm, ⟨71, _⟩ => ⟨S10000x16, .f32⟩
  | .hbm, ⟨72, _⟩ => ⟨S10000x16, .f32⟩
  | .hbm, ⟨73, _⟩ => ⟨S_, .f32⟩
  | .hbm, ⟨74, _⟩ => ⟨S10000x1, .f32⟩
  | .hbm, ⟨75, _⟩ => ⟨S10000x1, .f32⟩
  | .hbm, ⟨76, _⟩ => ⟨S10000x16, .f32⟩
  | .hbm, ⟨77, _⟩ => ⟨S10000x16, .f32⟩
  | .hbm, ⟨78, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  dot_S10000x128_S128x1_S10000x1_1_0_0_1_n_n_wf : DotDims.WF S10000x128 S128x1 S10000x1 [1] [0] [0] [1] [] []
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x1_S10000x1_1_0_0_1_n_n_wf : DotDims.WF S10000x16 S16x1 S10000x1 [1] [0] [0] [1] [] []
  dot_S10000x16_S16x16_S10000x16_1_0_0_1_n_n_wf : DotDims.WF S10000x16 S16x16 S10000x16 [1] [0] [0] [1] [] []

variable [Facts₀]

def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.Bits.Kit.lean ====
/-
  The setting the one pallas_call runs in, for every float instance: what each buffer holds when the region is
  entered (the launch memory after the ten host operations that build the concatenated weights and bias rows),
  each window's block at a grid point, the body's four branch conditions in closed form over the 100 points
  (first point; point 50; points below 50; points from 50 on), where the output window is idle, the two scratch
  buffers as the region's invariant holds them, and the frame claim's post read off a frame run.
-/
import proofs.«161867_g88347477279355_cont_sun_m_1058_36_alg».proof.Proof.Gen.Kernel.Launch
import proofs.«161867_g88347477279355_cont_sun_m_1058_36_alg».proof.Proof.Gen.Kernel.Skeleton
import proofs.«161867_g88347477279355_cont_sun_m_1058_36_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the grid -/

/-- The first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- Point 50, where the second layer starts. -/
abbrev cond0_1 (i : grid0.Coords) : Prop := (Scalar.cmpi .ne (Scalar.extui (Scalar.cmpi .eq (BitVec.ofNat 32 (i 0).val) 50#32)) 0#32) = 1#1
theorem hcond0_1 : ∀ t : Fin cfg0.N, cond0_1 (grid0.coords t) ↔ t.val = 50 :=
  (by decide +kernel : ∀ t : Fin grid0.N, cond0_1 (grid0.coords t) ↔ t.val = 50)
/-- The first layer's points. -/
abbrev cond0_2 (i : grid0.Coords) : Prop := k0_cond3 i = 1#1
theorem hcond0_2 : ∀ t : Fin cfg0.N, cond0_2 (grid0.coords t) ↔ t.val < 50 :=
  (by decide +kernel : ∀ t : Fin grid0.N, cond0_2 (grid0.coords t) ↔ t.val < 50)
/-- The second layer's points. -/
abbrev cond0_3 (i : grid0.Coords) : Prop := k0_cond4 i = 1#1
theorem hcond0_3 : ∀ t : Fin cfg0.N, cond0_3 (grid0.coords t) ↔ 50 ≤ t.val :=
  (by decide +kernel : ∀ t : Fin grid0.N, cond0_3 (grid0.coords t) ↔ 50 ≤ t.val)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- At a first-layer point the output window is idle: nothing is stored into it, -/
theorem idleAt0_7 : ∀ t : Fin cfg0.N, ¬cond0_3 (grid0.coords t) → cfg0.idle 7 (grid0.coords t) = true := by decide +kernel
/-- and its block is not written back there. -/
theorem noFlush0_7 : ∀ t : Fin cfg0.N, ¬cond0_3 (grid0.coords t) → (cfg0.win 7).flush t = false := by decide +kernel
/-- At a second-layer point it is live. -/
theorem liveAt0_7 : ∀ t : Fin cfg0.N, cond0_3 (grid0.coords t) → cfg0.idle 7 (grid0.coords t) = false := by decide +kernel

/-! ## The staging and scratch memrefs -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x18 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x18 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x18 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x18 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x10000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x10000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x16 .f32 := win0_7.stage (cfg0.slots t 7)
abbrev hs0_7 (t : Fin cfg0.N) : (ms0_7 t).IsWhole := hstage0_7 ((cfg0.slots t 7).cast nbuf0_7)
/-- The per-node scratch: the projected features and the two gate columns. -/
abbrev scM0_0 : Memref sig .tc .vmem S10000x18 .f32 := Memref.whole cc0_scratch0
/-- The first layer's output, kept on chip. -/
abbrev scM0_1 : Memref sig .tc .vmem S10000x16 .f32 := Memref.whole cc0_scratch1

/-- The region's class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 5).trans (((dats 0 c).arrAt_in 5 rfl _).trans ((hA c 5).trans (V_main_arg1 m c))),
      ((h c).1 6).trans (((dats 0 c).arrAt_in 6 rfl _).trans ((hA c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

end Cert.Kernel.Hand

end
-- ==== Proof.Bits.RunA.lean ====
/-
  The body at the first grid point: it fills the 18-column table from the features and the first layer's widened
  weights, then computes the first row block of the first layer and stores it into the on-chip copy of that layer's
  output.  The output window is left untouched.  What the stores leave is found by running the body symbolically.
-/
import proofs.«161867_g88347477279355_cont_sun_m_1058_36_alg».proof.Proof.Bits.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    Σ' (LS0 : List (View.Piece (Elt F) S10000x18 .f32)), { LS1 : List (View.Piece (Elt F) S10000x16 .f32) //
      ∀ (xi7 : Vec F S200x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, ?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    iexact HS1

end Cert.Kernel.Hand

end
-- ==== Proof.Bits.RunB.lean ====
/-
  The body at a later point of the first layer (points 1 to 49): the table is only read; one more row block of the
  first layer's output is stored.  The output window is left untouched.
-/
import proofs.«161867_g88347477279355_cont_sun_m_1058_36_alg».proof.Proof.Bits.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    { LS1 : List (View.Piece (Elt F) S10000x16 .f32) //
      ∀ (xi7 : Vec F S200x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexact HS1

end Cert.Kernel.Hand

end
-- ==== Proof.Bits.RunC.lean ====
/-
  The body at point 50, where the second layer starts: it refills the table from the first layer's output and the
  second layer's widened weights, then computes the first row block of the result and stores it into the output
  window.  The first layer's output is only read.
-/
import proofs.«161867_g88347477279355_cont_sun_m_1058_36_alg».proof.Proof.Bits.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    Σ' (L7 : List (View.Piece (Elt F) S200x16 .f32)), { LS0 : List (View.Piece (Elt F) S10000x18 .f32) //
      ∀ (xi7 : Vec F S200x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, ?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; iexact HS0
    iexists _; isplitr; · ipureintro; exact harg10.read_unread _
    iexact HS1

end Cert.Kernel.Hand

end
-- ==== Proof.Bits.RunD.lean ====
/-
  The body at a later point of the second layer (points 51 to 99): table and first-layer output are only read; one
  more row block of the result is stored into the output window.
-/
import proofs.«161867_g88347477279355_cont_sun_m_1058_36_alg».proof.Proof.Bits.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_D (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : ¬cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    { L7 : List (View.Piece (Elt F) S200x16 .f32) //
      ∀ (xi7 : Vec F S200x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; isplitr; · ipureintro; exact harg9.read_unread _
      iexact HS0
    iexists _; isplitr; · ipureintro; exact harg10.read_unread _
    iexact HS1

end Cert.Kernel.Hand

end
-- ==== Proof.Bits.Contents.lean ====
/-
  What the two scratch buffers and the output array hold, in closed form, for every float instance.

  The kernel keeps an 18-column table: columns 0–15 the projected features of every node, column 16 the gate logit,
  column 17 the degree term.  At a grid point it reads the whole feature part of the table, the two gate columns at
  the point's 200 rows and the feature part at those rows, and the two adjacency row blocks, and computes one
  200 × 16 row block.  During the first 50 points the table is the first layer's and the row blocks fill the
  on-chip copy of that layer's output; at point 50 the table is refilled from that copy and the second layer's
  weights, and the row blocks of points 50–99 are the result's.
-/
import proofs.«161867_g88347477279355_cont_sun_m_1058_36_alg».proof.Proof.Bits.RunD
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The windows' blocks under their literal types -/

abbrev B0 (c : Dev nD) (t : Fin cfg0.N) : Vec F S10000x128 .f32 := iblk m c 0 t
abbrev B1 (c : Dev nD) (t : Fin cfg0.N) : Vec F S128x18 .f32 := iblk m c 1 t
abbrev B2 (c : Dev nD) (t : Fin cfg0.N) : Vec F S1x18 .f32 := iblk m c 2 t
abbrev B3 (c : Dev nD) (t : Fin cfg0.N) : Vec F S16x18 .f32 := iblk m c 3 t
abbrev B4 (c : Dev nD) (t : Fin cfg0.N) : Vec F S1x18 .f32 := iblk m c 4 t
abbrev B5 (c : Dev nD) (t : Fin cfg0.N) : Vec F S200x10000 .f32 := iblk m c 5 t
abbrev B6 (c : Dev nD) (t : Fin cfg0.N) : Vec F S200x10000 .f32 := iblk m c 6 t

/-! ## The grid's points by number -/

theorem N100 : cfg0.N = 100 := N_0

/-- Point number `n`. -/
def pt (n : ℕ) (h : n < 100) : Fin cfg0.N := ⟨n, lt_of_lt_of_eq h N100.symm⟩

theorem row_lt (y : S10000x16.Idx) : (y 0).val < 10000 := (y 0).isLt
theorem col_lt (y : S10000x16.Idx) : (y 1).val < 16 := (y 1).isLt

/-! ## What the body loads of the table -/

/-- The feature part: all rows, columns 0–15. -/
def T8 (S : Vec F S10000x18 .f32) : Vec F S10000x16 .f32 :=
  View.ld S (Rect.unit (s := S10000x18) ![0, 0] S10000x16.size inb_S10000x18_S10000x16_0_0)
/-- The gate logits of the point's rows: column 16. -/
def T10 (S : Vec F S10000x18 .f32) (i : grid0.Coords) : Vec F S200x1 .f32 :=
  View.ld S (Rect.unit (s := S10000x18) (k0_off1 i) S200x1.size (k0_off1_inb i))
/-- The degree terms of the point's rows: column 17. -/
def T13 (S : Vec F S10000x18 .f32) (i : grid0.Coords) : Vec F S200x1 .f32 :=
  View.ld S (Rect.unit (s := S10000x18) (k0_off2 i) S200x1.size (k0_off2_inb i))
/-- The feature part at the point's rows. -/
def T25 (S : Vec F S10000x18 .f32) (i : grid0.Coords) : Vec F S200x16 .f32 :=
  View.ld S (Rect.unit (s := S10000x18) (k0_off3 i) S200x16.size (k0_off3_inb i))

/-- The row block a point computes from the table `S` and its two adjacency row blocks. -/
def rowblk (S : Vec F S10000x18 .f32) (a ak : Vec F S200x10000 .f32) (i : grid0.Coords) : FVec F S200x16 .f32 :=
  k0_pay3 (T8 S) (T10 S i) (T13 S i) a ak (T25 S i)

/-! ## The contents, point by point -/

/-- The first layer's table: the features against the first layer's widened weights, plus its bias row. -/
def scr0 (c : Dev nD) : Vec F S10000x18 .f32 :=
  k0_pay1 (B0 m c (pt 0 (by omega))) (B1 m c (pt 0 (by omega))) (B2 m c (pt 0 (by omega)))

/-- The first layer's output: row `r` comes from point `r / 200`. -/
def x1full (c : Dev nD) : Vec F S10000x16 .f32 := fun y =>
  rowblk (scr0 m c) (B5 m c (pt ((y 0).val / 200) (by have := row_lt y; omega)))
      (B6 m c (pt ((y 0).val / 200) (by have := row_lt y; omega)))
      (grid0.coords (pt ((y 0).val / 200) (by have := row_lt y; omega)))
    (ix2 (⟨(y 0).val % 200, Nat.mod_lt _ (by omega)⟩ : Fin 200) (⟨(y 1).val, col_lt y⟩ : Fin 16))

/-- The second layer's table: the first layer's output against the second layer's widened weights, plus its bias row. -/
def scr1 (c : Dev nD) : Vec F S10000x18 .f32 :=
  k0_pay2 (x1full m c) (B3 m c (pt 50 (by omega))) (B4 m c (pt 50 (by omega)))

/-- The table after point `n`. -/
def scrAt (c : Dev nD) (n : ℕ) : Vec F S10000x18 .f32 := if n < 50 then scr0 m c else scr1 m c

/-- The result array: row `r` comes from point `50 + r / 200`. -/
def outFinal (c : Dev nD) : Vec F S10000x16 .f32 := fun y =>
  rowblk (scr1 m c) (B5 m c (pt (50 + (y 0).val / 200) (by have := row_lt y; omega)))
      (B6 m c (pt (50 + (y 0).val / 200) (by have := row_lt y; omega)))
      (grid0.coords (pt (50 + (y 0).val / 200) (by have := row_lt y; omega)))
    (ix2 (⟨(y 0).val % 200, Nat.mod_lt _ (by omega)⟩ : Fin 200) (⟨(y 1).val, col_lt y⟩ : Fin 16))

end Cert.Kernel.Hand

end
-- ==== Proof.Bits.PiecesFill.lean ====
/-
  The two points that refill the table, as values: the table ends at the fill's product whatever it held, and the row
  block stored after the fill in the same point reads the fill's product, not what the table held before.
-/
import proofs.«161867_g88347477279355_cont_sun_m_1058_36_alg».proof.Proof.Bits.Contents
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Three small facts used at both refilling points -/

/-- The row block's closing shape cast is to its own shape, so it changes nothing. -/
theorem fill_pay4 (v8 : Vec F S10000x16 .f32) (v10 v13 : Vec F S200x1 .f32) (v14 v16 : Vec F S200x10000 .f32) (v25 : Vec F S200x16 .f32) :
    k0_pay4 v8 v10 v13 v14 v16 v25 = k0_pay3 v8 v10 v13 v14 v16 v25 :=
  shapeCast_self _ _

/-- The two zero offsets, spelt as the constant function. -/
theorem fill_zero2 : (![0, 0] : Fin 2 → ℕ) = fun _ => 0 := by funext a; fin_cases a <;> rfl

/-- One store through the whole rectangle at zero offsets leaves its payload, whatever the buffer held before: every
    index lies under that one piece.  True of any shape and any view of it. -/
theorem fill_read_whole {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-! ## The first point

The table's one piece is the whole-table store of the first fill, computed from the three whole-buffer loads of the
features, the widened weights and the bias row.  The four loads of the table that follow in the same point read that
one store: the feature part, the two gate columns at the point's rows and the feature part at those rows are the
fill's product at the loads' indices. -/

/-- First point: the table ends at the first fill's product, whatever it held. -/
theorem runA_scr (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32)
    (f : arg9.view.ty.Contents (Elt F)) :
    arg9.view.read (Elt F) (arg9.view.writes (Elt F) f (kernelRun0_A c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).1) = k0_pay1 x0 x1 x2 := by
  unfold kernelRun0_A; dsimp only; sl_unfold_run_names
  refine (fill_read_whole arg9.view f fill_zero2 _ _).trans ?_
  simp only [View.readAt_eq_ld, Memref.IsWhole.read_unread, View.ld_unit_zero (S := S10000x128) fill_zero2,
    View.ld_unit_zero (S := S128x18) fill_zero2, View.ld_unit_zero (S := S1x18) fill_zero2]

/-- First point: the one store into the first layer's output is the row block computed from the fill's product. -/
theorem runA_x1 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    (kernelRun0_A c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).2.1
      = [⟨Rect.unit (s := S10000x16) (k0_off4 i) S200x16.size (k0_off4_inb i hc2), rowblk (k0_pay1 x0 x1 x2) x5 x6 i⟩] := by
  unfold kernelRun0_A; dsimp only; sl_unfold_run_names
  simp only [View.readAt_writes_junk_eq_canon, View.readCov_eq_canon', View.canon_unit_zero (S := S10000x18) fill_zero2,
    View.readAt_eq_ld, Memref.IsWhole.read_unread, View.ld_unit_zero (S := S10000x128) fill_zero2,
    View.ld_unit_zero (S := S128x18) fill_zero2, View.ld_unit_zero (S := S1x18) fill_zero2,
    View.ld_unit_zero (S := S200x10000) fill_zero2, fill_pay4]
  rfl

/-! ## Point 50

The same two facts for the second fill, computed from the first layer's output as the point finds it and the second
layer's widened weights and bias row; the row block goes to the output window's whole staging buffer. -/

/-- Point 50: the table ends at the second fill's product, whatever it held. -/
theorem runC_scr (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32)
    (f : arg9.view.ty.Contents (Elt F)) :
    arg9.view.read (Elt F) (arg9.view.writes (Elt F) f (kernelRun0_C c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).2.1) = k0_pay2 xs1 x3 x4 := by
  unfold kernelRun0_C; dsimp only; sl_unfold_run_names
  refine (fill_read_whole arg9.view f fill_zero2 _ _).trans ?_
  simp only [View.readAt_eq_ld, Memref.IsWhole.read_unread, View.ld_unit_zero (S := S10000x16) fill_zero2,
    View.ld_unit_zero (S := S16x18) fill_zero2, View.ld_unit_zero (S := S1x18) fill_zero2]

/-- Point 50: the output window ends at the row block computed from the second fill's product. -/
theorem runC_out (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32)
    (f : arg8.view.ty.Contents (Elt F)) :
    arg8.view.read (Elt F) (arg8.view.writes (Elt F) f (kernelRun0_C c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).1) = rowblk (k0_pay2 xs1 x3 x4) x5 x6 i := by
  unfold kernelRun0_C; dsimp only; sl_unfold_run_names
  refine (fill_read_whole arg8.view f fill_zero2 _ _).trans ?_
  simp only [View.readAt_writes_junk_eq_canon, View.readCov_eq_canon', View.canon_unit_zero (S := S10000x18) fill_zero2,
    View.readAt_eq_ld, Memref.IsWhole.read_unread, View.ld_unit_zero (S := S10000x16) fill_zero2,
    View.ld_unit_zero (S := S16x18) fill_zero2, View.ld_unit_zero (S := S1x18) fill_zero2,
    View.ld_unit_zero (S := S200x10000) fill_zero2]
  rfl

end Cert.Kernel.Hand

end
-- ==== Proof.Bits.PiecesPlain.lean ====
/-
  The points that only read the table, as values: the row block stored is the one computed from the table as found;
  and a row-block store into the first layer's output changes the block's 200 rows and nothing else.
-/
import proofs.«161867_g88347477279355_cont_sun_m_1058_36_alg».proof.Proof.Bits.Contents
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The stored row block's last shape cast changes nothing. -/
theorem pay4_eq (v8 : Vec F S10000x16 .f32) (v10 v13 : Vec F S200x1 .f32) (v14 v16 : Vec F S200x10000 .f32) (v25 : Vec F S200x16 .f32) :
    k0_pay4 v8 v10 v13 v14 v16 v25 = k0_pay3 v8 v10 v13 v14 v16 v25 := by
  unfold k0_pay4
  exact shapeCast_self _ _

/-- A load through a whole buffer held at the contents that read `X` is the load of `X`. -/
theorem readAt_unread_eq_ld {s : Shape} {e : EltTy} (mr : Memref sig .tc .vmem s e) (h : mr.IsWhole)
    (X : s.Idx → Elt F e) (r : Rect s) :
    View.readAt (Elt F) mr.view r.toLoadRect (h.unread X) = View.ld X r :=
  (View.readAt_eq_ld mr.view (h.unread X) r).trans (congrArg (fun Y => View.ld Y r) (h.read_unread X))

/-- A load of the whole buffer held at the contents that read `X` is `X`. -/
theorem readAt_unread_whole {s : Shape} {e : EltTy} (mr : Memref sig .tc .vmem s e) (h : mr.IsWhole)
    (X : s.Idx → Elt F e) {off : Fin s.rank → ℕ} (hz : off = fun _ => 0) (inb : ∀ a, off a + s.size a ≤ s.size a) :
    View.readAt (Elt F) mr.view (Rect.unit (s := s) off s.size inb).toLoadRect (h.unread X) = X :=
  (readAt_unread_eq_ld mr h X _).trans (View.ld_unit_zero hz inb X)

/-- The zero offsets of a rank-2 buffer, written as a literal pair, are the constant zero function. -/
theorem zero2 : (![0, 0] : Fin 2 → ℕ) = fun _ => 0 := by
  funext a; fin_cases a <;> rfl

/-- The row block computed from the loads of a table held at `S` and of the two adjacency row blocks held at `a`, `ak`
    is `rowblk S a ak i`. -/
theorem pay_loads (i : grid0.Coords) (arg6 : Memref sig .tc .vmem S200x10000 .f32) (harg6 : arg6.IsWhole)
    (arg7 : Memref sig .tc .vmem S200x10000 .f32) (harg7 : arg7.IsWhole)
    (arg9 : Memref sig .tc .vmem S10000x18 .f32) (harg9 : arg9.IsWhole)
    (a ak : Vec F S200x10000 .f32) (S : Vec F S10000x18 .f32) :
    k0_pay3
        (View.readAt (Elt F) arg9.view (Rect.unit (s := S10000x18) ![0, 0] S10000x16.size inb_S10000x18_S10000x16_0_0).toLoadRect (harg9.unread S))
        (View.readAt (Elt F) arg9.view (Rect.unit (s := S10000x18) (k0_off1 i) S200x1.size (k0_off1_inb i)).toLoadRect (harg9.unread S))
        (View.readAt (Elt F) arg9.view (Rect.unit (s := S10000x18) (k0_off2 i) S200x1.size (k0_off2_inb i)).toLoadRect (harg9.unread S))
        (View.readAt (Elt F) arg6.view (Rect.unit (s := S200x10000) ![0, 0] S200x10000.size inb_S200x10000_S200x10000_0_0).toLoadRect (harg6.unread a))
        (View.readAt (Elt F) arg7.view (Rect.unit (s := S200x10000) ![0, 0] S200x10000.size inb_S200x10000_S200x10000_0_0).toLoadRect (harg7.unread ak))
        (View.readAt (Elt F) arg9.view (Rect.unit (s := S10000x18) (k0_off3 i) S200x16.size (k0_off3_inb i)).toLoadRect (harg9.unread S))
      = rowblk S a ak i := by
  unfold rowblk T8 T10 T13 T25
  rw [readAt_unread_whole arg6 harg6 a zero2, readAt_unread_whole arg7 harg7 ak zero2,
    readAt_unread_eq_ld arg9 harg9 S, readAt_unread_eq_ld arg9 harg9 S, readAt_unread_eq_ld arg9 harg9 S,
    readAt_unread_eq_ld arg9 harg9 S]

/-- Points 1–49: the one store into the first layer's output is the row block computed from the table as found. -/
theorem runB_x1 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    (kernelRun0_B c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).1
      = [⟨Rect.unit (s := S10000x16) (k0_off4 i) S200x16.size (k0_off4_inb i hc2), rowblk xs0 x5 x6 i⟩] := by
  unfold kernelRun0_B
  dsimp only
  exact congrArg (fun w => [(⟨_, w⟩ : View.Piece (Elt F) S10000x16 .f32)])
    ((pay4_eq _ _ _ _ _ _).trans (pay_loads i arg6 harg6 arg7 harg7 arg9 harg9 x5 x6 xs0))

/-- One store through the whole output window leaves its payload, whatever was there. -/
theorem read_whole_piece (arg8 : Memref sig .tc .vmem S200x16 .f32) (f : arg8.view.ty.Contents (Elt F))
    (w : Vec F S200x16 .f32) :
    arg8.view.read (Elt F) (arg8.view.writes (Elt F) f
        [⟨Rect.unit (s := S200x16) ![0, 0] S200x16.size inb_S200x16_S200x16_0_0, w⟩]) = w := by
  funext y
  exact View.read_writes_cons_unit_of_mem arg8.view f inb_S200x16_S200x16_0_0 w [] y y zero2
    (fun a => (Nat.zero_add _).symm)

/-- Points 51–99: the output window ends at the row block computed from the table as found. -/
theorem runD_out (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : ¬cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32)
    (f : arg8.view.ty.Contents (Elt F)) :
    arg8.view.read (Elt F) (arg8.view.writes (Elt F) f (kernelRun0_D c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).1) = rowblk xs0 x5 x6 i := by
  unfold kernelRun0_D
  dsimp only
  sl_unfold_run_names
  exact (read_whole_piece arg8 f _).trans (pay_loads i arg6 harg6 arg7 harg7 arg9 harg9 x5 x6 xs0)

/-- A row-block store into the first layer's output, read back: inside the block's 200 rows the stored block,
    elsewhere what was there. -/
theorem x1_store (arg10 : Memref sig .tc .vmem S10000x16 .f32) (harg10 : arg10.IsWhole) (X : Vec F S10000x16 .f32)
    (i : grid0.Coords) (hc2 : cond0_2 i) (w : FVec F S200x16 .f32) (y : S10000x16.Idx) :
    arg10.view.read (Elt F) (arg10.view.writes (Elt F) (harg10.unread X)
        [⟨Rect.unit (s := S10000x16) (k0_off4 i) S200x16.size (k0_off4_inb i hc2), w⟩]) y
      = if h : 200 * ((i 0).val % 50) ≤ (y 0).val ∧ (y 0).val < 200 * ((i 0).val % 50) + 200 then
          w (ix2 (⟨(y 0).val - 200 * ((i 0).val % 50), by omega⟩ : Fin 200) (⟨(y 1).val, col_lt y⟩ : Fin 16))
        else X y := by
  refine (View.read_writes_cons_rows arg10.view (harg10.unread X) (k0_off4_inb i hc2) w [] y
    (o := 200 * ((i 0).val % 50)) (W := 200) (k0_off4_eq i) rfl rfl).trans ?_
  by_cases h : 200 * ((i 0).val % 50) ≤ (y 0).val ∧ (y 0).val < 200 * ((i 0).val % 50) + 200
  · rw [dif_pos h, dif_pos h]
    refine congrArg w (funext fun a => ?_)
    match a with
    | ⟨0, _⟩ => exact Fin.ext rfl
    | ⟨1, _⟩ => exact Fin.ext rfl
  · rw [dif_neg h, dif_neg h, View.writes_nil, harg10.read_unread]

end Cert.Kernel.Hand

end
-- ==== Proof.Bits.Pieces.lean ====
/-
  What each control case's stores leave, as values (the two modules below).
-/
import proofs.«161867_g88347477279355_cont_sun_m_1058_36_alg».proof.Proof.Bits.PiecesFill
import proofs.«161867_g88347477279355_cont_sun_m_1058_36_alg».proof.Proof.Bits.PiecesPlain
-- ==== Proof.Bits.Frame.lean ====
/-
  The frame of the one pallas_call, for every float instance: the invariant the 100 grid points carry, the body at
  each point, the launch, and the claim that the program runs to the end leaving its arguments unchanged.

  Between points the 18-column table holds the current layer's product (`scrAt`), and the on-chip copy of the first
  layer's output agrees with that output (`x1full`) on the rows the points so far have stored — all of them from
  point 50 on, which is what the second fill needs.  The output window is idle during the first layer and holds the
  point's row block of the result during the second.
-/
import proofs.«161867_g88347477279355_cont_sun_m_1058_36_alg».proof.Proof.Bits.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Small facts about the points -/

theorem coords0 : ∀ t : Fin cfg0.N, ((grid0.coords t) 0).val = t.val :=
  (by decide +kernel : ∀ t : Fin grid0.N, ((grid0.coords t) 0).val = t.val)

theorem scrAt_lt (c : Dev nD) (n : ℕ) (h : n < 50) : scrAt m c n = scr0 m c := if_pos h
theorem scrAt_ge (c : Dev nD) (n : ℕ) (h : ¬n < 50) : scrAt m c n = scr1 m c := if_neg h

/-- The first layer's output as far as the first `n` points have stored it: rows below `200 n`. -/
def X1ok (c : Dev nD) (n : ℕ) (X : Vec F S10000x16 .f32) : Prop :=
  ∀ y : S10000x16.Idx, (y 0).val < 200 * n → X y = x1full m c y

theorem X1ok_all (c : Dev nD) (n : ℕ) (hn : 50 ≤ n) (X : Vec F S10000x16 .f32) (h : X1ok m c n X) : X = x1full m c :=
  funext fun y => h y (by have := row_lt y; omega)

theorem X1ok_of_eq (c : Dev nD) (n : ℕ) : X1ok m c n (x1full m c) := fun _ _ => rfl

/-- One more point of the first layer: storing the point's row block settles its 200 rows and keeps the rows below. -/
theorem x1_step (c : Dev nD) (t : Fin cfg0.N) (ht : t.val < 50) (hc2 : cond0_2 (grid0.coords t))
    (arg10 : Memref sig .tc .vmem S10000x16 .f32) (harg10 : arg10.IsWhole)
    (X : Vec F S10000x16 .f32) (hX : X1ok m c t.val X) :
    X1ok m c (t.val + 1) (arg10.view.read (Elt F) (arg10.view.writes (Elt F) (harg10.unread X)
      [⟨Rect.unit (s := S10000x16) (k0_off4 (grid0.coords t)) S200x16.size (k0_off4_inb (grid0.coords t) hc2),
        rowblk (scr0 m c) (B5 m c t) (B6 m c t) (grid0.coords t)⟩])) := by
  intro y hy
  rw [x1_store arg10 harg10 X (grid0.coords t) hc2]
  have hi : ((grid0.coords t) 0).val % 50 = t.val := by rw [coords0]; exact Nat.mod_eq_of_lt ht
  have hr := row_lt y
  split
  · rename_i hin
    rw [hi] at hin
    have hq : (y 0).val / 200 = t.val := by omega
    have ht' : pt ((y 0).val / 200) (by omega) = t := Fin.ext hq
    unfold x1full
    rw [ht']
    refine congrArg _ ?_
    refine congrArg₂ ix2 (Fin.ext ?_) rfl
    show (y 0).val - 200 * (((grid0.coords t) 0).val % 50) = (y 0).val % 200
    rw [hi]; omega
  · rename_i hout
    rw [hi] at hout
    exact hX y (by omega)

/-! ## The invariant -/

/-- Before position `n`: at the start anything in both scratch buffers; afterwards the table at the current layer's
    product and the first layer's output settled on the rows stored so far. -/
def PhiS (c : Dev nD) : (n : ℕ) → n ≤ cfg0.N → sProp 𝕄
  | 0, _ => Pipeline.ΦA spec0 c
  | n + 1, _ => iprop(iprop(owns (c : Thread nD τ) scM0_0 fullShare (scrAt m c n)
      ∗ (∃ X, ⌜X1ok m c (n + 1) X⌝ ∗ owns (c : Thread nD τ) scM0_1 fullShare X)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c n)
      ∗ (∃ X, ⌜X1ok m c (n + 1) X⌝ ∗ owns (c : Thread nD τ) scM0_1 fullShare X)) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c (n - 1))
      ∗ (∃ X, ⌜X1ok m c n X⌝ ∗ owns (c : Thread nD τ) scM0_1 fullShare X)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowblk (scr1 m c) (B5 m c t) (B6 m c t) (grid0.coords t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) :
    (dats m 0 c).after 7 t = rowblk (scr1 m c) (B5 m c t) (B6 m c t) (grid0.coords t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) (h : cond0_3 (grid0.coords t)) :
    (dats m 0 c).leavesExact 7 t
      = owns (c : Thread nD τ) (ms0_7 t) fullShare (rowblk (scr1 m c) (B5 m c t) (B6 m c t) (grid0.coords t)) := by
  unfold Dat.leavesExact; rw [liveAt0_7 t h, after0_7]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6]
  have hN : t.val < 100 := lt_of_lt_of_eq t.isLt N100
  by_cases h0 : t.val = 0
  · -- the first point
    have hc0 : cond0_0 (grid0.coords t) := (hcond0_0 t).mpr h0
    have hc1 : ¬cond0_1 (grid0.coords t) := fun h => by have := (hcond0_1 t).mp h; omega
    have hc2 : cond0_2 (grid0.coords t) := (hcond0_2 t).mpr (by omega)
    have hc3 : ¬cond0_3 (grid0.coords t) := fun h => by have := (hcond0_3 t).mp h; omega
    have ht : t = pt 0 (by decide) := Fin.ext h0
    rw [Dat.leavesExact_idle (dats m 0 c) 7 t (idleAt0_7 t hc3) (noFlush0_7 t hc3)]
    rw [PhiS_castSucc m c t, PhiS_zero m c _ _ h0, PhiA0_eq, scrAt_lt m c _ (by omega)]
    iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ hc0 hc1 hc2 hc3 (iblk m c 0 t) (iblk m c 1 t) (iblk m c 2 t) (iblk m c 3 t) (iblk m c 4 t) (iblk m c 5 t) (iblk m c 6 t) xs0 xs1).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, HS1⟩
    isplitl [HS0 HS1 Hg]
    · isplitl [HS0 HS1]
      · isplitl [HS0]
        · unfold owns; iexists _; isplitr
          swap; · iexact HS0
          ipureintro
          refine (runA_scr c _ _ _ _ _ _ _ _ _ _ _ _ _ _ _ _ _ _ _ _ _ hc0 hc1 hc2 hc3 _ _ _ _ _ _ _ xs0 xs1 es0).trans ?_
          subst ht; rfl
        · iexists _; isplitr
          swap
          · unfold owns; iexists _; isplitr
            swap; · iexact HS1
            ipureintro; rfl
          ipureintro
          rw [runA_x1]
          have e : k0_pay1 (iblk m c 0 t) (iblk m c 1 t) (iblk m c 2 t) = scr0 m c := by subst ht; rfl
          rw [e]
          exact x1_step m c t (by omega) hc2 _ _ xs1 (fun y hy => absurd hy (by omega))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val < 50
    · -- a later point of the first layer
      have hc0 : ¬cond0_0 (grid0.coords t) := fun h => h0 ((hcond0_0 t).mp h)
      have hc1 : ¬cond0_1 (grid0.coords t) := fun h => by have := (hcond0_1 t).mp h; omega
      have hc2 : cond0_2 (grid0.coords t) := (hcond0_2 t).mpr h1
      have hc3 : ¬cond0_3 (grid0.coords t) := fun h => by have := (hcond0_3 t).mp h; omega
      rw [Dat.leavesExact_idle (dats m 0 c) 7 t (idleAt0_7 t hc3) (noFlush0_7 t hc3)]
      rw [PhiS_castSucc m c t, PhiS_pos m c _ _ h0, scrAt_lt m c _ (by omega), scrAt_lt m c _ h1]
      iintro ⟨⟨⟨HS0, ⟨%X, %hX, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 hc2 hc3 (iblk m c 0 t) (iblk m c 1 t) (iblk m c 2 t) (iblk m c 3 t) (iblk m c 4 t) (iblk m c 5 t) (iblk m c 6 t) (scr0 m c) X).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [runB_x1]
            exact x1_step m c t h1 hc2 _ _ X hX
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases h2 : t.val = 50
      · -- the second fill
        have hc0 : ¬cond0_0 (grid0.coords t) := fun h => h0 ((hcond0_0 t).mp h)
        have hc1 : cond0_1 (grid0.coords t) := (hcond0_1 t).mpr h2
        have hc2 : ¬cond0_2 (grid0.coords t) := fun h => h1 ((hcond0_2 t).mp h)
        have hc3 : cond0_3 (grid0.coords t) := (hcond0_3 t).mpr (by omega)
        have ht : t = pt 50 (by decide) := Fin.ext h2
        rw [leaves0_7 m c t hc3]
        rw [PhiS_castSucc m c t, PhiS_pos m c _ _ h0, scrAt_ge m c t.val h1]
        iintro ⟨⟨⟨HS0, ⟨%X, %hX, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl : X = x1full m c := X1ok_all m c _ (by omega) X hX
        iapply ((kernelRun0_C c (grid0.coords t) _ _ _ _ _ _ _ _ _ _ _ _ _ _ _ _ _ _ _ _ hc0 hc1 hc2 hc3 (iblk m c 0 t) (iblk m c 1 t) (iblk m c 2 t) (iblk m c 3 t) (iblk m c 4 t) (iblk m c 5 t) (iblk m c 6 t) (scrAt m c (t.val - 1)) (x1full m c)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, ⟨%e7, H7⟩, ⟨%es0, HS0⟩, HS1⟩
        have e : k0_pay2 (x1full m c) (iblk m c 3 t) (iblk m c 4 t) = scr1 m c := by subst ht; rfl
        isplitl [HS0 HS1 Hg]
        · isplitl [HS0 HS1]
          · isplitl [HS0]
            · unfold owns; iexists _; isplitr
              swap; · iexact HS0
              ipureintro
              exact (runC_scr c _ _ _ _ _ _ _ _ _ _ _ _ _ _ _ _ _ _ _ _ _ hc0 hc1 hc2 hc3 _ _ _ _ _ _ _ _ _ es0).trans e
            · iexists _; isplitr
              swap; · iexact HS1
              ipureintro; exact X1ok_of_eq m c _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro
        refine (runC_out c _ _ _ _ _ _ _ _ _ _ _ _ _ _ _ _ _ _ _ _ _ hc0 hc1 hc2 hc3 _ _ _ _ _ _ _ _ _ e7).trans ?_
        rw [e]
      · -- a later point of the second layer
        have hc0 : ¬cond0_0 (grid0.coords t) := fun h => h0 ((hcond0_0 t).mp h)
        have hc1 : ¬cond0_1 (grid0.coords t) := fun h => h2 ((hcond0_1 t).mp h)
        have hc2 : ¬cond0_2 (grid0.coords t) := fun h => h1 ((hcond0_2 t).mp h)
        have hc3 : cond0_3 (grid0.coords t) := (hcond0_3 t).mpr (by omega)
        rw [leaves0_7 m c t hc3]
        rw [PhiS_castSucc m c t, PhiS_pos m c _ _ h0, scrAt_ge m c _ (by omega), scrAt_ge m c t.val h1]
        iintro ⟨⟨⟨HS0, ⟨%X, %hX, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl : X = x1full m c := X1ok_all m c _ (by omega) X hX
        iapply ((kernelRun0_D c (grid0.coords t) _ _ _ _ _ _ _ _ _ _ _ _ _ _ _ _ _ _ _ _ hc0 hc1 hc2 hc3 (iblk m c 0 t) (iblk m c 1 t) (iblk m c 2 t) (iblk m c 3 t) (iblk m c 4 t) (iblk m c 5 t) (iblk m c 6 t) (scr1 m c) (x1full m c)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, ⟨%e7, H7⟩, HS0, HS1⟩
        isplitl [HS0 HS1 Hg]
        · isplitl [HS0 HS1]
          · isplitl [HS0]
            · iexact HS0
            · iexists _; isplitr
              swap; · iexact HS1
              ipureintro; exact X1ok_of_eq m c _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro
        exact runD_out c _ _ _ _ _ _ _ _ _ _ _ _ _ _ _ _ _ _ _ _ _ hc0 hc1 hc2 hc3 _ _ _ _ _ _ _ _ _ e7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%X, %hX, HS1⟩⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 100 := N100; omega)

/-! ## The run and the frame -/

set_option backward.isDefEq.respectTransparency.types false in
/-- Every weakly fair execution of @main terminates with every array of the pipeline at what the proof data computes
    and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere and leaves its thirteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.Kit.lean ====
/-
  The setting the one pallas_call runs in, for every float instance: what each buffer holds when the region is
  entered (the launch memory after the ten host operations that build the concatenated weights and bias rows),
  each window's block at a grid point, the body's four branch conditions in closed form over the 100 points
  (first point; point 50; points below 50; points from 50 on), where the output window is idle, the two scratch
  buffers as the region's invariant holds them, and the frame claim's post read off a frame run.
-/
import proofs.«161867_g88347477279355_cont_sun_m_1058_36_alg».proof.Proof.Gen.KernelIdeal.Launch
import proofs.«161867_g88347477279355_cont_sun_m_1058_36_alg».proof.Proof.Gen.KernelIdeal.Skeleton
import proofs.«161867_g88347477279355_cont_sun_m_1058_36_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the grid -/

/-- The first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- Point 50, where the second layer starts. -/
abbrev cond0_1 (i : grid0.Coords) : Prop := (Scalar.cmpi .ne (Scalar.extui (Scalar.cmpi .eq (BitVec.ofNat 32 (i 0).val) 50#32)) 0#32) = 1#1
theorem hcond0_1 : ∀ t : Fin cfg0.N, cond0_1 (grid0.coords t) ↔ t.val = 50 :=
  (by decide +kernel : ∀ t : Fin grid0.N, cond0_1 (grid0.coords t) ↔ t.val = 50)
/-- The first layer's points. -/
abbrev cond0_2 (i : grid0.Coords) : Prop := k0_cond3 i = 1#1
theorem hcond0_2 : ∀ t : Fin cfg0.N, cond0_2 (grid0.coords t) ↔ t.val < 50 :=
  (by decide +kernel : ∀ t : Fin grid0.N, cond0_2 (grid0.coords t) ↔ t.val < 50)
/-- The second layer's points. -/
abbrev cond0_3 (i : grid0.Coords) : Prop := k0_cond4 i = 1#1
theorem hcond0_3 : ∀ t : Fin cfg0.N, cond0_3 (grid0.coords t) ↔ 50 ≤ t.val :=
  (by decide +kernel : ∀ t : Fin grid0.N, cond0_3 (grid0.coords t) ↔ 50 ≤ t.val)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- At a first-layer point the output window is idle: nothing is stored into it, -/
theorem idleAt0_7 : ∀ t : Fin cfg0.N, ¬cond0_3 (grid0.coords t) → cfg0.idle 7 (grid0.coords t) = true := by decide +kernel
/-- and its block is not written back there. -/
theorem noFlush0_7 : ∀ t : Fin cfg0.N, ¬cond0_3 (grid0.coords t) → (cfg0.win 7).flush t = false := by decide +kernel
/-- At a second-layer point it is live. -/
theorem liveAt0_7 : ∀ t : Fin cfg0.N, cond0_3 (grid0.coords t) → cfg0.idle 7 (grid0.coords t) = false := by decide +kernel

/-! ## The staging and scratch memrefs -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x18 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x18 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x18 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x18 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x10000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x10000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x16 .f32 := win0_7.stage (cfg0.slots t 7)
abbrev hs0_7 (t : Fin cfg0.N) : (ms0_7 t).IsWhole := hstage0_7 ((cfg0.slots t 7).cast nbuf0_7)
/-- The per-node scratch: the projected features and the two gate columns. -/
abbrev scM0_0 : Memref sig .tc .vmem S10000x18 .f32 := Memref.whole cc0_scratch0
/-- The first layer's output, kept on chip. -/
abbrev scM0_1 : Memref sig .tc .vmem S10000x16 .f32 := Memref.whole cc0_scratch1

/-- The region's class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 5).trans (((dats 0 c).arrAt_in 5 rfl _).trans ((hA c 5).trans (V_main_arg1 m c))),
      ((h c).1 6).trans (((dats 0 c).arrAt_in 6 rfl _).trans ((hA c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

end Cert.KernelIdeal.Hand

end
-- ==== Proof.RunA.lean ====
/-
  The body at the first grid point: it fills the 18-column table from the features and the first layer's widened
  weights, then computes the first row block of the first layer and stores it into the on-chip copy of that layer's
  output.  The output window is left untouched.  What the stores leave is found by running the body symbolically.
-/
import proofs.«161867_g88347477279355_cont_sun_m_1058_36_alg».proof.Proof.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    Σ' (LS0 : List (View.Piece (Elt F) S10000x18 .f32)), { LS1 : List (View.Piece (Elt F) S10000x16 .f32) //
      ∀ (xi7 : Vec F S200x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, ?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    iexact HS1

end Cert.KernelIdeal.Hand

end
-- ==== Proof.RunB.lean ====
/-
  The body at a later point of the first layer (points 1 to 49): the table is only read; one more row block of the
  first layer's output is stored.  The output window is left untouched.
-/
import proofs.«161867_g88347477279355_cont_sun_m_1058_36_alg».proof.Proof.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    { LS1 : List (View.Piece (Elt F) S10000x16 .f32) //
      ∀ (xi7 : Vec F S200x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexact HS1

end Cert.KernelIdeal.Hand

end
-- ==== Proof.RunC.lean ====
/-
  The body at point 50, where the second layer starts: it refills the table from the first layer's output and the
  second layer's widened weights, then computes the first row block of the result and stores it into the output
  window.  The first layer's output is only read.
-/
import proofs.«161867_g88347477279355_cont_sun_m_1058_36_alg».proof.Proof.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    Σ' (L7 : List (View.Piece (Elt F) S200x16 .f32)), { LS0 : List (View.Piece (Elt F) S10000x18 .f32) //
      ∀ (xi7 : Vec F S200x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, ?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; iexact HS0
    iexists _; isplitr; · ipureintro; exact harg10.read_unread _
    iexact HS1

end Cert.KernelIdeal.Hand

end
-- ==== Proof.RunD.lean ====
/-
  The body at a later point of the second layer (points 51 to 99): table and first-layer output are only read; one
  more row block of the result is stored into the output window.
-/
import proofs.«161867_g88347477279355_cont_sun_m_1058_36_alg».proof.Proof.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_D (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : ¬cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    { L7 : List (View.Piece (Elt F) S200x16 .f32) //
      ∀ (xi7 : Vec F S200x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; isplitr; · ipureintro; exact harg9.read_unread _
      iexact HS0
    iexists _; isplitr; · ipureintro; exact harg10.read_unread _
    iexact HS1

end Cert.KernelIdeal.Hand

end
-- ==== Proof.Contents.lean ====
/-
  What the two scratch buffers and the output array hold, in closed form, for every float instance.

  The kernel keeps an 18-column table: columns 0–15 the projected features of every node, column 16 the gate logit,
  column 17 the degree term.  At a grid point it reads the whole feature part of the table, the two gate columns at
  the point's 200 rows and the feature part at those rows, and the two adjacency row blocks, and computes one
  200 × 16 row block.  During the first 50 points the table is the first layer's and the row blocks fill the
  on-chip copy of that layer's output; at point 50 the table is refilled from that copy and the second layer's
  weights, and the row blocks of points 50–99 are the result's.
-/
import proofs.«161867_g88347477279355_cont_sun_m_1058_36_alg».proof.Proof.RunD
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The windows' blocks under their literal types -/

abbrev B0 (c : Dev nD) (t : Fin cfg0.N) : Vec F S10000x128 .f32 := iblk m c 0 t
abbrev B1 (c : Dev nD) (t : Fin cfg0.N) : Vec F S128x18 .f32 := iblk m c 1 t
abbrev B2 (c : Dev nD) (t : Fin cfg0.N) : Vec F S1x18 .f32 := iblk m c 2 t
abbrev B3 (c : Dev nD) (t : Fin cfg0.N) : Vec F S16x18 .f32 := iblk m c 3 t
abbrev B4 (c : Dev nD) (t : Fin cfg0.N) : Vec F S1x18 .f32 := iblk m c 4 t
abbrev B5 (c : Dev nD) (t : Fin cfg0.N) : Vec F S200x10000 .f32 := iblk m c 5 t
abbrev B6 (c : Dev nD) (t : Fin cfg0.N) : Vec F S200x10000 .f32 := iblk m c 6 t

/-! ## The grid's points by number -/

theorem N100 : cfg0.N = 100 := N_0

/-- Point number `n`. -/
def pt (n : ℕ) (h : n < 100) : Fin cfg0.N := ⟨n, lt_of_lt_of_eq h N100.symm⟩

theorem row_lt (y : S10000x16.Idx) : (y 0).val < 10000 := (y 0).isLt
theorem col_lt (y : S10000x16.Idx) : (y 1).val < 16 := (y 1).isLt

/-! ## What the body loads of the table -/

/-- The feature part: all rows, columns 0–15. -/
def T8 (S : Vec F S10000x18 .f32) : Vec F S10000x16 .f32 :=
  View.ld S (Rect.unit (s := S10000x18) ![0, 0] S10000x16.size inb_S10000x18_S10000x16_0_0)
/-- The gate logits of the point's rows: column 16. -/
def T10 (S : Vec F S10000x18 .f32) (i : grid0.Coords) : Vec F S200x1 .f32 :=
  View.ld S (Rect.unit (s := S10000x18) (k0_off1 i) S200x1.size (k0_off1_inb i))
/-- The degree terms of the point's rows: column 17. -/
def T13 (S : Vec F S10000x18 .f32) (i : grid0.Coords) : Vec F S200x1 .f32 :=
  View.ld S (Rect.unit (s := S10000x18) (k0_off2 i) S200x1.size (k0_off2_inb i))
/-- The feature part at the point's rows. -/
def T25 (S : Vec F S10000x18 .f32) (i : grid0.Coords) : Vec F S200x16 .f32 :=
  View.ld S (Rect.unit (s := S10000x18) (k0_off3 i) S200x16.size (k0_off3_inb i))

/-- The row block a point computes from the table `S` and its two adjacency row blocks. -/
def rowblk (S : Vec F S10000x18 .f32) (a ak : Vec F S200x10000 .f32) (i : grid0.Coords) : FVec F S200x16 .f32 :=
  k0_pay3 (T8 S) (T10 S i) (T13 S i) a ak (T25 S i)

/-! ## The contents, point by point -/

/-- The first layer's table: the features against the first layer's widened weights, plus its bias row. -/
def scr0 (c : Dev nD) : Vec F S10000x18 .f32 :=
  k0_pay1 (B0 m c (pt 0 (by omega))) (B1 m c (pt 0 (by omega))) (B2 m c (pt 0 (by omega)))

/-- The first layer's output: row `r` comes from point `r / 200`. -/
def x1full (c : Dev nD) : Vec F S10000x16 .f32 := fun y =>
  rowblk (scr0 m c) (B5 m c (pt ((y 0).val / 200) (by have := row_lt y; omega)))
      (B6 m c (pt ((y 0).val / 200) (by have := row_lt y; omega)))
      (grid0.coords (pt ((y 0).val / 200) (by have := row_lt y; omega)))
    (ix2 (⟨(y 0).val % 200, Nat.mod_lt _ (by omega)⟩ : Fin 200) (⟨(y 1).val, col_lt y⟩ : Fin 16))

/-- The second layer's table: the first layer's output against the second layer's widened weights, plus its bias row. -/
def scr1 (c : Dev nD) : Vec F S10000x18 .f32 :=
  k0_pay2 (x1full m c) (B3 m c (pt 50 (by omega))) (B4 m c (pt 50 (by omega)))

/-- The table after point `n`. -/
def scrAt (c : Dev nD) (n : ℕ) : Vec F S10000x18 .f32 := if n < 50 then scr0 m c else scr1 m c

/-- The result array: row `r` comes from point `50 + r / 200`. -/
def outFinal (c : Dev nD) : Vec F S10000x16 .f32 := fun y =>
  rowblk (scr1 m c) (B5 m c (pt (50 + (y 0).val / 200) (by have := row_lt y; omega)))
      (B6 m c (pt (50 + (y 0).val / 200) (by have := row_lt y; omega)))
      (grid0.coords (pt (50 + (y 0).val / 200) (by have := row_lt y; omega)))
    (ix2 (⟨(y 0).val % 200, Nat.mod_lt _ (by omega)⟩ : Fin 200) (⟨(y 1).val, col_lt y⟩ : Fin 16))

end Cert.KernelIdeal.Hand

end
-- ==== Proof.PiecesFill.lean ====
/-
  The two points that refill the table, as values: the table ends at the fill's product whatever it held, and the row
  block stored after the fill in the same point reads the fill's product, not what the table held before.
-/
import proofs.«161867_g88347477279355_cont_sun_m_1058_36_alg».proof.Proof.Contents
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Three small facts used at both refilling points -/

/-- The row block's closing shape cast is to its own shape, so it changes nothing. -/
theorem fill_pay4 (v8 : Vec F S10000x16 .f32) (v10 v13 : Vec F S200x1 .f32) (v14 v16 : Vec F S200x10000 .f32) (v25 : Vec F S200x16 .f32) :
    k0_pay4 v8 v10 v13 v14 v16 v25 = k0_pay3 v8 v10 v13 v14 v16 v25 :=
  shapeCast_self _ _

/-- The two zero offsets, spelt as the constant function. -/
theorem fill_zero2 : (![0, 0] : Fin 2 → ℕ) = fun _ => 0 := by funext a; fin_cases a <;> rfl

/-- One store through the whole rectangle at zero offsets leaves its payload, whatever the buffer held before: every
    index lies under that one piece.  True of any shape and any view of it. -/
theorem fill_read_whole {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-! ## The first point

The table's one piece is the whole-table store of the first fill, computed from the three whole-buffer loads of the
features, the widened weights and the bias row.  The four loads of the table that follow in the same point read that
one store: the feature part, the two gate columns at the point's rows and the feature part at those rows are the
fill's product at the loads' indices. -/

/-- First point: the table ends at the first fill's product, whatever it held. -/
theorem runA_scr (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32)
    (f : arg9.view.ty.Contents (Elt F)) :
    arg9.view.read (Elt F) (arg9.view.writes (Elt F) f (kernelRun0_A c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).1) = k0_pay1 x0 x1 x2 := by
  unfold kernelRun0_A; dsimp only; sl_unfold_run_names
  refine (fill_read_whole arg9.view f fill_zero2 _ _).trans ?_
  simp only [View.readAt_eq_ld, Memref.IsWhole.read_unread, View.ld_unit_zero (S := S10000x128) fill_zero2,
    View.ld_unit_zero (S := S128x18) fill_zero2, View.ld_unit_zero (S := S1x18) fill_zero2]

/-- First point: the one store into the first layer's output is the row block computed from the fill's product. -/
theorem runA_x1 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    (kernelRun0_A c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).2.1
      = [⟨Rect.unit (s := S10000x16) (k0_off4 i) S200x16.size (k0_off4_inb i hc2), rowblk (k0_pay1 x0 x1 x2) x5 x6 i⟩] := by
  unfold kernelRun0_A; dsimp only; sl_unfold_run_names
  simp only [View.readAt_writes_junk_eq_canon, View.readCov_eq_canon', View.canon_unit_zero (S := S10000x18) fill_zero2,
    View.readAt_eq_ld, Memref.IsWhole.read_unread, View.ld_unit_zero (S := S10000x128) fill_zero2,
    View.ld_unit_zero (S := S128x18) fill_zero2, View.ld_unit_zero (S := S1x18) fill_zero2,
    View.ld_unit_zero (S := S200x10000) fill_zero2, fill_pay4]
  rfl

/-! ## Point 50

The same two facts for the second fill, computed from the first layer's output as the point finds it and the second
layer's widened weights and bias row; the row block goes to the output window's whole staging buffer. -/

/-- Point 50: the table ends at the second fill's product, whatever it held. -/
theorem runC_scr (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32)
    (f : arg9.view.ty.Contents (Elt F)) :
    arg9.view.read (Elt F) (arg9.view.writes (Elt F) f (kernelRun0_C c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).2.1) = k0_pay2 xs1 x3 x4 := by
  unfold kernelRun0_C; dsimp only; sl_unfold_run_names
  refine (fill_read_whole arg9.view f fill_zero2 _ _).trans ?_
  simp only [View.readAt_eq_ld, Memref.IsWhole.read_unread, View.ld_unit_zero (S := S10000x16) fill_zero2,
    View.ld_unit_zero (S := S16x18) fill_zero2, View.ld_unit_zero (S := S1x18) fill_zero2]

/-- Point 50: the output window ends at the row block computed from the second fill's product. -/
theorem runC_out (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32)
    (f : arg8.view.ty.Contents (Elt F)) :
    arg8.view.read (Elt F) (arg8.view.writes (Elt F) f (kernelRun0_C c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).1) = rowblk (k0_pay2 xs1 x3 x4) x5 x6 i := by
  unfold kernelRun0_C; dsimp only; sl_unfold_run_names
  refine (fill_read_whole arg8.view f fill_zero2 _ _).trans ?_
  simp only [View.readAt_writes_junk_eq_canon, View.readCov_eq_canon', View.canon_unit_zero (S := S10000x18) fill_zero2,
    View.readAt_eq_ld, Memref.IsWhole.read_unread, View.ld_unit_zero (S := S10000x16) fill_zero2,
    View.ld_unit_zero (S := S16x18) fill_zero2, View.ld_unit_zero (S := S1x18) fill_zero2,
    View.ld_unit_zero (S := S200x10000) fill_zero2]
  rfl

end Cert.KernelIdeal.Hand

end
-- ==== Proof.PiecesPlain.lean ====
/-
  The points that only read the table, as values: the row block stored is the one computed from the table as found;
  and a row-block store into the first layer's output changes the block's 200 rows and nothing else.
-/
import proofs.«161867_g88347477279355_cont_sun_m_1058_36_alg».proof.Proof.Contents
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The stored row block's last shape cast changes nothing. -/
theorem pay4_eq (v8 : Vec F S10000x16 .f32) (v10 v13 : Vec F S200x1 .f32) (v14 v16 : Vec F S200x10000 .f32) (v25 : Vec F S200x16 .f32) :
    k0_pay4 v8 v10 v13 v14 v16 v25 = k0_pay3 v8 v10 v13 v14 v16 v25 := by
  unfold k0_pay4
  exact shapeCast_self _ _

/-- A load through a whole buffer held at the contents that read `X` is the load of `X`. -/
theorem readAt_unread_eq_ld {s : Shape} {e : EltTy} (mr : Memref sig .tc .vmem s e) (h : mr.IsWhole)
    (X : s.Idx → Elt F e) (r : Rect s) :
    View.readAt (Elt F) mr.view r.toLoadRect (h.unread X) = View.ld X r :=
  (View.readAt_eq_ld mr.view (h.unread X) r).trans (congrArg (fun Y => View.ld Y r) (h.read_unread X))

/-- A load of the whole buffer held at the contents that read `X` is `X`. -/
theorem readAt_unread_whole {s : Shape} {e : EltTy} (mr : Memref sig .tc .vmem s e) (h : mr.IsWhole)
    (X : s.Idx → Elt F e) {off : Fin s.rank → ℕ} (hz : off = fun _ => 0) (inb : ∀ a, off a + s.size a ≤ s.size a) :
    View.readAt (Elt F) mr.view (Rect.unit (s := s) off s.size inb).toLoadRect (h.unread X) = X :=
  (readAt_unread_eq_ld mr h X _).trans (View.ld_unit_zero hz inb X)

/-- The zero offsets of a rank-2 buffer, written as a literal pair, are the constant zero function. -/
theorem zero2 : (![0, 0] : Fin 2 → ℕ) = fun _ => 0 := by
  funext a; fin_cases a <;> rfl

/-- The row block computed from the loads of a table held at `S` and of the two adjacency row blocks held at `a`, `ak`
    is `rowblk S a ak i`. -/
theorem pay_loads (i : grid0.Coords) (arg6 : Memref sig .tc .vmem S200x10000 .f32) (harg6 : arg6.IsWhole)
    (arg7 : Memref sig .tc .vmem S200x10000 .f32) (harg7 : arg7.IsWhole)
    (arg9 : Memref sig .tc .vmem S10000x18 .f32) (harg9 : arg9.IsWhole)
    (a ak : Vec F S200x10000 .f32) (S : Vec F S10000x18 .f32) :
    k0_pay3
        (View.readAt (Elt F) arg9.view (Rect.unit (s := S10000x18) ![0, 0] S10000x16.size inb_S10000x18_S10000x16_0_0).toLoadRect (harg9.unread S))
        (View.readAt (Elt F) arg9.view (Rect.unit (s := S10000x18) (k0_off1 i) S200x1.size (k0_off1_inb i)).toLoadRect (harg9.unread S))
        (View.readAt (Elt F) arg9.view (Rect.unit (s := S10000x18) (k0_off2 i) S200x1.size (k0_off2_inb i)).toLoadRect (harg9.unread S))
        (View.readAt (Elt F) arg6.view (Rect.unit (s := S200x10000) ![0, 0] S200x10000.size inb_S200x10000_S200x10000_0_0).toLoadRect (harg6.unread a))
        (View.readAt (Elt F) arg7.view (Rect.unit (s := S200x10000) ![0, 0] S200x10000.size inb_S200x10000_S200x10000_0_0).toLoadRect (harg7.unread ak))
        (View.readAt (Elt F) arg9.view (Rect.unit (s := S10000x18) (k0_off3 i) S200x16.size (k0_off3_inb i)).toLoadRect (harg9.unread S))
      = rowblk S a ak i := by
  unfold rowblk T8 T10 T13 T25
  rw [readAt_unread_whole arg6 harg6 a zero2, readAt_unread_whole arg7 harg7 ak zero2,
    readAt_unread_eq_ld arg9 harg9 S, readAt_unread_eq_ld arg9 harg9 S, readAt_unread_eq_ld arg9 harg9 S,
    readAt_unread_eq_ld arg9 harg9 S]

/-- Points 1–49: the one store into the first layer's output is the row block computed from the table as found. -/
theorem runB_x1 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : ¬cond0_1 i) (hc2 : cond0_2 i) (hc3 : ¬cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32) :
    (kernelRun0_B c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).1
      = [⟨Rect.unit (s := S10000x16) (k0_off4 i) S200x16.size (k0_off4_inb i hc2), rowblk xs0 x5 x6 i⟩] := by
  unfold kernelRun0_B
  dsimp only
  exact congrArg (fun w => [(⟨_, w⟩ : View.Piece (Elt F) S10000x16 .f32)])
    ((pay4_eq _ _ _ _ _ _).trans (pay_loads i arg6 harg6 arg7 harg7 arg9 harg9 x5 x6 xs0))

/-- One store through the whole output window leaves its payload, whatever was there. -/
theorem read_whole_piece (arg8 : Memref sig .tc .vmem S200x16 .f32) (f : arg8.view.ty.Contents (Elt F))
    (w : Vec F S200x16 .f32) :
    arg8.view.read (Elt F) (arg8.view.writes (Elt F) f
        [⟨Rect.unit (s := S200x16) ![0, 0] S200x16.size inb_S200x16_S200x16_0_0, w⟩]) = w := by
  funext y
  exact View.read_writes_cons_unit_of_mem arg8.view f inb_S200x16_S200x16_0_0 w [] y y zero2
    (fun a => (Nat.zero_add _).symm)

/-- Points 51–99: the output window ends at the row block computed from the table as found. -/
theorem runD_out (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x18 .f32) (harg9 : arg9.IsWhole) (arg10 : Memref sig .tc .vmem S10000x16 .f32) (harg10 : arg10.IsWhole)
    (hc0 : ¬cond0_0 i) (hc1 : ¬cond0_1 i) (hc2 : ¬cond0_2 i) (hc3 : cond0_3 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x18 .f32) (xs1 : Vec F S10000x16 .f32)
    (f : arg8.view.ty.Contents (Elt F)) :
    arg8.view.read (Elt F) (arg8.view.writes (Elt F) f (kernelRun0_D c i arg1 harg1 arg2 harg2 arg3 harg3 arg4 harg4 arg5 harg5 arg6 harg6 arg7 harg7 arg8 harg8 arg9 harg9 arg10 harg10 hc0 hc1 hc2 hc3 x0 x1 x2 x3 x4 x5 x6 xs0 xs1).1) = rowblk xs0 x5 x6 i := by
  unfold kernelRun0_D
  dsimp only
  sl_unfold_run_names
  exact (read_whole_piece arg8 f _).trans (pay_loads i arg6 harg6 arg7 harg7 arg9 harg9 x5 x6 xs0)

/-- A row-block store into the first layer's output, read back: inside the block's 200 rows the stored block,
    elsewhere what was there. -/
theorem x1_store (arg10 : Memref sig .tc .vmem S10000x16 .f32) (harg10 : arg10.IsWhole) (X : Vec F S10000x16 .f32)
    (i : grid0.Coords) (hc2 : cond0_2 i) (w : FVec F S200x16 .f32) (y : S10000x16.Idx) :
    arg10.view.read (Elt F) (arg10.view.writes (Elt F) (harg10.unread X)
        [⟨Rect.unit (s := S10000x16) (k0_off4 i) S200x16.size (k0_off4_inb i hc2), w⟩]) y
      = if h : 200 * ((i 0).val % 50) ≤ (y 0).val ∧ (y 0).val < 200 * ((i 0).val % 50) + 200 then
          w (ix2 (⟨(y 0).val - 200 * ((i 0).val % 50), by omega⟩ : Fin 200) (⟨(y 1).val, col_lt y⟩ : Fin 16))
        else X y := by
  refine (View.read_writes_cons_rows arg10.view (harg10.unread X) (k0_off4_inb i hc2) w [] y
    (o := 200 * ((i 0).val % 50)) (W := 200) (k0_off4_eq i) rfl rfl).trans ?_
  by_cases h : 200 * ((i 0).val % 50) ≤ (y 0).val ∧ (y 0).val < 200 * ((i 0).val % 50) + 200
  · rw [dif_pos h, dif_pos h]
    refine congrArg w (funext fun a => ?_)
    match a with
    | ⟨0, _⟩ => exact Fin.ext rfl
    | ⟨1, _⟩ => exact Fin.ext rfl
  · rw [dif_neg h, dif_neg h, View.writes_nil, harg10.read_unread]

end Cert.KernelIdeal.Hand

end
-- ==== Proof.Pieces.lean ====
/-
  What each control case's stores leave, as values (the two modules below).
-/
import proofs.«161867_g88347477279355_cont_sun_m_1058_36_alg».proof.Proof.PiecesFill
import proofs.«161867_g88347477279355_cont_sun_m_1058_36_alg».proof.Proof.PiecesPlain
-- ==== Proof.Frame.lean ====
/-
  The frame of the one pallas_call, for every float instance: the invariant the 100 grid points carry, the body at
  each point, the launch, and the claim that the program runs to the end leaving its arguments unchanged.

  Between points the 18-column table holds the current layer's product (`scrAt`), and the on-chip copy of the first
  layer's output agrees with that output (`x1full`) on the rows the points so far have stored — all of them from
  point 50 on, which is what the second fill needs.  The output window is idle during the first layer and holds the
  point's row block of the result during the second.
-/
import proofs.«161867_g88347477279355_cont_sun_m_1058_36_alg».proof.Proof.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Small facts about the points -/

theorem coords0 : ∀ t : Fin cfg0.N, ((grid0.coords t) 0).val = t.val :=
  (by decide +kernel : ∀ t : Fin grid0.N, ((grid0.coords t) 0).val = t.val)

theorem scrAt_lt (c : Dev nD) (n : ℕ) (h : n < 50) : scrAt m c n = scr0 m c := if_pos h
theorem scrAt_ge (c : Dev nD) (n : ℕ) (h : ¬n < 50) : scrAt m c n = scr1 m c := if_neg h

/-- The first layer's output as far as the first `n` points have stored it: rows below `200 n`. -/
def X1ok (c : Dev nD) (n : ℕ) (X : Vec F S10000x16 .f32) : Prop :=
  ∀ y : S10000x16.Idx, (y 0).val < 200 * n → X y = x1full m c y

theorem X1ok_all (c : Dev nD) (n : ℕ) (hn : 50 ≤ n) (X : Vec F S10000x16 .f32) (h : X1ok m c n X) : X = x1full m c :=
  funext fun y => h y (by have := row_lt y; omega)

theorem X1ok_of_eq (c : Dev nD) (n : ℕ) : X1ok m c n (x1full m c) := fun _ _ => rfl

/-- One more point of the first layer: storing the point's row block settles its 200 rows and keeps the rows below. -/
theorem x1_step (c : Dev nD) (t : Fin cfg0.N) (ht : t.val < 50) (hc2 : cond0_2 (grid0.coords t))
    (arg10 : Memref sig .tc .vmem S10000x16 .f32) (harg10 : arg10.IsWhole)
    (X : Vec F S10000x16 .f32) (hX : X1ok m c t.val X) :
    X1ok m c (t.val + 1) (arg10.view.read (Elt F) (arg10.view.writes (Elt F) (harg10.unread X)
      [⟨Rect.unit (s := S10000x16) (k0_off4 (grid0.coords t)) S200x16.size (k0_off4_inb (grid0.coords t) hc2),
        rowblk (scr0 m c) (B5 m c t) (B6 m c t) (grid0.coords t)⟩])) := by
  intro y hy
  rw [x1_store arg10 harg10 X (grid0.coords t) hc2]
  have hi : ((grid0.coords t) 0).val % 50 = t.val := by rw [coords0]; exact Nat.mod_eq_of_lt ht
  have hr := row_lt y
  split
  · rename_i hin
    rw [hi] at hin
    have hq : (y 0).val / 200 = t.val := by omega
    have ht' : pt ((y 0).val / 200) (by omega) = t := Fin.ext hq
    unfold x1full
    rw [ht']
    refine congrArg _ ?_
    refine congrArg₂ ix2 (Fin.ext ?_) rfl
    show (y 0).val - 200 * (((grid0.coords t) 0).val % 50) = (y 0).val % 200
    rw [hi]; omega
  · rename_i hout
    rw [hi] at hout
    exact hX y (by omega)

/-! ## The invariant -/

/-- Before position `n`: at the start anything in both scratch buffers; afterwards the table at the current layer's
    product and the first layer's output settled on the rows stored so far. -/
def PhiS (c : Dev nD) : (n : ℕ) → n ≤ cfg0.N → sProp 𝕄
  | 0, _ => Pipeline.ΦA spec0 c
  | n + 1, _ => iprop(iprop(owns (c : Thread nD τ) scM0_0 fullShare (scrAt m c n)
      ∗ (∃ X, ⌜X1ok m c (n + 1) X⌝ ∗ owns (c : Thread nD τ) scM0_1 fullShare X)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c n)
      ∗ (∃ X, ⌜X1ok m c (n + 1) X⌝ ∗ owns (c : Thread nD τ) scM0_1 fullShare X)) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c (n - 1))
      ∗ (∃ X, ⌜X1ok m c n X⌝ ∗ owns (c : Thread nD τ) scM0_1 fullShare X)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowblk (scr1 m c) (B5 m c t) (B6 m c t) (grid0.coords t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) :
    (dats m 0 c).after 7 t = rowblk (scr1 m c) (B5 m c t) (B6 m c t) (grid0.coords t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) (h : cond0_3 (grid0.coords t)) :
    (dats m 0 c).leavesExact 7 t
      = owns (c : Thread nD τ) (ms0_7 t) fullShare (rowblk (scr1 m c) (B5 m c t) (B6 m c t) (grid0.coords t)) := by
  unfold Dat.leavesExact; rw [liveAt0_7 t h, after0_7]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6]
  have hN : t.val < 100 := lt_of_lt_of_eq t.isLt N100
  by_cases h0 : t.val = 0
  · -- the first point
    have hc0 : cond0_0 (grid0.coords t) := (hcond0_0 t).mpr h0
    have hc1 : ¬cond0_1 (grid0.coords t) := fun h => by have := (hcond0_1 t).mp h; omega
    have hc2 : cond0_2 (grid0.coords t) := (hcond0_2 t).mpr (by omega)
    have hc3 : ¬cond0_3 (grid0.coords t) := fun h => by have := (hcond0_3 t).mp h; omega
    have ht : t = pt 0 (by decide) := Fin.ext h0
    rw [Dat.leavesExact_idle (dats m 0 c) 7 t (idleAt0_7 t hc3) (noFlush0_7 t hc3)]
    rw [PhiS_castSucc m c t, PhiS_zero m c _ _ h0, PhiA0_eq, scrAt_lt m c _ (by omega)]
    iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ hc0 hc1 hc2 hc3 (iblk m c 0 t) (iblk m c 1 t) (iblk m c 2 t) (iblk m c 3 t) (iblk m c 4 t) (iblk m c 5 t) (iblk m c 6 t) xs0 xs1).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, HS1⟩
    isplitl [HS0 HS1 Hg]
    · isplitl [HS0 HS1]
      · isplitl [HS0]
        · unfold owns; iexists _; isplitr
          swap; · iexact HS0
          ipureintro
          refine (runA_scr c _ _ _ _ _ _ _ _ _ _ _ _ _ _ _ _ _ _ _ _ _ hc0 hc1 hc2 hc3 _ _ _ _ _ _ _ xs0 xs1 es0).trans ?_
          subst ht; rfl
        · iexists _; isplitr
          swap
          · unfold owns; iexists _; isplitr
            swap; · iexact HS1
            ipureintro; rfl
          ipureintro
          rw [runA_x1]
          have e : k0_pay1 (iblk m c 0 t) (iblk m c 1 t) (iblk m c 2 t) = scr0 m c := by subst ht; rfl
          rw [e]
          exact x1_step m c t (by omega) hc2 _ _ xs1 (fun y hy => absurd hy (by omega))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val < 50
    · -- a later point of the first layer
      have hc0 : ¬cond0_0 (grid0.coords t) := fun h => h0 ((hcond0_0 t).mp h)
      have hc1 : ¬cond0_1 (grid0.coords t) := fun h => by have := (hcond0_1 t).mp h; omega
      have hc2 : cond0_2 (grid0.coords t) := (hcond0_2 t).mpr h1
      have hc3 : ¬cond0_3 (grid0.coords t) := fun h => by have := (hcond0_3 t).mp h; omega
      rw [Dat.leavesExact_idle (dats m 0 c) 7 t (idleAt0_7 t hc3) (noFlush0_7 t hc3)]
      rw [PhiS_castSucc m c t, PhiS_pos m c _ _ h0, scrAt_lt m c _ (by omega), scrAt_lt m c _ h1]
      iintro ⟨⟨⟨HS0, ⟨%X, %hX, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 hc2 hc3 (iblk m c 0 t) (iblk m c 1 t) (iblk m c 2 t) (iblk m c 3 t) (iblk m c 4 t) (iblk m c 5 t) (iblk m c 6 t) (scr0 m c) X).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [runB_x1]
            exact x1_step m c t h1 hc2 _ _ X hX
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases h2 : t.val = 50
      · -- the second fill
        have hc0 : ¬cond0_0 (grid0.coords t) := fun h => h0 ((hcond0_0 t).mp h)
        have hc1 : cond0_1 (grid0.coords t) := (hcond0_1 t).mpr h2
        have hc2 : ¬cond0_2 (grid0.coords t) := fun h => h1 ((hcond0_2 t).mp h)
        have hc3 : cond0_3 (grid0.coords t) := (hcond0_3 t).mpr (by omega)
        have ht : t = pt 50 (by decide) := Fin.ext h2
        rw [leaves0_7 m c t hc3]
        rw [PhiS_castSucc m c t, PhiS_pos m c _ _ h0, scrAt_ge m c t.val h1]
        iintro ⟨⟨⟨HS0, ⟨%X, %hX, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl : X = x1full m c := X1ok_all m c _ (by omega) X hX
        iapply ((kernelRun0_C c (grid0.coords t) _ _ _ _ _ _ _ _ _ _ _ _ _ _ _ _ _ _ _ _ hc0 hc1 hc2 hc3 (iblk m c 0 t) (iblk m c 1 t) (iblk m c 2 t) (iblk m c 3 t) (iblk m c 4 t) (iblk m c 5 t) (iblk m c 6 t) (scrAt m c (t.val - 1)) (x1full m c)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, ⟨%e7, H7⟩, ⟨%es0, HS0⟩, HS1⟩
        have e : k0_pay2 (x1full m c) (iblk m c 3 t) (iblk m c 4 t) = scr1 m c := by subst ht; rfl
        isplitl [HS0 HS1 Hg]
        · isplitl [HS0 HS1]
          · isplitl [HS0]
            · unfold owns; iexists _; isplitr
              swap; · iexact HS0
              ipureintro
              exact (runC_scr c _ _ _ _ _ _ _ _ _ _ _ _ _ _ _ _ _ _ _ _ _ hc0 hc1 hc2 hc3 _ _ _ _ _ _ _ _ _ es0).trans e
            · iexists _; isplitr
              swap; · iexact HS1
              ipureintro; exact X1ok_of_eq m c _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro
        refine (runC_out c _ _ _ _ _ _ _ _ _ _ _ _ _ _ _ _ _ _ _ _ _ hc0 hc1 hc2 hc3 _ _ _ _ _ _ _ _ _ e7).trans ?_
        rw [e]
      · -- a later point of the second layer
        have hc0 : ¬cond0_0 (grid0.coords t) := fun h => h0 ((hcond0_0 t).mp h)
        have hc1 : ¬cond0_1 (grid0.coords t) := fun h => h2 ((hcond0_1 t).mp h)
        have hc2 : ¬cond0_2 (grid0.coords t) := fun h => h1 ((hcond0_2 t).mp h)
        have hc3 : cond0_3 (grid0.coords t) := (hcond0_3 t).mpr (by omega)
        rw [leaves0_7 m c t hc3]
        rw [PhiS_castSucc m c t, PhiS_pos m c _ _ h0, scrAt_ge m c _ (by omega), scrAt_ge m c t.val h1]
        iintro ⟨⟨⟨HS0, ⟨%X, %hX, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        obtain rfl : X = x1full m c := X1ok_all m c _ (by omega) X hX
        iapply ((kernelRun0_D c (grid0.coords t) _ _ _ _ _ _ _ _ _ _ _ _ _ _ _ _ _ _ _ _ hc0 hc1 hc2 hc3 (iblk m c 0 t) (iblk m c 1 t) (iblk m c 2 t) (iblk m c 3 t) (iblk m c 4 t) (iblk m c 5 t) (iblk m c 6 t) (scr1 m c) (x1full m c)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, ⟨%e7, H7⟩, HS0, HS1⟩
        isplitl [HS0 HS1 Hg]
        · isplitl [HS0 HS1]
          · isplitl [HS0]
            · iexact HS0
            · iexists _; isplitr
              swap; · iexact HS1
              ipureintro; exact X1ok_of_eq m c _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro
        exact runD_out c _ _ _ _ _ _ _ _ _ _ _ _ _ _ _ _ _ _ _ _ _ hc0 hc1 hc2 hc3 _ _ _ _ _ _ _ _ _ e7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%X, %hX, HS1⟩⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 100 := N100; omega)

/-! ## The run and the frame -/

set_option backward.isDefEq.respectTransparency.types false in
/-- Every weakly fair execution of @main terminates with every array of the pipeline at what the proof data computes
    and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere and leaves its thirteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.FrameValue.lean ====
/-
  From blocks to the array: the result array after the run is the closed form `outFinal`.

  The output window's block index is `max (t - 50) 0`: block 0 is written back once, after point 50 (the first 50
  points leave the window idle and write nothing back), and blocks 1–49 after points 51–99.  Each written-back block
  is the point's row block of the second layer, which is the corresponding 200 rows of `outFinal`; the 50 blocks
  tile the array.
-/
import proofs.«161867_g88347477279355_cont_sun_m_1058_36_alg».proof.Proof.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The output window's schedule, decided over the grid -/

/-- The output window's block index at point `t` is `t - 50` (zero through point 50) along the rows and zero along the columns. -/
theorem out_index : ∀ t : Fin cfg0.N, win0_7.index t (0 : Fin 2) = t.val - 50 ∧ win0_7.index t (1 : Fin 2) = 0 :=
  (by decide +kernel : ∀ t : Fin grid0.N, win0_7.index t (0 : Fin 2) = t.val - 50 ∧ win0_7.index t (1 : Fin 2) = 0)

/-- The output window is written back exactly at the second layer's points. -/
theorem out_flush : ∀ t : Fin cfg0.N, (cfg0.win 7).flush t = true ↔ 50 ≤ t.val :=
  (by decide +kernel : ∀ t : Fin grid0.N, win0_7.flush t = true ↔ 50 ≤ t.val)

/-! ## A written-back block is its 200 rows of the closed form -/

/-- The closed form at row `(t - 50) · 200 + p`, column `q`, is entry `(p, q)` of point `t`'s row block. -/
theorem outFinal_at (c : Dev nD) (t : Fin cfg0.N) (ht : 50 ≤ t.val) (p : Fin 200) (q : Fin 16) (y : S10000x16.Idx)
    (h0 : (y 0).val = (t.val - 50) * 200 + p.val) (h1 : (y 1).val = q.val) :
    outFinal m c y = rowblk (scr1 m c) (B5 m c t) (B6 m c t) (grid0.coords t) (ix2 p q) := by
  have hN : t.val < 100 := lt_of_lt_of_eq t.isLt N100
  have hp : ∀ h, pt (50 + (y 0).val / 200) h = t := fun h =>
    Fin.ext (by show 50 + (y 0).val / 200 = t.val; rw [h0]; have := p.isLt; omega)
  have hr : ∀ h, (⟨(y 0).val % 200, h⟩ : Fin 200) = p := fun h =>
    Fin.ext (by show (y 0).val % 200 = p.val; rw [h0]; have := p.isLt; omega)
  have hq : ∀ h, (⟨(y 1).val, h⟩ : Fin 16) = q := fun h => Fin.ext h1
  unfold outFinal
  simp only [hp, hr, hq]

/-- What a second-layer point writes back is its block of the closed form. -/
theorem flushed_out (c : Dev nD) (t : Fin cfg0.N) (hf : (cfg0.win 7).flush t = true) :
    (dats m 0 c).flushed 7 t = ((cfg0.win 7).blk t).view.read (Elt F) (outFinal m c) := by
  have ht : 50 ≤ t.val := (out_flush t).mp hf
  obtain ⟨e0, e1⟩ := out_index t
  show (cfg0.win 7).cut (grid0.coords t) ((dats m 0 c).after 7 t) = _
  rw [after0_7]
  funext x
  obtain ⟨p, q, rfl⟩ : ∃ (p : Fin 200) (q : Fin 16), x = ix2 p q := ⟨x 0, x 1, eq_ix2 x⟩
  rw [View.read_apply]
  show rowblk (scr1 m c) (B5 m c t) (B6 m c t) (grid0.coords t) (ix2 p q) = _
  refine (outFinal_at m c t ht p q _ ?_ ?_).symm
  · show win0_7.index t (0 : Fin 2) * 200 + 1 * p.val = (t.val - 50) * 200 + p.val
    rw [e0]; omega
  · show win0_7.index t (1 : Fin 2) * 16 + 1 * q.val = q.val
    rw [e1]; omega

/-! ## The fifty written-back blocks tile the array -/

/-- An index of the array is in point `t`'s block iff each coordinate is in the block's range on its axis. -/
theorem mem_out_blk (t : Fin cfg0.N) (i : S10000x16.Idx) :
    i ∈ ((cfg0.win 7).blk t).view.set ↔ ∀ a : Fin 2, win0_7.index t a * S200x16.size a ≤ (i a).val
      ∧ (i a).val < win0_7.index t a * S200x16.size a + S200x16.size a := by
  show i ∈ ((View.whole main_v9).slice (win0_7.rect t)).set ↔ _
  rw [View.set_slice_whole, Rect.mem_set_unit]
  exact Iff.rfl

/-- Row `r` lies in the block point `50 + r / 200` writes back. -/
theorem out_cover (i : S10000x16.Idx) :
    ∃ t : Fin cfg0.N, (cfg0.win 7).flush t = true ∧ i ∈ ((cfg0.win 7).blk t).view.set := by
  have hi0 : (i 0).val < 10000 := row_lt i
  have hi1 : (i 1).val < 16 := col_lt i
  refine ⟨pt (50 + (i 0).val / 200) (by omega), (out_flush _).mpr (by show 50 ≤ 50 + (i 0).val / 200; omega), ?_⟩
  obtain ⟨e0, e1⟩ := out_index (pt (50 + (i 0).val / 200) (by omega))
  have e0' : win0_7.index (pt (50 + (i 0).val / 200) (by omega)) (0 : Fin 2) = (i 0).val / 200 := by
    rw [e0]; show 50 + (i 0).val / 200 - 50 = (i 0).val / 200; omega
  rw [mem_out_blk]
  intro a
  match a with
  | ⟨0, _⟩ =>
    show win0_7.index (pt (50 + (i 0).val / 200) (by omega)) (0 : Fin 2) * 200 ≤ (i 0).val
      ∧ (i 0).val < win0_7.index (pt (50 + (i 0).val / 200) (by omega)) (0 : Fin 2) * 200 + 200
    rw [e0']; omega
  | ⟨1, _⟩ =>
    show win0_7.index (pt (50 + (i 0).val / 200) (by omega)) (1 : Fin 2) * 16 ≤ (i 1).val
      ∧ (i 1).val < win0_7.index (pt (50 + (i 0).val / 200) (by omega)) (1 : Fin 2) * 16 + 16
    rw [e1]; omega

/-- The result array after the last write-back. -/
theorem final_out (c : Dev nD) : (dats m 0 c).arrAt 7 cfg0.N = outFinal m c :=
  (dats m 0 c).arrAt_eq_of_cover 7 (outFinal m c) (fun t hf => flushed_out m c t hf) out_cover

/-- The run, with the result array named and the arguments unchanged. -/
theorem run_value : θ_run defs (onTc (τ := τ) (main (F := F))) ⟨m, fun _ => 0, ρ⟩ (fun r => ∀ c : Dev nD,
      r.2.mem ((c.tc : Thread nD τ).loc main_v9) = outFinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 7).trans (final_out m c),
      ((h c).1 0).trans ((((dats m) 0 c).arrAt_in 0 rfl _).trans ((A_eq m c 0).trans (V_main_arg0 m c))),
      ((h c).1 5).trans ((((dats m) 0 c).arrAt_in 5 rfl _).trans ((A_eq m c 5).trans (V_main_arg1 m c))),
      ((h c).1 6).trans ((((dats m) 0 c).arrAt_in 6 rfl _).trans ((A_eq m c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

end Cert.KernelIdeal.Hand

end
-- ==== Proof.Spec.lean ====
/-
  The two spellings of a SimP-GCN layer, one row at a time, at the ideal values.

  A layer takes node features `h` (one row per node) and two dense adjacency matrices.  It projects the features
  (`h · W`), reads a gate logit and a degree term off two more linear forms of the same row, aggregates the projected
  features over both adjacencies, blends the two aggregates by the gate's logistic value and adds the degree term
  times the node's own projected features, scaled by a fixed literal.

  The reference spells the blend `s · p + (1 - s) · q` and computes the three linear forms separately.  The kernel
  computes them in ONE product against the weight matrix widened by two columns (`catW`), adds a bias row whose first
  sixteen entries are zero (`catB`), keeps the result as an 18-column table, and spells the blend `q + s · (p - q)`.
-/
import Idealize.ShloMosaic.PureOps.Ideal
import Idealize.ShloMosaic.Lib.ValueIdx

noncomputable section

open scoped BigOperators

namespace SimP

open Idealize.ShloMosaic Idealize.ShloMosaic.ValueIdx

variable {N K : ℕ}

/-- The literal both programs scale the degree term by: the binary32 value nearest one tenth. -/
def γE : EReal := Ideal.ofBits .f32 0x3DCCCCCD#32

/-- The zero both programs spell as the all-zero word. -/
def zE : EReal := Ideal.ofBits .f32 0x00000000#32

/-- An extended real that is a real number. -/
def Fin1 (x : EReal) : Prop := x ≠ ⊤ ∧ x ≠ ⊥

/-- The kernel's 18-column table: row `n` of the features against the widened weights, plus the bias row. -/
def proj (h : Fin N → Fin K → EReal) (C : Fin K → Fin 18 → EReal) (b : Fin 18 → EReal) (n : Fin N) (j : Fin 18) : EReal :=
  (∑ k : Fin K, h n k * C k j) + b j

/-- Row `r` of an adjacency matrix against column `j` of per-node features. -/
def aggE (A : Fin N → Fin N → EReal) (y : Fin N → Fin 16 → EReal) (r : Fin N) (j : Fin 16) : EReal :=
  ∑ n : Fin N, A r n * y n j

/-- A feature column as a column of the 18-column table. -/
def col (j : Fin 16) : Fin 18 := ⟨j.val, by have := j.isLt; omega⟩

/-- The kernel's layer, from its table `S`: columns 0–15 the projected features, 16 the gate logit, 17 the degree term. -/
def kerLayer (A Ak : Fin N → Fin N → EReal) (S : Fin N → Fin 18 → EReal) (r : Fin N) (j : Fin 16) : EReal :=
  (aggE Ak (fun n j => S n (col j)) r j
      + Ideal.logistic (S r 16) * (aggE A (fun n j => S n (col j)) r j - aggE Ak (fun n j => S n (col j)) r j))
    + (γE * S r 17) * S r (col j)

/-- The reference's layer, from the features and the separate weights. -/
def refLayer (A Ak : Fin N → Fin N → EReal) (h : Fin N → Fin K → EReal) (W : Fin K → Fin 16 → EReal)
    (sc dk : Fin K → EReal) (b db : EReal) (r : Fin N) (j : Fin 16) : EReal :=
  (Ideal.logistic ((∑ k : Fin K, h r k * sc k) + b) * aggE A (fun n j => ∑ k : Fin K, h n k * W k j) r j
      + (1 - Ideal.logistic ((∑ k : Fin K, h r k * sc k) + b)) * aggE Ak (fun n j => ∑ k : Fin K, h n k * W k j) r j)
    + (γE * ((∑ k : Fin K, h r k * dk k) + db)) * (∑ k : Fin K, h r k * W k j)

/-- The weights widened by the gate's and the degree term's columns. -/
def catW (W : Fin K → Fin 16 → EReal) (sc dk : Fin K → EReal) (k : Fin K) (j : Fin 18) : EReal :=
  if h : j.val < 16 then W k ⟨j.val, h⟩ else if j.val = 16 then sc k else dk k

/-- The bias row: sixteen zeros, then the gate's and the degree term's biases. -/
def catB (b db : EReal) (j : Fin 18) : EReal :=
  if j.val < 16 then zE else if j.val = 16 then b else db

/-! ## The arrays as the programs hold them, read entry by entry -/

/-- A rank-2 array read at a row and a column. -/
def rd2 {R C : ℕ} (a : (⟨2, ![R, C]⟩ : Shape).Idx → EReal) (r : Fin R) (k : Fin C) : EReal := a (ix2 r k)

/-- A one-column array read at a row. -/
def rdCol {R : ℕ} (a : (⟨2, ![R, 1]⟩ : Shape).Idx → EReal) (k : Fin R) : EReal := a (ix2 k (0 : Fin 1))

/-- A one-entry array's entry. -/
def rd0 (a : (⟨1, ![1]⟩ : Shape).Idx → EReal) : EReal := a (ix1 (0 : Fin 1))

/-- The kernel's result array, as a function of the thirteen argument arrays: two layers in its spelling. -/
def kerOut (x : (⟨2, ![10000, 128]⟩ : Shape).Idx → EReal) (adj adjk : (⟨2, ![10000, 10000]⟩ : Shape).Idx → EReal)
    (W1 : (⟨2, ![128, 16]⟩ : Shape).Idx → EReal) (W2 : (⟨2, ![16, 16]⟩ : Shape).Idx → EReal)
    (s0 : (⟨2, ![128, 1]⟩ : Shape).Idx → EReal) (b0 : (⟨1, ![1]⟩ : Shape).Idx → EReal)
    (d0 : (⟨2, ![128, 1]⟩ : Shape).Idx → EReal) (db0 : (⟨1, ![1]⟩ : Shape).Idx → EReal)
    (s1 : (⟨2, ![16, 1]⟩ : Shape).Idx → EReal) (b1 : (⟨1, ![1]⟩ : Shape).Idx → EReal)
    (d1 : (⟨2, ![16, 1]⟩ : Shape).Idx → EReal) (db1 : (⟨1, ![1]⟩ : Shape).Idx → EReal) :
    (⟨2, ![10000, 16]⟩ : Shape).Idx → EReal :=
  fun i => kerLayer (rd2 adj) (rd2 adjk)
    (proj (kerLayer (rd2 adj) (rd2 adjk) (proj (rd2 x) (catW (rd2 W1) (rdCol s0) (rdCol d0)) (catB (rd0 b0) (rd0 db0))))
      (catW (rd2 W2) (rdCol s1) (rdCol d1)) (catB (rd0 b1) (rd0 db1)))
    (⟨(i 0).val, (i 0).isLt⟩ : Fin 10000) (⟨(i 1).val, (i 1).isLt⟩ : Fin 16)

/-- The reference's result array, as a function of the thirteen argument arrays: two layers in its spelling. -/
def refOut (x : (⟨2, ![10000, 128]⟩ : Shape).Idx → EReal) (adj adjk : (⟨2, ![10000, 10000]⟩ : Shape).Idx → EReal)
    (W1 : (⟨2, ![128, 16]⟩ : Shape).Idx → EReal) (W2 : (⟨2, ![16, 16]⟩ : Shape).Idx → EReal)
    (s0 : (⟨2, ![128, 1]⟩ : Shape).Idx → EReal) (b0 : (⟨1, ![1]⟩ : Shape).Idx → EReal)
    (d0 : (⟨2, ![128, 1]⟩ : Shape).Idx → EReal) (db0 : (⟨1, ![1]⟩ : Shape).Idx → EReal)
    (s1 : (⟨2, ![16, 1]⟩ : Shape).Idx → EReal) (b1 : (⟨1, ![1]⟩ : Shape).Idx → EReal)
    (d1 : (⟨2, ![16, 1]⟩ : Shape).Idx → EReal) (db1 : (⟨1, ![1]⟩ : Shape).Idx → EReal) :
    (⟨2, ![10000, 16]⟩ : Shape).Idx → EReal :=
  fun i => refLayer (rd2 adj) (rd2 adjk)
    (refLayer (rd2 adj) (rd2 adjk) (rd2 x) (rd2 W1) (rdCol s0) (rdCol d0) (rd0 b0) (rd0 db0))
    (rd2 W2) (rdCol s1) (rdCol d1) (rd0 b1) (rd0 db1)
    (⟨(i 0).val, (i 0).isLt⟩ : Fin 10000) (⟨(i 1).val, (i 1).isLt⟩ : Fin 16)

end SimP

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.PayValue.lean ====
/-
  The body's three products read at an index, at the ideal values: a table fill is each row of the features against
  the widened weights plus the bias row; a row block is, per row, the two aggregates blended by the gate's logistic
  value plus the scaled degree term times the row's own features.
-/
import proofs.«161867_g88347477279355_cont_sun_m_1058_36_alg».proof.Proof.Contents
import proofs.«161867_g88347477279355_cont_sun_m_1058_36_alg».proof.Proof.Spec
import proofs.«161867_g88347477279355_cont_sun_m_1058_36_alg».proof.Proof.LibRowOps

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

/-- A table fill over any extents: the product into the zero splat plus the bias row broadcast down the rows. -/
theorem fill_apply {M K N : ℕ} (d : DotDims ⟨2, ![M, K]⟩ ⟨2, ![K, N]⟩ ⟨2, ![M, N]⟩) (hd : d = DotDims.plain M K N)
    (x : FVec Ideal ⟨2, ![M, K]⟩ .f32) (C : FVec Ideal ⟨2, ![K, N]⟩ .f32) (b : FVec Ideal ⟨2, ![1, N]⟩ .f32)
    (h1 : (⟨2, ![K, N]⟩ : Shape).ShapeCasts ⟨2, ![K, N]⟩) (h2 : (⟨2, ![1, N]⟩ : Shape).ShapeCasts ⟨2, ![1, N]⟩)
    (h3 : (⟨2, ![1, N]⟩ : Shape).Broadcasts ⟨2, ![M, N]⟩) (h4 : (⟨2, ![M, N]⟩ : Shape).ShapeCasts ⟨2, ![M, N]⟩)
    (n : Fin M) (j : Fin N) :
    shapeCast ⟨2, ![M, N]⟩
        (addf (matmul d none x (shapeCast ⟨2, ![K, N]⟩ C h1) (constant ⟨2, ![M, N]⟩ .f32 0x00000000#32))
          (broadcastTo ⟨2, ![M, N]⟩ (shapeCast ⟨2, ![1, N]⟩ b h2) h3)) h4 (ix2 n j)
      = (∑ k : Fin K, x (ix2 n k) * C (ix2 k j)) + b (ix2 (0 : Fin 1) j) := by
  rw [shapeCast_self, shapeCast_self, shapeCast_self, addf_apply, RowOps.matmul_plain_apply d hd, broadcastTo_1b_ab_apply]

/-- The first layer's table fill at row `n`, column `j`. -/
theorem pay1_apply (x : Vec Ideal S10000x128 .f32) (C : Vec Ideal S128x18 .f32) (b : Vec Ideal S1x18 .f32) (n : Fin 10000) (j : Fin 18) :
    (k0_pay1 (F := Ideal) x C b (ix2 n j) : EReal)
      = (∑ k : Fin 128, (x (ix2 n k) : EReal) * (C (ix2 k j) : EReal)) + (b (ix2 (0 : Fin 1) j) : EReal) :=
  fill_apply dot_S10000x128_S128x18_S10000x18_1_0_0_1_n_n rfl x C b _ _ _ _ n j

/-- The second layer's table fill at row `n`, column `j`. -/
theorem pay2_apply (x : Vec Ideal S10000x16 .f32) (C : Vec Ideal S16x18 .f32) (b : Vec Ideal S1x18 .f32) (n : Fin 10000) (j : Fin 18) :
    (k0_pay2 (F := Ideal) x C b (ix2 n j) : EReal)
      = (∑ k : Fin 16, (x (ix2 n k) : EReal) * (C (ix2 k j) : EReal)) + (b (ix2 (0 : Fin 1) j) : EReal) :=
  fill_apply dot_S10000x16_S16x18_S10000x18_1_0_0_1_n_n rfl x C b _ _ _ _ n j

/-! ## The table's loads read at an index -/

/-- The feature part: entry `(n, q)` is the table's entry in row `n`, column `q`. -/
theorem T8_apply (S : Vec Ideal S10000x18 .f32) (n : Fin 10000) (q : Fin 16) :
    T8 S (ix2 n q) = S (ix2 n (SimP.col q)) := by
  show S ((Rect.unit (s := S10000x18) ![0, 0] S10000x16.size inb_S10000x18_S10000x16_0_0).emb (ix2 n q)) = _
  refine congrArg S (funext fun a => Fin.ext ?_)
  match a with
  | ⟨0, _⟩ => show 0 + 1 * n.val = n.val; omega
  | ⟨1, _⟩ => show 0 + 1 * q.val = q.val; omega

/-- The gate logits of the point's rows: local row `p` is global row `200 · (i mod 50) + p`, column 16. -/
theorem T10_apply (S : Vec Ideal S10000x18 .f32) (i : grid0.Coords) (p : Fin 200) :
    T10 S i (ix2 p (0 : Fin 1))
      = S (ix2 (⟨200 * ((i 0).val % 50) + p.val, by have := p.isLt; omega⟩ : Fin 10000) (16 : Fin 18)) := by
  show S ((Rect.unit (s := S10000x18) (k0_off1 i) S200x1.size (k0_off1_inb i)).emb (ix2 p (0 : Fin 1))) = _
  refine congrArg S (funext fun a => Fin.ext ?_)
  match a with
  | ⟨0, _⟩ =>
    show (k0_off1 i) 0 + 1 * p.val = 200 * ((i 0).val % 50) + p.val
    rw [k0_off1_eq i]; show 200 * ((i 0).val % 50) + 1 * p.val = _; omega
  | ⟨1, _⟩ =>
    show (k0_off1 i) 1 + 1 * 0 = 16
    rw [k0_off1_eq i]; rfl

/-- The degree terms of the point's rows: column 17. -/
theorem T13_apply (S : Vec Ideal S10000x18 .f32) (i : grid0.Coords) (p : Fin 200) :
    T13 S i (ix2 p (0 : Fin 1))
      = S (ix2 (⟨200 * ((i 0).val % 50) + p.val, by have := p.isLt; omega⟩ : Fin 10000) (17 : Fin 18)) := by
  show S ((Rect.unit (s := S10000x18) (k0_off2 i) S200x1.size (k0_off2_inb i)).emb (ix2 p (0 : Fin 1))) = _
  refine congrArg S (funext fun a => Fin.ext ?_)
  match a with
  | ⟨0, _⟩ =>
    show (k0_off2 i) 0 + 1 * p.val = 200 * ((i 0).val % 50) + p.val
    rw [k0_off2_eq i]; show 200 * ((i 0).val % 50) + 1 * p.val = _; omega
  | ⟨1, _⟩ =>
    show (k0_off2 i) 1 + 1 * 0 = 17
    rw [k0_off2_eq i]; rfl

/-- The feature part at the point's rows. -/
theorem T25_apply (S : Vec Ideal S10000x18 .f32) (i : grid0.Coords) (p : Fin 200) (q : Fin 16) :
    T25 S i (ix2 p q)
      = S (ix2 (⟨200 * ((i 0).val % 50) + p.val, by have := p.isLt; omega⟩ : Fin 10000) (SimP.col q)) := by
  show S ((Rect.unit (s := S10000x18) (k0_off3 i) S200x16.size (k0_off3_inb i)).emb (ix2 p q)) = _
  refine congrArg S (funext fun a => Fin.ext ?_)
  match a with
  | ⟨0, _⟩ =>
    show (k0_off3 i) 0 + 1 * p.val = 200 * ((i 0).val % 50) + p.val
    rw [k0_off3_eq i]; show 200 * ((i 0).val % 50) + 1 * p.val = _; omega
  | ⟨1, _⟩ =>
    show (k0_off3 i) 1 + 1 * q.val = q.val
    rw [k0_off3_eq i]; show 0 + 1 * q.val = _; omega

/-! ## A row block over any extents -/

/-- A row block: the second aggregate, plus the gate's logistic value times the difference of the aggregates, plus the
    scaled degree term times the row's own features. -/
theorem block_apply {R M H : ℕ} (d : DotDims ⟨2, ![R, M]⟩ ⟨2, ![M, H]⟩ ⟨2, ![R, H]⟩) (hd : d = DotDims.plain R M H)
    (v8 : FVec Ideal ⟨2, ![M, H]⟩ .f32) (v10 v13 : FVec Ideal ⟨2, ![R, 1]⟩ .f32) (v14 v16 : FVec Ideal ⟨2, ![R, M]⟩ .f32)
    (v25 : FVec Ideal ⟨2, ![R, H]⟩ .f32) (hb : (⟨2, ![R, 1]⟩ : Shape).Broadcasts ⟨2, ![R, H]⟩) (p : Fin R) (q : Fin H) :
    addf
        (addf (matmul d none v16 v8 (constant ⟨2, ![R, H]⟩ .f32 0x00000000#32))
          (mulf (broadcastTo ⟨2, ![R, H]⟩ (logistic v10) hb)
            (subf (matmul d none v14 v8 (constant ⟨2, ![R, H]⟩ .f32 0x00000000#32))
              (matmul d none v16 v8 (constant ⟨2, ![R, H]⟩ .f32 0x00000000#32)))))
        (mulf (broadcastTo ⟨2, ![R, H]⟩ (mulf (broadcast ⟨2, ![R, 1]⟩ (Scalar.ofBits (F := Ideal) .f32 0x3DCCCCCD#32)) v13) hb) v25)
        (ix2 p q)
      = ((∑ n : Fin M, v16 (ix2 p n) * v8 (ix2 n q))
          + Ideal.logistic (v10 (ix2 p (0 : Fin 1)))
            * ((∑ n : Fin M, v14 (ix2 p n) * v8 (ix2 n q)) - (∑ n : Fin M, v16 (ix2 p n) * v8 (ix2 n q))))
        + (SimP.γE * v13 (ix2 p (0 : Fin 1))) * v25 (ix2 p q) := by
  rw [addf_apply, addf_apply, mulf_apply, mulf_apply, subf_apply, RowOps.broadcastTo_a1_ab_apply, RowOps.broadcastTo_a1_ab_apply,
    RowOps.logistic_apply, mulf_apply, broadcast_apply, RowOps.matmul_plain_apply d hd, RowOps.matmul_plain_apply d hd]
  rfl

/-- A point's row block at local row `p`, column `q`: global row `200 · (i mod 50) + p` of the table. -/
theorem rowblk_apply (S : Vec Ideal S10000x18 .f32) (a ak : Vec Ideal S200x10000 .f32) (i : grid0.Coords) (p : Fin 200) (q : Fin 16) :
    (rowblk (F := Ideal) S a ak i (ix2 p q) : EReal)
      = ((∑ n : Fin 10000, (ak (ix2 p n) : EReal) * (S (ix2 n (SimP.col q)) : EReal))
          + Ideal.logistic (S (ix2 (⟨200 * ((i 0).val % 50) + p.val, by have := p.isLt; omega⟩ : Fin 10000) (16 : Fin 18)) : EReal)
            * ((∑ n : Fin 10000, (a (ix2 p n) : EReal) * (S (ix2 n (SimP.col q)) : EReal))
              - (∑ n : Fin 10000, (ak (ix2 p n) : EReal) * (S (ix2 n (SimP.col q)) : EReal))))
        + (SimP.γE * (S (ix2 (⟨200 * ((i 0).val % 50) + p.val, by have := p.isLt; omega⟩ : Fin 10000) (17 : Fin 18)) : EReal)) * (S (ix2 (⟨200 * ((i 0).val % 50) + p.val, by have := p.isLt; omega⟩ : Fin 10000) (SimP.col q)) : EReal) := by
  refine (block_apply dot_S200x10000_S10000x16_S200x16_1_0_0_1_n_n rfl (T8 S) (T10 S i) (T13 S i) a ak (T25 S i)
    broadcasts_S200x1_S200x16 p q).trans ?_
  rw [T10_apply, T13_apply, T25_apply]
  simp only [T8_apply]

end Cert.KernelIdeal.Hand

end
-- ==== Proof.BlockValue.lean ====
/-
  The windows' blocks and the host-built operands, read off the argument arrays at the ideal values: the features'
  window is the whole array; the widened weights are the three weight arrays side by side; the bias rows are sixteen
  zeros then the two biases; an adjacency window's block at a point is the 200 rows the point works on.
-/
import proofs.«161867_g88347477279355_cont_sun_m_1058_36_alg».proof.Proof.Contents
import proofs.«161867_g88347477279355_cont_sun_m_1058_36_alg».proof.Proof.Spec
import proofs.«161867_g88347477279355_cont_sun_m_1058_36_alg».proof.Proof.LibRowOps
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The host-built operands as terms of the argument arrays -/

open StableHlo in
/-- The first layer's widened weights as the host builds them. -/
theorem V1_eq (c : Dev nD) :
    (V m c main_v1 : S128x18.Idx → EReal)
      = concatenate S128x18 1 [⟨S128x16, m ((c.tc : Thread nD τ).loc main_arg3)⟩, ⟨S128x1, m ((c.tc : Thread nD τ).loc main_arg5)⟩,
          ⟨S128x1, m ((c.tc : Thread nD τ).loc main_arg7)⟩] concatenates_S128x16_S128x1_S128x1_S128x18_d1 := by
  dsimp only [V, Gen.hostOps0]
  after_results
  rfl

open StableHlo in
/-- The first layer's bias row as the host builds it. -/
theorem V4_eq (c : Dev nD) :
    (V m c main_v4 : S1x18.Idx → EReal)
      = concatenate S1x18 1 [⟨S1x16, broadcastInDim S1x16 ![] bcast_S_S1x16 (constant (F := Ideal) S_ .f32 0x00000000#32)⟩,
          ⟨S1x1, shapeCast S1x1 (m ((c.tc : Thread nD τ).loc main_arg6)) shapeCasts_S1_S1x1⟩,
          ⟨S1x1, shapeCast S1x1 (m ((c.tc : Thread nD τ).loc main_arg8)) shapeCasts_S1_S1x1⟩] concatenates_S1x16_S1x1_S1x1_S1x18_d1 := by
  dsimp only [V, Gen.hostOps0]
  after_results
  rfl

open StableHlo in
/-- The second layer's widened weights as the host builds them. -/
theorem V5_eq (c : Dev nD) :
    (V m c main_v5 : S16x18.Idx → EReal)
      = concatenate S16x18 1 [⟨S16x16, m ((c.tc : Thread nD τ).loc main_arg4)⟩, ⟨S16x1, m ((c.tc : Thread nD τ).loc main_arg9)⟩,
          ⟨S16x1, m ((c.tc : Thread nD τ).loc main_arg11)⟩] concatenates_S16x16_S16x1_S16x1_S16x18_d1 := by
  dsimp only [V, Gen.hostOps0]
  after_results
  rfl

open StableHlo in
/-- The second layer's bias row as the host builds it. -/
theorem V8_eq (c : Dev nD) :
    (V m c main_v8 : S1x18.Idx → EReal)
      = concatenate S1x18 1 [⟨S1x16, broadcastInDim S1x16 ![] bcast_S_S1x16 (constant (F := Ideal) S_ .f32 0x00000000#32)⟩,
          ⟨S1x1, shapeCast S1x1 (m ((c.tc : Thread nD τ).loc main_arg10)) shapeCasts_S1_S1x1⟩,
          ⟨S1x1, shapeCast S1x1 (m ((c.tc : Thread nD τ).loc main_arg12)) shapeCasts_S1_S1x1⟩] concatenates_S1x16_S1x1_S1x1_S1x18_d1 := by
  dsimp only [V, Gen.hostOps0]
  after_results
  rfl

/-! ## The blocks read off the arrays as the region finds them -/

/-- A window whose block is its whole array has block index zero at every point. -/
theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
/-- The adjacency windows' block index at a point: the point's number modulo 50, all columns. -/
theorem idx5 : ∀ t : Fin cfg0.N, win0_5.index t 0 = t.val % 50 ∧ win0_5.index t 1 = 0 :=
  (by decide +kernel : ∀ t : Fin grid0.N, win0_5.index t 0 = t.val % 50 ∧ win0_5.index t 1 = 0)
theorem idx6 : ∀ t : Fin cfg0.N, win0_6.index t 0 = t.val % 50 ∧ win0_6.index t 1 = 0 :=
  (by decide +kernel : ∀ t : Fin grid0.N, win0_6.index t 0 = t.val % 50 ∧ win0_6.index t 1 = 0)

/-- The features' block is the features. -/
theorem blk0_read (c : Dev nD) (t : Fin cfg0.N) (x : S10000x128.Idx) :
    (iblk m c 0 t : Vec Ideal S10000x128 .f32) x = (m ((c.tc : Thread nD τ).loc main_arg0) : S10000x128.Idx → EReal) x := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 10000 + 1 * (x 0).val = (x 0).val; rw [hi.1]; omega
  | ⟨1, _⟩ => show win0_0.index t 1 * 128 + 1 * (x 1).val = (x 1).val; rw [hi.2]; omega

/-- The first layer's widened weights' block is the host-built array. -/
theorem blk1_read (c : Dev nD) (t : Fin cfg0.N) (x : S128x18.Idx) :
    (iblk m c 1 t : Vec Ideal S128x18 .f32) x = (V m c main_v1 : S128x18.Idx → EReal) x := by
  have hi := idx1 t
  unfold iblk
  rw [View.read_apply]
  show V m c main_v1 _ = V m c main_v1 _
  congr 1
  funext a
  apply Fin.ext
  match a with
  | ⟨0, _⟩ => show win0_1.index t 0 * 128 + 1 * (x 0).val = (x 0).val; rw [hi.1]; omega
  | ⟨1, _⟩ => show win0_1.index t 1 * 18 + 1 * (x 1).val = (x 1).val; rw [hi.2]; omega

/-- The first layer's bias row's block is the host-built row. -/
theorem blk2_read (c : Dev nD) (t : Fin cfg0.N) (x : S1x18.Idx) :
    (iblk m c 2 t : Vec Ideal S1x18 .f32) x = (V m c main_v4 : S1x18.Idx → EReal) x := by
  have hi := idx2 t
  unfold iblk
  rw [View.read_apply]
  show V m c main_v4 _ = V m c main_v4 _
  congr 1
  funext a
  apply Fin.ext
  match a with
  | ⟨0, _⟩ => show win0_2.index t 0 * 1 + 1 * (x 0).val = (x 0).val; rw [hi.1]; omega
  | ⟨1, _⟩ => show win0_2.index t 1 * 18 + 1 * (x 1).val = (x 1).val; rw [hi.2]; omega

/-- The second layer's widened weights' block is the host-built array. -/
theorem blk3_read (c : Dev nD) (t : Fin cfg0.N) (x : S16x18.Idx) :
    (iblk m c 3 t : Vec Ideal S16x18 .f32) x = (V m c main_v5 : S16x18.Idx → EReal) x := by
  have hi := idx3 t
  unfold iblk
  rw [View.read_apply]
  show V m c main_v5 _ = V m c main_v5 _
  congr 1
  funext a
  apply Fin.ext
  match a with
  | ⟨0, _⟩ => show win0_3.index t 0 * 16 + 1 * (x 0).val = (x 0).val; rw [hi.1]; omega
  | ⟨1, _⟩ => show win0_3.index t 1 * 18 + 1 * (x 1).val = (x 1).val; rw [hi.2]; omega

/-- The second layer's bias row's block is the host-built row. -/
theorem blk4_read (c : Dev nD) (t : Fin cfg0.N) (x : S1x18.Idx) :
    (iblk m c 4 t : Vec Ideal S1x18 .f32) x = (V m c main_v8 : S1x18.Idx → EReal) x := by
  have hi := idx4 t
  unfold iblk
  rw [View.read_apply]
  show V m c main_v8 _ = V m c main_v8 _
  congr 1
  funext a
  apply Fin.ext
  match a with
  | ⟨0, _⟩ => show win0_4.index t 0 * 1 + 1 * (x 0).val = (x 0).val; rw [hi.1]; omega
  | ⟨1, _⟩ => show win0_4.index t 1 * 18 + 1 * (x 1).val = (x 1).val; rw [hi.2]; omega

/-- Entry `x` of the first adjacency's block at point `t` is entry `k` of the array, 200 · (t mod 50) rows down. -/
theorem blk5_read (c : Dev nD) (t : Fin cfg0.N) (x : S200x10000.Idx) (k : S10000x10000.Idx)
    (hk0 : (k 0).val = 200 * (t.val % 50) + (x 0).val) (hk1 : (k 1).val = (x 1).val) :
    (iblk m c 5 t : Vec Ideal S200x10000 .f32) x = (m ((c.tc : Thread nD τ).loc main_arg1) : S10000x10000.Idx → EReal) k := by
  have hi := idx5 t
  unfold iblk
  rw [View.read_apply]
  show V m c main_arg1 _ = m (c.tc.loc main_arg1) _
  rw [V_main_arg1]
  congr 1
  funext a
  apply Fin.ext
  match a with
  | ⟨0, _⟩ => show win0_5.index t 0 * 200 + 1 * (x 0).val = (k 0).val; rw [hi.1, hk0]; omega
  | ⟨1, _⟩ => show win0_5.index t 1 * 10000 + 1 * (x 1).val = (k 1).val; rw [hi.2, hk1]; omega

/-- The same for the second adjacency. -/
theorem blk6_read (c : Dev nD) (t : Fin cfg0.N) (x : S200x10000.Idx) (k : S10000x10000.Idx)
    (hk0 : (k 0).val = 200 * (t.val % 50) + (x 0).val) (hk1 : (k 1).val = (x 1).val) :
    (iblk m c 6 t : Vec Ideal S200x10000 .f32) x = (m ((c.tc : Thread nD τ).loc main_arg2) : S10000x10000.Idx → EReal) k := by
  have hi := idx6 t
  unfold iblk
  rw [View.read_apply]
  show V m c main_arg2 _ = m (c.tc.loc main_arg2) _
  rw [V_main_arg2]
  congr 1
  funext a
  apply Fin.ext
  match a with
  | ⟨0, _⟩ => show win0_6.index t 0 * 200 + 1 * (x 0).val = (k 0).val; rw [hi.1, hk0]; omega
  | ⟨1, _⟩ => show win0_6.index t 1 * 10000 + 1 * (x 1).val = (k 1).val; rw [hi.2, hk1]; omega

/-! ## The joined rows as the widened weights and the bias row -/

/-- Sixteen weight columns, then the gate's column, then the degree term's: the widened weights. -/
theorem cat3_catW {K : ℕ} (W : (⟨2, ![K, 16]⟩ : Shape).Idx → EReal) (s d : (⟨2, ![K, 1]⟩ : Shape).Idx → EReal) (k : Fin K) (j : Fin 18) :
    RowOps.cat3 18 (fun q : Fin 16 => W (ix2 k q)) (fun q : Fin 1 => s (ix2 k q)) (fun q : Fin 1 => d (ix2 k q)) j
      = SimP.catW (SimP.rd2 W) (SimP.rdCol s) (SimP.rdCol d) k j := by
  have hj := j.isLt
  unfold RowOps.cat3 SimP.catW SimP.rd2 SimP.rdCol
  by_cases h1 : j.val < 16
  · rw [dif_pos h1, dif_pos h1]
  · rw [dif_neg h1, dif_neg h1]
    by_cases h2 : j.val = 16
    · rw [dif_pos (show j.val - 16 < 1 by omega), if_pos h2]
      exact congrArg (fun q : Fin 1 => s (ix2 k q)) (Subsingleton.elim _ _)
    · rw [dif_neg (show ¬ j.val - 16 < 1 by omega), dif_pos (show j.val - 16 - 1 < 1 by omega), if_neg h2]
      exact congrArg (fun q : Fin 1 => d (ix2 k q)) (Subsingleton.elim _ _)

/-- Sixteen zeros, then the gate's bias, then the degree term's: the bias row. -/
theorem cat3_catB (z : (⟨2, ![1, 16]⟩ : Shape).Idx → EReal) (hz : ∀ q : Fin 16, z (ix2 (0 : Fin 1) q) = SimP.zE)
    (u v : (⟨2, ![1, 1]⟩ : Shape).Idx → EReal) (j : Fin 18) :
    RowOps.cat3 18 (fun q : Fin 16 => z (ix2 (0 : Fin 1) q)) (fun q : Fin 1 => u (ix2 (0 : Fin 1) q)) (fun q : Fin 1 => v (ix2 (0 : Fin 1) q)) j
      = SimP.catB (u (ix2 (0 : Fin 1) (0 : Fin 1))) (v (ix2 (0 : Fin 1) (0 : Fin 1))) j := by
  have hj := j.isLt
  unfold RowOps.cat3 SimP.catB
  by_cases h1 : j.val < 16
  · rw [dif_pos h1, if_pos h1]
    exact hz _
  · rw [dif_neg h1, if_neg h1]
    by_cases h2 : j.val = 16
    · rw [dif_pos (show j.val - 16 < 1 by omega), if_pos h2]
      exact congrArg (fun q : Fin 1 => u (ix2 (0 : Fin 1) q)) (Subsingleton.elim _ _)
    · rw [dif_neg (show ¬ j.val - 16 < 1 by omega), dif_pos (show j.val - 16 - 1 < 1 by omega), if_neg h2]
      exact congrArg (fun q : Fin 1 => v (ix2 (0 : Fin 1) q)) (Subsingleton.elim _ _)

/-- A one-entry array reshaped to one row of one column: its entry. -/
theorem reshape11 (a : (⟨1, ![1]⟩ : Shape).Idx → EReal) (h : (⟨1, ![1]⟩ : Shape).ShapeCasts ⟨2, ![1, 1]⟩) :
    shapeCast ⟨2, ![1, 1]⟩ a h (ix2 (0 : Fin 1) (0 : Fin 1)) = SimP.rd0 a :=
  shapeCast_a_1a_apply a h (0 : Fin 1) (0 : Fin 1)

/-! ## The blocks at an entry -/

/-- The features' window holds the whole array at every point. -/
theorem B0_apply (c : Dev nD) (t : Fin cfg0.N) (n : Fin 10000) (k : Fin 128) :
    (B0 (F := Ideal) m c t (ix2 n k) : EReal) = SimP.rd2 (m ((c.tc : Thread nD τ).loc main_arg0)) n k :=
  blk0_read m c t (ix2 n k)

/-- The first layer's widened weights: the projection, the gate's column, the degree term's column. -/
theorem B1_apply (c : Dev nD) (t : Fin cfg0.N) (k : Fin 128) (j : Fin 18) :
    (B1 (F := Ideal) m c t (ix2 k j) : EReal) = SimP.catW (SimP.rd2 (m ((c.tc : Thread nD τ).loc main_arg3))) (SimP.rdCol (m ((c.tc : Thread nD τ).loc main_arg5))) (SimP.rdCol (m ((c.tc : Thread nD τ).loc main_arg7))) k j := by
  refine (blk1_read m c t (ix2 k j)).trans ?_
  rw [V1_eq]
  refine (RowOps.cat3_apply _ _ _ concatenates_S128x16_S128x1_S128x1_S128x18_d1 rfl k j).trans ?_
  exact cat3_catW _ _ _ k j

/-- The first layer's bias row. -/
theorem B2_apply (c : Dev nD) (t : Fin cfg0.N) (j : Fin 18) :
    (B2 (F := Ideal) m c t (ix2 (0 : Fin 1) j) : EReal) = SimP.catB (SimP.rd0 (m ((c.tc : Thread nD τ).loc main_arg6))) (SimP.rd0 (m ((c.tc : Thread nD τ).loc main_arg8))) j := by
  refine (blk2_read m c t (ix2 (0 : Fin 1) j)).trans ?_
  rw [V4_eq]
  refine (RowOps.cat3_apply _ _ _ concatenates_S1x16_S1x1_S1x1_S1x18_d1 rfl (0 : Fin 1) j).trans ?_
  refine (cat3_catB _ (fun _ => rfl) _ _ j).trans ?_
  rw [reshape11, reshape11]

/-- The second layer's widened weights. -/
theorem B3_apply (c : Dev nD) (t : Fin cfg0.N) (k : Fin 16) (j : Fin 18) :
    (B3 (F := Ideal) m c t (ix2 k j) : EReal) = SimP.catW (SimP.rd2 (m ((c.tc : Thread nD τ).loc main_arg4))) (SimP.rdCol (m ((c.tc : Thread nD τ).loc main_arg9))) (SimP.rdCol (m ((c.tc : Thread nD τ).loc main_arg11))) k j := by
  refine (blk3_read m c t (ix2 k j)).trans ?_
  rw [V5_eq]
  refine (RowOps.cat3_apply _ _ _ concatenates_S16x16_S16x1_S16x1_S16x18_d1 rfl k j).trans ?_
  exact cat3_catW _ _ _ k j

/-- The second layer's bias row. -/
theorem B4_apply (c : Dev nD) (t : Fin cfg0.N) (j : Fin 18) :
    (B4 (F := Ideal) m c t (ix2 (0 : Fin 1) j) : EReal) = SimP.catB (SimP.rd0 (m ((c.tc : Thread nD τ).loc main_arg10))) (SimP.rd0 (m ((c.tc : Thread nD τ).loc main_arg12))) j := by
  refine (blk4_read m c t (ix2 (0 : Fin 1) j)).trans ?_
  rw [V8_eq]
  refine (RowOps.cat3_apply _ _ _ concatenates_S1x16_S1x1_S1x1_S1x18_d1 rfl (0 : Fin 1) j).trans ?_
  refine (cat3_catB _ (fun _ => rfl) _ _ j).trans ?_
  rw [reshape11, reshape11]

/-- The first adjacency's window at point `t`: rows `200 · (t mod 50)` onward. -/
theorem B5_apply (c : Dev nD) (t : Fin cfg0.N) (p : Fin 200) (n : Fin 10000) :
    (B5 (F := Ideal) m c t (ix2 p n) : EReal)
      = SimP.rd2 (m ((c.tc : Thread nD τ).loc main_arg1)) (⟨200 * (t.val % 50) + p.val, by have := p.isLt; omega⟩ : Fin 10000) n :=
  blk5_read m c t (ix2 p n) (ix2 (⟨200 * (t.val % 50) + p.val, by have := p.isLt; omega⟩ : Fin 10000) n) rfl rfl

/-- The second adjacency's window at point `t`. -/
theorem B6_apply (c : Dev nD) (t : Fin cfg0.N) (p : Fin 200) (n : Fin 10000) :
    (B6 (F := Ideal) m c t (ix2 p n) : EReal)
      = SimP.rd2 (m ((c.tc : Thread nD τ).loc main_arg2)) (⟨200 * (t.val % 50) + p.val, by have := p.isLt; omega⟩ : Fin 10000) n :=
  blk6_read m c t (ix2 p n) (ix2 (⟨200 * (t.val % 50) + p.val, by have := p.isLt; omega⟩ : Fin 10000) n) rfl rfl

end Cert.KernelIdeal.Hand

end
-- ==== Proof.KerValue.lean ====
/-
  The kernel's final array, entry by entry, is two layers in the kernel's spelling.
-/
import proofs.«161867_g88347477279355_cont_sun_m_1058_36_alg».proof.Proof.PayValue
import proofs.«161867_g88347477279355_cont_sun_m_1058_36_alg».proof.Proof.BlockValue

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The two products against the layer vocabulary -/

/-- A point's only coordinate is its number. -/
theorem point_coord : ∀ t : Fin cfg0.N, ((grid0.coords t) 0).val = t.val :=
  (by decide +kernel : ∀ t : Fin grid0.N, ((grid0.coords t) 0).val = t.val)

/-- The first layer's table fill is the 18-column table of the features it reads. -/
theorem pay1_proj (x : Vec Ideal S10000x128 .f32) (C : Vec Ideal S128x18 .f32) (b : Vec Ideal S1x18 .f32)
    (h : Fin 10000 → Fin 128 → EReal) (Cw : Fin 128 → Fin 18 → EReal) (bw : Fin 18 → EReal)
    (hx : ∀ n k, (x (ix2 n k) : EReal) = h n k) (hC : ∀ k j, (C (ix2 k j) : EReal) = Cw k j)
    (hb : ∀ j, (b (ix2 (0 : Fin 1) j) : EReal) = bw j) (n : Fin 10000) (j : Fin 18) :
    (k0_pay1 (F := Ideal) x C b (ix2 n j) : EReal) = SimP.proj h Cw bw n j := by
  rw [pay1_apply]
  simp only [hx, hC, hb]
  rfl

/-- The second layer's table fill is the 18-column table of the features it reads. -/
theorem pay2_proj (x : Vec Ideal S10000x16 .f32) (C : Vec Ideal S16x18 .f32) (b : Vec Ideal S1x18 .f32)
    (h : Fin 10000 → Fin 16 → EReal) (Cw : Fin 16 → Fin 18 → EReal) (bw : Fin 18 → EReal)
    (hx : ∀ n k, (x (ix2 n k) : EReal) = h n k) (hC : ∀ k j, (C (ix2 k j) : EReal) = Cw k j)
    (hb : ∀ j, (b (ix2 (0 : Fin 1) j) : EReal) = bw j) (n : Fin 10000) (j : Fin 18) :
    (k0_pay2 (F := Ideal) x C b (ix2 n j) : EReal) = SimP.proj h Cw bw n j := by
  rw [pay2_apply]
  simp only [hx, hC, hb]
  rfl

/-- A point's row block is the kernel's layer at the global row, once the table and the two adjacency blocks are
    read as functions of rows and columns. -/
theorem rowblk_layer (S : Vec Ideal S10000x18 .f32) (a ak : Vec Ideal S200x10000 .f32) (i : grid0.Coords)
    (p : Fin 200) (q : Fin 16) (A Ak : Fin 10000 → Fin 10000 → EReal) (T : Fin 10000 → Fin 18 → EReal) (r : Fin 10000)
    (hr : 200 * ((i 0).val % 50) + p.val = r.val)
    (hS : ∀ n j, (S (ix2 n j) : EReal) = T n j) (ha : ∀ n, (a (ix2 p n) : EReal) = A r n)
    (hak : ∀ n, (ak (ix2 p n) : EReal) = Ak r n) :
    (rowblk (F := Ideal) S a ak i (ix2 p q) : EReal) = SimP.kerLayer A Ak T r q := by
  rw [rowblk_apply]
  have hrow : (⟨200 * ((i 0).val % 50) + p.val, by have := p.isLt; omega⟩ : Fin 10000) = r := Fin.ext hr
  rw [hrow]
  simp only [hS, ha, hak]
  rfl

/-! ## The contents, entry by entry -/

/-- The first layer's table. -/
theorem scr0_apply (c : Dev nD) (n : Fin 10000) (j : Fin 18) :
    (scr0 (F := Ideal) m c (ix2 n j) : EReal)
      = SimP.proj (SimP.rd2 (m ((c.tc : Thread nD τ).loc main_arg0)))
          (SimP.catW (SimP.rd2 (m ((c.tc : Thread nD τ).loc main_arg3))) (SimP.rdCol (m ((c.tc : Thread nD τ).loc main_arg5)))
            (SimP.rdCol (m ((c.tc : Thread nD τ).loc main_arg7))))
          (SimP.catB (SimP.rd0 (m ((c.tc : Thread nD τ).loc main_arg6))) (SimP.rd0 (m ((c.tc : Thread nD τ).loc main_arg8)))) n j :=
  pay1_proj (B0 (F := Ideal) m c (pt 0 (by omega))) (B1 (F := Ideal) m c (pt 0 (by omega))) (B2 (F := Ideal) m c (pt 0 (by omega)))
    (SimP.rd2 (m ((c.tc : Thread nD τ).loc main_arg0)))
    (SimP.catW (SimP.rd2 (m ((c.tc : Thread nD τ).loc main_arg3))) (SimP.rdCol (m ((c.tc : Thread nD τ).loc main_arg5)))
      (SimP.rdCol (m ((c.tc : Thread nD τ).loc main_arg7))))
    (SimP.catB (SimP.rd0 (m ((c.tc : Thread nD τ).loc main_arg6))) (SimP.rd0 (m ((c.tc : Thread nD τ).loc main_arg8))))
    (fun n k => B0_apply m c (pt 0 (by omega)) n k) (fun k j => B1_apply m c (pt 0 (by omega)) k j)
    (fun j => B2_apply m c (pt 0 (by omega)) j) n j

/-- The first layer's output: row `r` is the kernel's layer of the first table at row `r`. -/
theorem x1full_apply (c : Dev nD) (r : Fin 10000) (j : Fin 16) :
    (x1full (F := Ideal) m c (ix2 r j) : EReal)
      = SimP.kerLayer (SimP.rd2 (m ((c.tc : Thread nD τ).loc main_arg1))) (SimP.rd2 (m ((c.tc : Thread nD τ).loc main_arg2)))
          (SimP.proj (SimP.rd2 (m ((c.tc : Thread nD τ).loc main_arg0)))
            (SimP.catW (SimP.rd2 (m ((c.tc : Thread nD τ).loc main_arg3))) (SimP.rdCol (m ((c.tc : Thread nD τ).loc main_arg5)))
              (SimP.rdCol (m ((c.tc : Thread nD τ).loc main_arg7))))
            (SimP.catB (SimP.rd0 (m ((c.tc : Thread nD τ).loc main_arg6))) (SimP.rd0 (m ((c.tc : Thread nD τ).loc main_arg8)))))
          r j := by
  have hr := r.isLt
  have hlt : r.val / 200 < 100 := by omega
  have hrow : 200 * ((r.val / 200) % 50) + r.val % 200 = r.val := by omega
  show (rowblk (F := Ideal) (scr0 m c) (B5 m c (pt (r.val / 200) hlt)) (B6 m c (pt (r.val / 200) hlt))
      (grid0.coords (pt (r.val / 200) hlt)) (ix2 (⟨r.val % 200, Nat.mod_lt _ (by omega)⟩ : Fin 200) (⟨j.val, j.isLt⟩ : Fin 16)) : EReal) = _
  refine rowblk_layer (scr0 (F := Ideal) m c) (B5 (F := Ideal) m c (pt (r.val / 200) hlt)) (B6 (F := Ideal) m c (pt (r.val / 200) hlt))
    (grid0.coords (pt (r.val / 200) hlt)) (⟨r.val % 200, Nat.mod_lt _ (by omega)⟩ : Fin 200) (⟨j.val, j.isLt⟩ : Fin 16)
    (SimP.rd2 (m ((c.tc : Thread nD τ).loc main_arg1))) (SimP.rd2 (m ((c.tc : Thread nD τ).loc main_arg2))) _ r ?_
    (fun n j => scr0_apply m c n j) ?_ ?_
  · rw [point_coord]; exact hrow
  · intro n
    refine (B5_apply m c (pt (r.val / 200) hlt) (⟨r.val % 200, Nat.mod_lt _ (by omega)⟩ : Fin 200) n).trans ?_
    exact congrArg (fun r' => SimP.rd2 (m ((c.tc : Thread nD τ).loc main_arg1)) r' n) (Fin.ext hrow)
  · intro n
    refine (B6_apply m c (pt (r.val / 200) hlt) (⟨r.val % 200, Nat.mod_lt _ (by omega)⟩ : Fin 200) n).trans ?_
    exact congrArg (fun r' => SimP.rd2 (m ((c.tc : Thread nD τ).loc main_arg2)) r' n) (Fin.ext hrow)

/-- The second layer's table. -/
theorem scr1_apply (c : Dev nD) (n : Fin 10000) (j : Fin 18) :
    (scr1 (F := Ideal) m c (ix2 n j) : EReal)
      = SimP.proj
          (SimP.kerLayer (SimP.rd2 (m ((c.tc : Thread nD τ).loc main_arg1))) (SimP.rd2 (m ((c.tc : Thread nD τ).loc main_arg2)))
            (SimP.proj (SimP.rd2 (m ((c.tc : Thread nD τ).loc main_arg0)))
              (SimP.catW (SimP.rd2 (m ((c.tc : Thread nD τ).loc main_arg3))) (SimP.rdCol (m ((c.tc : Thread nD τ).loc main_arg5)))
                (SimP.rdCol (m ((c.tc : Thread nD τ).loc main_arg7))))
              (SimP.catB (SimP.rd0 (m ((c.tc : Thread nD τ).loc main_arg6))) (SimP.rd0 (m ((c.tc : Thread nD τ).loc main_arg8))))))
          (SimP.catW (SimP.rd2 (m ((c.tc : Thread nD τ).loc main_arg4))) (SimP.rdCol (m ((c.tc : Thread nD τ).loc main_arg9)))
            (SimP.rdCol (m ((c.tc : Thread nD τ).loc main_arg11))))
          (SimP.catB (SimP.rd0 (m ((c.tc : Thread nD τ).loc main_arg10))) (SimP.rd0 (m ((c.tc : Thread nD τ).loc main_arg12)))) n j :=
  pay2_proj (x1full (F := Ideal) m c) (B3 (F := Ideal) m c (pt 50 (by omega))) (B4 (F := Ideal) m c (pt 50 (by omega))) _
    (SimP.catW (SimP.rd2 (m ((c.tc : Thread nD τ).loc main_arg4))) (SimP.rdCol (m ((c.tc : Thread nD τ).loc main_arg9)))
      (SimP.rdCol (m ((c.tc : Thread nD τ).loc main_arg11))))
    (SimP.catB (SimP.rd0 (m ((c.tc : Thread nD τ).loc main_arg10))) (SimP.rd0 (m ((c.tc : Thread nD τ).loc main_arg12))))
    (fun n k => x1full_apply m c n k) (fun k j => B3_apply m c (pt 50 (by omega)) k j)
    (fun j => B4_apply m c (pt 50 (by omega)) j) n j

/-- The result array the 50 second-layer points assemble is `SimP.kerOut` of the thirteen argument arrays. -/
theorem ker_value (c : Dev nD) :
    outFinal (F := Ideal) m c
      = SimP.kerOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12)) := by
  funext y
  have hr := row_lt y
  have hlt : 50 + (y 0).val / 200 < 100 := by omega
  have hrow : 200 * ((50 + (y 0).val / 200) % 50) + (y 0).val % 200 = (y 0).val := by omega
  show (rowblk (F := Ideal) (scr1 m c) (B5 m c (pt (50 + (y 0).val / 200) hlt)) (B6 m c (pt (50 + (y 0).val / 200) hlt))
      (grid0.coords (pt (50 + (y 0).val / 200) hlt))
      (ix2 (⟨(y 0).val % 200, Nat.mod_lt _ (by omega)⟩ : Fin 200) (⟨(y 1).val, col_lt y⟩ : Fin 16)) : EReal) = _
  refine (rowblk_layer (scr1 (F := Ideal) m c) (B5 (F := Ideal) m c (pt (50 + (y 0).val / 200) hlt))
    (B6 (F := Ideal) m c (pt (50 + (y 0).val / 200) hlt)) (grid0.coords (pt (50 + (y 0).val / 200) hlt))
    (⟨(y 0).val % 200, Nat.mod_lt _ (by omega)⟩ : Fin 200) (⟨(y 1).val, col_lt y⟩ : Fin 16)
    (SimP.rd2 (m ((c.tc : Thread nD τ).loc main_arg1))) (SimP.rd2 (m ((c.tc : Thread nD τ).loc main_arg2))) _
    (⟨(y 0).val, (y 0).isLt⟩ : Fin 10000) ?_ (fun n j => scr1_apply m c n j) ?_ ?_).trans ?_
  · rw [point_coord]; exact hrow
  · intro n
    refine (B5_apply m c (pt (50 + (y 0).val / 200) hlt) (⟨(y 0).val % 200, Nat.mod_lt _ (by omega)⟩ : Fin 200) n).trans ?_
    exact congrArg (fun r' => SimP.rd2 (m ((c.tc : Thread nD τ).loc main_arg1)) r' n) (Fin.ext hrow)
  · intro n
    refine (B6_apply m c (pt (50 + (y 0).val / 200) hlt) (⟨(y 0).val % 200, Nat.mod_lt _ (by omega)⟩ : Fin 200) n).trans ?_
    exact congrArg (fun r' => SimP.rd2 (m ((c.tc : Thread nD τ).loc main_arg2)) r' n) (Fin.ext hrow)
  · rfl

end Cert.KernelIdeal.Hand

end
-- ==== Proof.RefValue.lean ====
/-
  The reference's result, entry by entry, is two layers in the reference's spelling.

  Its sixty-six host operations are read one at a time at an index: each matrix product as a sum over the contracted
  coordinate, each bias through its two broadcasts, the logistic function through its expansion into negate,
  exponential, add and divide, the column broadcasts and the pointwise products and sums as themselves.

  Both layers are the same thirty-three operations at two feature widths, so one layer is read once, for any width,
  and the program's two stages are that one term at widths 128 and 16, the second over the first's result.
-/
import proofs.«161867_g88347477279355_cont_sun_m_1058_36_alg».proof.Proof.Gen.ReferenceIdeal.Run
import proofs.«161867_g88347477279355_cont_sun_m_1058_36_alg».proof.Proof.Gen.ReferenceIdeal.Read
import proofs.«161867_g88347477279355_cont_sun_m_1058_36_alg».proof.Proof.Spec
import proofs.«161867_g88347477279355_cont_sun_m_1058_36_alg».proof.Proof.LibRowOps

noncomputable section

open scoped BigOperators

namespace Cert.ReferenceIdeal.RefValue

open Idealize.ShloMosaic Idealize.ShloMosaic.TcCoe Idealize.SL.Sem Idealize.ShloMosaic.ValueIdx
open Cert.ReferenceIdeal

/-! ## The two layout steps the layer uses beyond a bias's -/

/-- A column broadcast across the columns: at `(r, j)` the column's entry in row `r`. -/
theorem bcast_col_apply {R H : ℕ} {α : Type} (v : (⟨2, ![R, 1]⟩ : Shape).Idx → α)
    (hb : (⟨2, ![R, 1]⟩ : Shape).BroadcastsInDim ⟨2, ![R, H]⟩ ![0, 1]) (r : Fin R) (j : Fin H) :
    broadcastInDim ⟨2, ![R, H]⟩ ![0, 1] hb v (ix2 r j) = v (ix2 r (0 : Fin 1)) := by
  refine broadcastInDim_apply _ hb v (ix2 r j) (ix2 r (0 : Fin 1)) fun a => ?_
  match a with
  | ⟨0, _⟩ =>
    show r.val = if R = 1 then 0 else r.val
    split
    · have := r.isLt; omega
    · rfl
  | ⟨1, _⟩ => show 0 = if (1 : ℕ) = 1 then 0 else j.val; rw [if_pos rfl]

/-- A scalar constant broadcast to any shape reads the constant's value everywhere. -/
theorem bcast_scalar_apply {s : Shape} (w : BitVec 32) (d0 : Fin 0 → Fin s.rank)
    (hb : (⟨0, ![]⟩ : Shape).BroadcastsInDim s d0) (i : s.Idx) :
    broadcastInDim s d0 hb (constant (F := Ideal) ⟨0, ![]⟩ .f32 w) i = Ideal.ofBits .f32 w := rfl

/-! ## One layer in the host's spelling, for any feature width -/

section Layer
variable {K : ℕ}

/-- The gate's column: the logistic function of the features against the score column, plus its bias. -/
def hostGate (dS : DotDims ⟨2, ![10000, K]⟩ ⟨2, ![K, 1]⟩ ⟨2, ![10000, 1]⟩)
    (hb1 : (⟨1, ![1]⟩ : Shape).BroadcastsInDim ⟨2, ![1, 1]⟩ ![1])
    (hb2 : (⟨2, ![1, 1]⟩ : Shape).BroadcastsInDim ⟨2, ![10000, 1]⟩ ![0, 1])
    (hb0 : (⟨0, ![]⟩ : Shape).BroadcastsInDim ⟨2, ![10000, 1]⟩ ![])
    (h : FVec Ideal ⟨2, ![10000, K]⟩ .f32) (sc : FVec Ideal ⟨2, ![K, 1]⟩ .f32) (b : FVec Ideal ⟨1, ![1]⟩ .f32) :
    FVec Ideal ⟨2, ![10000, 1]⟩ .f32 :=
  Host.divf (broadcastInDim ⟨2, ![10000, 1]⟩ ![] hb0 (constant (F := Ideal) ⟨0, ![]⟩ .f32 0x3F800000#32))
    (addf (broadcastInDim ⟨2, ![10000, 1]⟩ ![] hb0 (constant (F := Ideal) ⟨0, ![]⟩ .f32 0x3F800000#32))
      (Host.exp (Host.negf (addf (Host.dotGeneral dS none h sc)
        (broadcastInDim ⟨2, ![10000, 1]⟩ ![0, 1] hb2 (broadcastInDim ⟨2, ![1, 1]⟩ ![1] hb1 b))))))

/-- The gate's column at row `r`. -/
theorem hostGate_apply (dS : DotDims ⟨2, ![10000, K]⟩ ⟨2, ![K, 1]⟩ ⟨2, ![10000, 1]⟩) (hS : dS = DotDims.plain 10000 K 1)
    (hb1 : (⟨1, ![1]⟩ : Shape).BroadcastsInDim ⟨2, ![1, 1]⟩ ![1])
    (hb2 : (⟨2, ![1, 1]⟩ : Shape).BroadcastsInDim ⟨2, ![10000, 1]⟩ ![0, 1])
    (hb0 : (⟨0, ![]⟩ : Shape).BroadcastsInDim ⟨2, ![10000, 1]⟩ ![])
    (h : FVec Ideal ⟨2, ![10000, K]⟩ .f32) (sc : FVec Ideal ⟨2, ![K, 1]⟩ .f32) (b : FVec Ideal ⟨1, ![1]⟩ .f32)
    (r : Fin 10000) :
    hostGate dS hb1 hb2 hb0 h sc b (ix2 r (0 : Fin 1))
      = Ideal.logistic ((∑ k : Fin K, h (ix2 r k) * sc (ix2 k (0 : Fin 1))) + b (ix1 (0 : Fin 1))) := by
  unfold hostGate
  rw [RowOps.logistic_host_apply, RowOps.dense_host_apply' dS hS]
  rfl

/-- The degree term's column: the features against the degree column, plus its bias. -/
def hostDeg (dS : DotDims ⟨2, ![10000, K]⟩ ⟨2, ![K, 1]⟩ ⟨2, ![10000, 1]⟩)
    (hb1 : (⟨1, ![1]⟩ : Shape).BroadcastsInDim ⟨2, ![1, 1]⟩ ![1])
    (hb2 : (⟨2, ![1, 1]⟩ : Shape).BroadcastsInDim ⟨2, ![10000, 1]⟩ ![0, 1])
    (h : FVec Ideal ⟨2, ![10000, K]⟩ .f32) (dk : FVec Ideal ⟨2, ![K, 1]⟩ .f32) (db : FVec Ideal ⟨1, ![1]⟩ .f32) :
    FVec Ideal ⟨2, ![10000, 1]⟩ .f32 :=
  addf (Host.dotGeneral dS none h dk)
    (broadcastInDim ⟨2, ![10000, 1]⟩ ![0, 1] hb2 (broadcastInDim ⟨2, ![1, 1]⟩ ![1] hb1 db))

/-- The degree term's column at row `r`. -/
theorem hostDeg_apply (dS : DotDims ⟨2, ![10000, K]⟩ ⟨2, ![K, 1]⟩ ⟨2, ![10000, 1]⟩) (hS : dS = DotDims.plain 10000 K 1)
    (hb1 : (⟨1, ![1]⟩ : Shape).BroadcastsInDim ⟨2, ![1, 1]⟩ ![1])
    (hb2 : (⟨2, ![1, 1]⟩ : Shape).BroadcastsInDim ⟨2, ![10000, 1]⟩ ![0, 1])
    (h : FVec Ideal ⟨2, ![10000, K]⟩ .f32) (dk : FVec Ideal ⟨2, ![K, 1]⟩ .f32) (db : FVec Ideal ⟨1, ![1]⟩ .f32)
    (r : Fin 10000) :
    hostDeg dS hb1 hb2 h dk db (ix2 r (0 : Fin 1))
      = (∑ k : Fin K, h (ix2 r k) * dk (ix2 k (0 : Fin 1))) + db (ix1 (0 : Fin 1)) := by
  unfold hostDeg
  rw [RowOps.dense_host_apply' dS hS]
  rfl

/-- An adjacency matrix against the projected features, at `(r, j)`: a sum over the nodes of a sum over the features. -/
theorem hostAgg_apply (dW : DotDims ⟨2, ![10000, K]⟩ ⟨2, ![K, 16]⟩ ⟨2, ![10000, 16]⟩) (hW : dW = DotDims.plain 10000 K 16)
    (dA : DotDims ⟨2, ![10000, 10000]⟩ ⟨2, ![10000, 16]⟩ ⟨2, ![10000, 16]⟩) (hA : dA = DotDims.plain 10000 10000 16)
    (A : FVec Ideal ⟨2, ![10000, 10000]⟩ .f32) (h : FVec Ideal ⟨2, ![10000, K]⟩ .f32) (W : FVec Ideal ⟨2, ![K, 16]⟩ .f32)
    (r : Fin 10000) (j : Fin 16) :
    Host.dotGeneral dA none A (Host.dotGeneral dW none h W) (ix2 r j)
      = ∑ n : Fin 10000, A (ix2 r n) * ∑ k : Fin K, h (ix2 n k) * W (ix2 k j) := by
  rw [RowOps.dotGeneral_plain_apply dA hA]
  refine Finset.sum_congr rfl fun n _ => ?_
  rw [RowOps.dotGeneral_plain_apply dW hW]

/-- One layer as the host computes it: the gate's column times the first aggregate, one minus it times the second,
    and the scaled degree column times the projected features, each column spread across the sixteen columns. -/
def hostLayer (dS : DotDims ⟨2, ![10000, K]⟩ ⟨2, ![K, 1]⟩ ⟨2, ![10000, 1]⟩)
    (dW : DotDims ⟨2, ![10000, K]⟩ ⟨2, ![K, 16]⟩ ⟨2, ![10000, 16]⟩)
    (dA : DotDims ⟨2, ![10000, 10000]⟩ ⟨2, ![10000, 16]⟩ ⟨2, ![10000, 16]⟩)
    (hb1 : (⟨1, ![1]⟩ : Shape).BroadcastsInDim ⟨2, ![1, 1]⟩ ![1])
    (hb2 : (⟨2, ![1, 1]⟩ : Shape).BroadcastsInDim ⟨2, ![10000, 1]⟩ ![0, 1])
    (hb0 : (⟨0, ![]⟩ : Shape).BroadcastsInDim ⟨2, ![10000, 1]⟩ ![])
    (hbc : (⟨2, ![10000, 1]⟩ : Shape).BroadcastsInDim ⟨2, ![10000, 16]⟩ ![0, 1])
    (h : FVec Ideal ⟨2, ![10000, K]⟩ .f32) (A Ak : FVec Ideal ⟨2, ![10000, 10000]⟩ .f32) (W : FVec Ideal ⟨2, ![K, 16]⟩ .f32)
    (sc : FVec Ideal ⟨2, ![K, 1]⟩ .f32) (b : FVec Ideal ⟨1, ![1]⟩ .f32)
    (dk : FVec Ideal ⟨2, ![K, 1]⟩ .f32) (db : FVec Ideal ⟨1, ![1]⟩ .f32) : FVec Ideal ⟨2, ![10000, 16]⟩ .f32 :=
  addf
    (addf
      (mulf (broadcastInDim ⟨2, ![10000, 16]⟩ ![0, 1] hbc (hostGate dS hb1 hb2 hb0 h sc b))
        (Host.dotGeneral dA none A (Host.dotGeneral dW none h W)))
      (mulf (broadcastInDim ⟨2, ![10000, 16]⟩ ![0, 1] hbc
          (subf (broadcastInDim ⟨2, ![10000, 1]⟩ ![] hb0 (constant (F := Ideal) ⟨0, ![]⟩ .f32 0x3F800000#32))
            (hostGate dS hb1 hb2 hb0 h sc b)))
        (Host.dotGeneral dA none Ak (Host.dotGeneral dW none h W))))
    (mulf (broadcastInDim ⟨2, ![10000, 16]⟩ ![0, 1] hbc
        (mulf (broadcastInDim ⟨2, ![10000, 1]⟩ ![] hb0 (constant (F := Ideal) ⟨0, ![]⟩ .f32 0x3DCCCCCD#32))
          (hostDeg dS hb1 hb2 h dk db)))
      (Host.dotGeneral dW none h W))

/-- The host's layer at `(r, j)` is the reference's layer of the arrays read entry by entry. -/
theorem hostLayer_apply (dS : DotDims ⟨2, ![10000, K]⟩ ⟨2, ![K, 1]⟩ ⟨2, ![10000, 1]⟩) (hS : dS = DotDims.plain 10000 K 1)
    (dW : DotDims ⟨2, ![10000, K]⟩ ⟨2, ![K, 16]⟩ ⟨2, ![10000, 16]⟩) (hW : dW = DotDims.plain 10000 K 16)
    (dA : DotDims ⟨2, ![10000, 10000]⟩ ⟨2, ![10000, 16]⟩ ⟨2, ![10000, 16]⟩) (hA : dA = DotDims.plain 10000 10000 16)
    (hb1 : (⟨1, ![1]⟩ : Shape).BroadcastsInDim ⟨2, ![1, 1]⟩ ![1])
    (hb2 : (⟨2, ![1, 1]⟩ : Shape).BroadcastsInDim ⟨2, ![10000, 1]⟩ ![0, 1])
    (hb0 : (⟨0, ![]⟩ : Shape).BroadcastsInDim ⟨2, ![10000, 1]⟩ ![])
    (hbc : (⟨2, ![10000, 1]⟩ : Shape).BroadcastsInDim ⟨2, ![10000, 16]⟩ ![0, 1])
    (h : FVec Ideal ⟨2, ![10000, K]⟩ .f32) (A Ak : FVec Ideal ⟨2, ![10000, 10000]⟩ .f32) (W : FVec Ideal ⟨2, ![K, 16]⟩ .f32)
    (sc : FVec Ideal ⟨2, ![K, 1]⟩ .f32) (b : FVec Ideal ⟨1, ![1]⟩ .f32)
    (dk : FVec Ideal ⟨2, ![K, 1]⟩ .f32) (db : FVec Ideal ⟨1, ![1]⟩ .f32) (r : Fin 10000) (j : Fin 16) :
    hostLayer dS dW dA hb1 hb2 hb0 hbc h A Ak W sc b dk db (ix2 r j)
      = SimP.refLayer (SimP.rd2 A) (SimP.rd2 Ak) (SimP.rd2 h) (SimP.rd2 W) (SimP.rdCol sc) (SimP.rdCol dk)
          (SimP.rd0 b) (SimP.rd0 db) r j := by
  unfold hostLayer
  rw [addf_apply, addf_apply, mulf_apply, mulf_apply, mulf_apply, bcast_col_apply, bcast_col_apply, bcast_col_apply,
    subf_apply, mulf_apply, bcast_scalar_apply, bcast_scalar_apply, Ideal.ofBits_one_f32,
    hostGate_apply dS hS, hostDeg_apply dS hS, hostAgg_apply dW hW dA hA, hostAgg_apply dW hW dA hA,
    RowOps.dotGeneral_plain_apply dW hW]
  rfl

end Layer

/-! ## The program's two stages are that layer, at widths 128 and 16 -/

open Cert.ReferenceIdeal.Gen Cert.ReferenceIdeal.Read

/-- The first layer's result array is the host's layer of the node features at width 128. -/
theorem stage28_eq (x0 : (⟨S10000x128, .f32⟩ : BufTy).Contents (Elt Ideal)) (x1 x2 : (⟨S10000x10000, .f32⟩ : BufTy).Contents (Elt Ideal)) (x3 : (⟨S128x16, .f32⟩ : BufTy).Contents (Elt Ideal))
    (x5 : (⟨S128x1, .f32⟩ : BufTy).Contents (Elt Ideal)) (x6 : (⟨S1, .f32⟩ : BufTy).Contents (Elt Ideal)) (x7 : (⟨S128x1, .f32⟩ : BufTy).Contents (Elt Ideal)) (x8 : (⟨S1, .f32⟩ : BufTy).Contents (Elt Ideal)) :
    val_main_v28 (F := Ideal) x0 x1 x2 x3 x5 x6 x7 x8
      = hostLayer dot_S10000x128_S128x1_S10000x1_1_0_0_1_n_n dot_S10000x128_S128x16_S10000x16_1_0_0_1_n_n
          dot_S10000x10000_S10000x16_S10000x16_1_0_0_1_n_n bcast_S1_S1x1_1 bcast_S1x1_S10000x1_0_1 bcast_S_S10000x1
          bcast_S10000x1_S10000x16_0_1 x0 x1 x2 x3 x5 x6 x7 x8 := by
  unfold val_main_v28 val_main_v27 val_main_v26 val_main_v25 val_main_v24 val_main_v23 val_main_v22 val_main_v21
    val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3
    val_main_v2 val_main_v1 val_main_v0 val_main_cst val_main_cst_0 val_main_cst_1 val_main_cst_2
    hostLayer hostGate hostDeg
  rfl

/-- The program's result array is the host's layer of the first layer's result at width 16. -/
theorem stage57_eq (x0 : (⟨S10000x128, .f32⟩ : BufTy).Contents (Elt Ideal)) (x1 x2 : (⟨S10000x10000, .f32⟩ : BufTy).Contents (Elt Ideal)) (x3 : (⟨S128x16, .f32⟩ : BufTy).Contents (Elt Ideal)) (x4 : (⟨S16x16, .f32⟩ : BufTy).Contents (Elt Ideal))
    (x5 : (⟨S128x1, .f32⟩ : BufTy).Contents (Elt Ideal)) (x6 : (⟨S1, .f32⟩ : BufTy).Contents (Elt Ideal)) (x7 : (⟨S128x1, .f32⟩ : BufTy).Contents (Elt Ideal)) (x8 : (⟨S1, .f32⟩ : BufTy).Contents (Elt Ideal))
    (x9 : (⟨S16x1, .f32⟩ : BufTy).Contents (Elt Ideal)) (x10 : (⟨S1, .f32⟩ : BufTy).Contents (Elt Ideal)) (x11 : (⟨S16x1, .f32⟩ : BufTy).Contents (Elt Ideal)) (x12 : (⟨S1, .f32⟩ : BufTy).Contents (Elt Ideal)) :
    val_main_v57 (F := Ideal) x0 x1 x2 x3 x4 x5 x6 x7 x8 x9 x10 x11 x12
      = hostLayer dot_S10000x16_S16x1_S10000x1_1_0_0_1_n_n dot_S10000x16_S16x16_S10000x16_1_0_0_1_n_n
          dot_S10000x10000_S10000x16_S10000x16_1_0_0_1_n_n bcast_S1_S1x1_1 bcast_S1x1_S10000x1_0_1 bcast_S_S10000x1
          bcast_S10000x1_S10000x16_0_1 (val_main_v28 (F := Ideal) x0 x1 x2 x3 x5 x6 x7 x8) x1 x2 x4 x9 x10 x11 x12 := by
  unfold val_main_v57 val_main_v56 val_main_v55 val_main_v54 val_main_v53 val_main_v52 val_main_v51 val_main_v50
    val_main_v49 val_main_v48 val_main_v47 val_main_v46 val_main_v45 val_main_v44 val_main_v43 val_main_v42 val_main_v41
    val_main_v40 val_main_v39 val_main_v38 val_main_v37 val_main_v36 val_main_v35 val_main_v34 val_main_v33 val_main_v32
    val_main_v31 val_main_v30 val_main_v29 val_main_cst_3 val_main_cst_4 val_main_cst_5 val_main_cst_6
    hostLayer hostGate hostDeg
  rfl

/-- The program's result array, as a function of the thirteen argument arrays, is two layers in the reference's spelling. -/
theorem stage57_refOut (x0 : (⟨S10000x128, .f32⟩ : BufTy).Contents (Elt Ideal)) (x1 x2 : (⟨S10000x10000, .f32⟩ : BufTy).Contents (Elt Ideal)) (x3 : (⟨S128x16, .f32⟩ : BufTy).Contents (Elt Ideal)) (x4 : (⟨S16x16, .f32⟩ : BufTy).Contents (Elt Ideal))
    (x5 : (⟨S128x1, .f32⟩ : BufTy).Contents (Elt Ideal)) (x6 : (⟨S1, .f32⟩ : BufTy).Contents (Elt Ideal)) (x7 : (⟨S128x1, .f32⟩ : BufTy).Contents (Elt Ideal)) (x8 : (⟨S1, .f32⟩ : BufTy).Contents (Elt Ideal))
    (x9 : (⟨S16x1, .f32⟩ : BufTy).Contents (Elt Ideal)) (x10 : (⟨S1, .f32⟩ : BufTy).Contents (Elt Ideal)) (x11 : (⟨S16x1, .f32⟩ : BufTy).Contents (Elt Ideal)) (x12 : (⟨S1, .f32⟩ : BufTy).Contents (Elt Ideal)) :
    val_main_v57 (F := Ideal) x0 x1 x2 x3 x4 x5 x6 x7 x8 x9 x10 x11 x12
      = SimP.refOut x0 x1 x2 x3 x4 x5 x6 x7 x8 x9 x10 x11 x12 := by
  funext i
  obtain ⟨p, q, rfl⟩ : ∃ (p : Fin 10000) (q : Fin 16), i = ix2 p q := ⟨i 0, i 1, eq_ix2 i⟩
  have h1 : SimP.rd2 (val_main_v28 (F := Ideal) x0 x1 x2 x3 x5 x6 x7 x8)
      = SimP.refLayer (SimP.rd2 x1) (SimP.rd2 x2) (SimP.rd2 x0) (SimP.rd2 x3) (SimP.rdCol x5) (SimP.rdCol x7)
          (SimP.rd0 x6) (SimP.rd0 x8) := by
    funext r k
    unfold SimP.rd2
    rw [stage28_eq]
    exact hostLayer_apply _ rfl _ rfl _ rfl _ _ _ _ x0 x1 x2 x3 x5 x6 x7 x8 r k
  rw [stage57_eq]
  refine (hostLayer_apply _ rfl _ rfl _ rfl _ _ _ _ _ x1 x2 x4 x9 x10 x11 x12 p q).trans ?_
  rw [h1]
  rfl

/-- The reference run's result term is `SimP.refOut` of the thirteen argument arrays. -/
theorem ref_value (m' : (ℓ : Loc nD τ sig) → Buf (Elt Ideal) ℓ) (c : Dev nD) :
    Cert.ReferenceIdeal.Value.res_out0 (F := Ideal) m' c
      = SimP.refOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12)) :=
  (val_main_v57_eq (F := Ideal) m' c).trans (stage57_refOut _ _ _ _ _ _ _ _ _ _ _ _ _)

end Cert.ReferenceIdeal.RefValue

end
-- ==== Proof.Finite.lean ====
/-
  The precondition says every entry of every argument array is a real number.

  It is printed as thirteen comparisons `|x| < +∞`, each folded over its whole array by a conjunction, and the thirteen
  results joined; at the ideal values an entry whose magnitude is below `+∞` is neither infinity.
-/
import proofs.«161867_g88347477279355_cont_sun_m_1058_36_alg».proof.Defs
import proofs.«161867_g88347477279355_cont_sun_m_1058_36_alg».proof.Proof.Gen.Pre_finite_inputs
import proofs.«161867_g88347477279355_cont_sun_m_1058_36_alg».proof.Proof.Spec
import Idealize.ShloMosaic.Lib.ReduceAll

noncomputable section

namespace Cert.Proof.Finite

open Idealize.ShloMosaic Idealize.SL.Sem

/-- The rank-0 shape has one index. -/
instance : Subsingleton Cert.Pre_finite_inputs.S_.Idx := ⟨fun a b => funext fun d => d.elim0⟩

/-- The word the comparisons are made against denotes `+∞`. -/
theorem inf_word : Ideal.ofBits .f32 0x7F800000#32 = (⊤ : EReal) := by
  simp [Ideal.ofBits, Ideal.ieee]

/-- An extended real whose magnitude `max x (-x)` is below `+∞` is a real number. -/
theorem fin1_of_abs_lt (x : EReal) (h : max x (-x) < ⊤) : SimP.Fin1 x := by
  refine ⟨fun hx => ?_, fun hx => ?_⟩
  · subst hx; simp at h
  · subst hx; simp at h

/-- One block of the predicate: if the conjunction over a whole array of `|x| < +∞` is 1, every entry is a real number. -/
theorem block {S : Shape} {axes : List (Fin S.rank)}
    (hb : Cert.Pre_finite_inputs.S_.BroadcastsInDim S (![] : Fin 0 → Fin S.rank))
    (hr : S.ReducesTo axes Cert.Pre_finite_inputs.S_) (h0 : 0 < Cert.Pre_finite_inputs.S_.numel)
    (a : FVec Ideal S .f32) (j : Cert.Pre_finite_inputs.S_.Idx)
    (e : Host.reduce IntOp.andi
          (cmpf .olt (Host.absf a) (broadcastInDim S ![] hb (constant Cert.Pre_finite_inputs.S_ .f32 0x7F800000#32)))
          (constantI Cert.Pre_finite_inputs.S_ 1 1#1) hr h0 j = 1#1)
    (i : S.Idx) : SimP.Fin1 (a i) := by
  have hi := Host.reduce_andi_all _ _ hr h0 j e i
  apply fin1_of_abs_lt
  simp only [cmpf, Host.absf, broadcastInDim, constant, Ideal.ofBits_def, inf_word] at hi
  have hi' : BitVec.ofBool (decide (max (a i) (-a i) < ⊤)) = 1#1 := hi
  cases hd : decide (max (a i) (-a i) < ⊤)
  · rw [hd] at hi'; exact absurd hi' (by decide)
  · exact of_decide_eq_true hd

/-- Under the precondition every entry of every argument array of the idealized kernel is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, SimP.Fin1 ((m ((c.tc : Thread Cert.KernelIdeal.nD Cert.KernelIdeal.τ).loc Cert.KernelIdeal.main_arg0)) i))
    ∧ (∀ i, SimP.Fin1 ((m ((c.tc : Thread Cert.KernelIdeal.nD Cert.KernelIdeal.τ).loc Cert.KernelIdeal.main_arg1)) i))
    ∧ (∀ i, SimP.Fin1 ((m ((c.tc : Thread Cert.KernelIdeal.nD Cert.KernelIdeal.τ).loc Cert.KernelIdeal.main_arg2)) i))
    ∧ (∀ i, SimP.Fin1 ((m ((c.tc : Thread Cert.KernelIdeal.nD Cert.KernelIdeal.τ).loc Cert.KernelIdeal.main_arg3)) i))
    ∧ (∀ i, SimP.Fin1 ((m ((c.tc : Thread Cert.KernelIdeal.nD Cert.KernelIdeal.τ).loc Cert.KernelIdeal.main_arg4)) i))
    ∧ (∀ i, SimP.Fin1 ((m ((c.tc : Thread Cert.KernelIdeal.nD Cert.KernelIdeal.τ).loc Cert.KernelIdeal.main_arg5)) i))
    ∧ (∀ i, SimP.Fin1 ((m ((c.tc : Thread Cert.KernelIdeal.nD Cert.KernelIdeal.τ).loc Cert.KernelIdeal.main_arg6)) i))
    ∧ (∀ i, SimP.Fin1 ((m ((c.tc : Thread Cert.KernelIdeal.nD Cert.KernelIdeal.τ).loc Cert.KernelIdeal.main_arg7)) i))
    ∧ (∀ i, SimP.Fin1 ((m ((c.tc : Thread Cert.KernelIdeal.nD Cert.KernelIdeal.τ).loc Cert.KernelIdeal.main_arg8)) i))
    ∧ (∀ i, SimP.Fin1 ((m ((c.tc : Thread Cert.KernelIdeal.nD Cert.KernelIdeal.τ).loc Cert.KernelIdeal.main_arg9)) i))
    ∧ (∀ i, SimP.Fin1 ((m ((c.tc : Thread Cert.KernelIdeal.nD Cert.KernelIdeal.τ).loc Cert.KernelIdeal.main_arg10)) i))
    ∧ (∀ i, SimP.Fin1 ((m ((c.tc : Thread Cert.KernelIdeal.nD Cert.KernelIdeal.τ).loc Cert.KernelIdeal.main_arg11)) i))
    ∧ (∀ i, SimP.Fin1 ((m ((c.tc : Thread Cert.KernelIdeal.nD Cert.KernelIdeal.τ).loc Cert.KernelIdeal.main_arg12)) i)) := by
  have e := congrFun (h c) ValueIdx.ix0
  dsimp only [Cert.Pre_finite_inputs.fn, Cert.Pre_finite_inputs.fn_part1, Cert.Pre_finite_inputs.fn_part2,
    Cert.Pre_finite_inputs.fn_part3, andi] at e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨block _ _ _ _ _ e0, block _ _ _ _ _ e1, block _ _ _ _ _ e2, block _ _ _ _ _ e3, block _ _ _ _ _ e4,
    block _ _ _ _ _ e5, block _ _ _ _ _ e6, block _ _ _ _ _ e7, block _ _ _ _ _ e8, block _ _ _ _ _ e9,
    block _ _ _ _ _ e10, block _ _ _ _ _ e11, block _ _ _ _ _ e12⟩

end Cert.Proof.Finite

end
-- ==== Proof.MathLaw.lean ====
/-
  Over finite inputs the kernel's two layers and the reference's two layers are one function.

  With every entry a real number, each linear form, each aggregate and each gate value is a real number, so the
  blend `q + s · (p - q)` is `s · p + (1 - s) · q` (distributivity, which the extended reals have only away from the
  infinities), a sum plus the zero bias entry is the sum, and the widened product's columns are the three separate
  linear forms.  The first layer's output is again real, which is what the second layer needs of its input.
-/
import proofs.«161867_g88347477279355_cont_sun_m_1058_36_alg».proof.Proof.Spec

noncomputable section

open scoped BigOperators

namespace SimP

open Idealize.ShloMosaic

variable {N K : ℕ}

/-! ## Real numbers inside the extended reals -/

/-- An extended real that is a real number is the coercion of its real part. -/
theorem Fin1.coe_toReal {x : EReal} (h : Fin1 x) : ((x.toReal : ℝ) : EReal) = x :=
  EReal.coe_toReal h.1 h.2

/-- A coercion of a real is a real number. -/
theorem fin1_coe (r : ℝ) : Fin1 (r : EReal) := ⟨EReal.coe_ne_top r, EReal.coe_ne_bot r⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The all-zero word is zero. -/
theorem zE_eq : zE = 0 := by simp [zE, Ideal.ofBits, Ideal.ieee]

/-- The scaling literal is a real number. -/
theorem γE_fin : Fin1 γE := by
  constructor <;> simp [γE, Ideal.ofBits, Ideal.ieee, -EReal.coe_mul]

/-! ## One layer over the reals -/

/-- The layer both programs compute, over the reals, with the scaling literal `g`. -/
def realLayer (g : ℝ) (A Ak : Fin N → Fin N → ℝ) (h : Fin N → Fin K → ℝ) (W : Fin K → Fin 16 → ℝ)
    (sc dk : Fin K → ℝ) (b db : ℝ) (r : Fin N) (j : Fin 16) : ℝ :=
  ((1 + Real.exp (-((∑ k : Fin K, h r k * sc k) + b)))⁻¹ * (∑ n : Fin N, A r n * ∑ k : Fin K, h n k * W k j)
      + (1 - (1 + Real.exp (-((∑ k : Fin K, h r k * sc k) + b)))⁻¹) * (∑ n : Fin N, Ak r n * ∑ k : Fin K, h n k * W k j))
    + (g * ((∑ k : Fin K, h r k * dk k) + db)) * (∑ k : Fin K, h r k * W k j)

/-- A feature column of the widened product is the projected feature. -/
theorem proj_col (h : Fin N → Fin K → ℝ) (W : Fin K → Fin 16 → ℝ) (sc dk : Fin K → ℝ) (b db : ℝ)
    (n : Fin N) (j : Fin 16) :
    proj (fun n k => (h n k : EReal)) (catW (fun k j => (W k j : EReal)) (fun k => (sc k : EReal)) (fun k => (dk k : EReal)))
      (catB (b : EReal) (db : EReal)) n (col j) = ((∑ k : Fin K, h n k * W k j : ℝ) : EReal) := by
  have hj : (col j).val < 16 := j.isLt
  have hc : (⟨(col j).val, hj⟩ : Fin 16) = j := rfl
  simp only [proj, catW, catB, dif_pos hj, if_pos hj, hc, zE_eq, add_zero, coe_sum, EReal.coe_mul]

/-- Column sixteen of the widened product is the gate logit. -/
theorem proj_gate (h : Fin N → Fin K → ℝ) (W : Fin K → Fin 16 → ℝ) (sc dk : Fin K → ℝ) (b db : ℝ) (n : Fin N) :
    proj (fun n k => (h n k : EReal)) (catW (fun k j => (W k j : EReal)) (fun k => (sc k : EReal)) (fun k => (dk k : EReal)))
      (catB (b : EReal) (db : EReal)) n 16 = (((∑ k : Fin K, h n k * sc k) + b : ℝ) : EReal) := by
  have h1 : ¬ (16 : Fin 18).val < 16 := by decide
  have h2 : (16 : Fin 18).val = 16 := by decide
  simp only [proj, catW, catB, dif_neg h1, if_neg h1, if_pos h2, coe_sum, EReal.coe_mul, EReal.coe_add]

/-- Column seventeen of the widened product is the degree term. -/
theorem proj_deg (h : Fin N → Fin K → ℝ) (W : Fin K → Fin 16 → ℝ) (sc dk : Fin K → ℝ) (b db : ℝ) (n : Fin N) :
    proj (fun n k => (h n k : EReal)) (catW (fun k j => (W k j : EReal)) (fun k => (sc k : EReal)) (fun k => (dk k : EReal)))
      (catB (b : EReal) (db : EReal)) n 17 = (((∑ k : Fin K, h n k * dk k) + db : ℝ) : EReal) := by
  have h1 : ¬ (17 : Fin 18).val < 16 := by decide
  have h2 : ¬ (17 : Fin 18).val = 16 := by decide
  simp only [proj, catW, catB, dif_neg h1, if_neg h1, if_neg h2, coe_sum, EReal.coe_mul, EReal.coe_add]

/-- The kernel's layer on real inputs is the real layer. -/
theorem kerLayer_real (g : ℝ) (hg : γE = (g : EReal)) (A Ak : Fin N → Fin N → ℝ) (h : Fin N → Fin K → ℝ)
    (W : Fin K → Fin 16 → ℝ) (sc dk : Fin K → ℝ) (b db : ℝ) (r : Fin N) (j : Fin 16) :
    kerLayer (fun r n => (A r n : EReal)) (fun r n => (Ak r n : EReal))
      (proj (fun n k => (h n k : EReal))
        (catW (fun k j => (W k j : EReal)) (fun k => (sc k : EReal)) (fun k => (dk k : EReal)))
        (catB (b : EReal) (db : EReal))) r j
      = ((realLayer g A Ak h W sc dk b db r j : ℝ) : EReal) := by
  simp only [kerLayer, aggE, proj_col, proj_gate, proj_deg, hg, Ideal.logistic_coe,
    ← EReal.coe_mul, ← coe_sum, ← EReal.coe_sub, ← EReal.coe_add]
  congr 1
  unfold realLayer
  ring

/-- The reference's layer on real inputs is the real layer. -/
theorem refLayer_real (g : ℝ) (hg : γE = (g : EReal)) (A Ak : Fin N → Fin N → ℝ) (h : Fin N → Fin K → ℝ)
    (W : Fin K → Fin 16 → ℝ) (sc dk : Fin K → ℝ) (b db : ℝ) (r : Fin N) (j : Fin 16) :
    refLayer (fun r n => (A r n : EReal)) (fun r n => (Ak r n : EReal)) (fun n k => (h n k : EReal))
      (fun k j => (W k j : EReal)) (fun k => (sc k : EReal)) (fun k => (dk k : EReal)) (b : EReal) (db : EReal) r j
      = ((realLayer g A Ak h W sc dk b db r j : ℝ) : EReal) := by
  simp only [refLayer, aggE, hg, ← EReal.coe_mul, ← coe_sum, ← EReal.coe_add, Ideal.logistic_coe,
    ← EReal.coe_one, ← EReal.coe_sub]
  rfl

/-! ## Two layers -/

/-- The two programs' outputs agree entry by entry when every input entry is a real number. -/
theorem out_eq (A Ak : Fin N → Fin N → EReal) (x : Fin N → Fin K → EReal)
    (W1 : Fin K → Fin 16 → EReal) (s0 d0 : Fin K → EReal) (b0 db0 : EReal)
    (W2 : Fin 16 → Fin 16 → EReal) (s1 d1 : Fin 16 → EReal) (b1 db1 : EReal)
    (hA : ∀ r n, Fin1 (A r n)) (hAk : ∀ r n, Fin1 (Ak r n)) (hx : ∀ n k, Fin1 (x n k))
    (hW1 : ∀ k j, Fin1 (W1 k j)) (hs0 : ∀ k, Fin1 (s0 k)) (hd0 : ∀ k, Fin1 (d0 k)) (hb0 : Fin1 b0) (hdb0 : Fin1 db0)
    (hW2 : ∀ k j, Fin1 (W2 k j)) (hs1 : ∀ k, Fin1 (s1 k)) (hd1 : ∀ k, Fin1 (d1 k)) (hb1 : Fin1 b1) (hdb1 : Fin1 db1) :
    kerLayer A Ak (proj (kerLayer A Ak (proj x (catW W1 s0 d0) (catB b0 db0))) (catW W2 s1 d1) (catB b1 db1))
      = refLayer A Ak (refLayer A Ak x W1 s0 d0 b0 db0) W2 s1 d1 b1 db1 := by
  have hg : γE = ((γE.toReal : ℝ) : EReal) := γE_fin.coe_toReal.symm
  have eA : A = fun r n => (((A r n).toReal : ℝ) : EReal) := by funext r n; exact (hA r n).coe_toReal.symm
  have eAk : Ak = fun r n => (((Ak r n).toReal : ℝ) : EReal) := by funext r n; exact (hAk r n).coe_toReal.symm
  have ex : x = fun n k => (((x n k).toReal : ℝ) : EReal) := by funext n k; exact (hx n k).coe_toReal.symm
  have eW1 : W1 = fun k j => (((W1 k j).toReal : ℝ) : EReal) := by funext k j; exact (hW1 k j).coe_toReal.symm
  have es0 : s0 = fun k => (((s0 k).toReal : ℝ) : EReal) := by funext k; exact (hs0 k).coe_toReal.symm
  have ed0 : d0 = fun k => (((d0 k).toReal : ℝ) : EReal) := by funext k; exact (hd0 k).coe_toReal.symm
  have eW2 : W2 = fun k j => (((W2 k j).toReal : ℝ) : EReal) := by funext k j; exact (hW2 k j).coe_toReal.symm
  have es1 : s1 = fun k => (((s1 k).toReal : ℝ) : EReal) := by funext k; exact (hs1 k).coe_toReal.symm
  have ed1 : d1 = fun k => (((d1 k).toReal : ℝ) : EReal) := by funext k; exact (hd1 k).coe_toReal.symm
  have eb0 := hb0.coe_toReal.symm
  have edb0 := hdb0.coe_toReal.symm
  have eb1 := hb1.coe_toReal.symm
  have edb1 := hdb1.coe_toReal.symm
  rw [eA, eAk, ex, eW1, es0, ed0, eW2, es1, ed1, eb0, edb0, eb1, edb1]
  have k1 := fun r j => kerLayer_real (N := N) (K := K) _ hg (fun r n => (A r n).toReal) (fun r n => (Ak r n).toReal)
    (fun n k => (x n k).toReal) (fun k j => (W1 k j).toReal) (fun k => (s0 k).toReal) (fun k => (d0 k).toReal)
    b0.toReal db0.toReal r j
  have r1 := fun r j => refLayer_real (N := N) (K := K) _ hg (fun r n => (A r n).toReal) (fun r n => (Ak r n).toReal)
    (fun n k => (x n k).toReal) (fun k j => (W1 k j).toReal) (fun k => (s0 k).toReal) (fun k => (d0 k).toReal)
    b0.toReal db0.toReal r j
  rw [funext fun r => funext fun j => k1 r j, funext fun r => funext fun j => r1 r j]
  funext r j
  rw [kerLayer_real _ hg, refLayer_real _ hg]

end SimP

end
-- ==== Proof.Bridge.lean ====
/-
  Over arrays whose entries are all real numbers the two whole-array functions are one: the math law, read at the
  arrays' entries.
-/
import proofs.«161867_g88347477279355_cont_sun_m_1058_36_alg».proof.Proof.MathLaw

noncomputable section

namespace SimP

open Idealize.ShloMosaic Idealize.ShloMosaic.ValueIdx

theorem kerOut_eq_refOut (x : (⟨2, ![10000, 128]⟩ : Shape).Idx → EReal) (adj adjk : (⟨2, ![10000, 10000]⟩ : Shape).Idx → EReal)
    (W1 : (⟨2, ![128, 16]⟩ : Shape).Idx → EReal) (W2 : (⟨2, ![16, 16]⟩ : Shape).Idx → EReal)
    (s0 : (⟨2, ![128, 1]⟩ : Shape).Idx → EReal) (b0 : (⟨1, ![1]⟩ : Shape).Idx → EReal)
    (d0 : (⟨2, ![128, 1]⟩ : Shape).Idx → EReal) (db0 : (⟨1, ![1]⟩ : Shape).Idx → EReal)
    (s1 : (⟨2, ![16, 1]⟩ : Shape).Idx → EReal) (b1 : (⟨1, ![1]⟩ : Shape).Idx → EReal)
    (d1 : (⟨2, ![16, 1]⟩ : Shape).Idx → EReal) (db1 : (⟨1, ![1]⟩ : Shape).Idx → EReal)
    (hx : ∀ i, Fin1 (x i)) (hadj : ∀ i, Fin1 (adj i)) (hadjk : ∀ i, Fin1 (adjk i))
    (hW1 : ∀ i, Fin1 (W1 i)) (hW2 : ∀ i, Fin1 (W2 i)) (hs0 : ∀ i, Fin1 (s0 i)) (hb0 : ∀ i, Fin1 (b0 i))
    (hd0 : ∀ i, Fin1 (d0 i)) (hdb0 : ∀ i, Fin1 (db0 i)) (hs1 : ∀ i, Fin1 (s1 i)) (hb1 : ∀ i, Fin1 (b1 i))
    (hd1 : ∀ i, Fin1 (d1 i)) (hdb1 : ∀ i, Fin1 (db1 i)) :
    kerOut x adj adjk W1 W2 s0 b0 d0 db0 s1 b1 d1 db1 = refOut x adj adjk W1 W2 s0 b0 d0 db0 s1 b1 d1 db1 :=
  funext fun i => congrFun (congrFun
    (out_eq (rd2 adj) (rd2 adjk) (rd2 x) (rd2 W1) (rdCol s0) (rdCol d0) (rd0 b0) (rd0 db0)
      (rd2 W2) (rdCol s1) (rdCol d1) (rd0 b1) (rd0 db1)
      (fun _ _ => hadj _) (fun _ _ => hadjk _) (fun _ _ => hx _) (fun _ _ => hW1 _) (fun _ => hs0 _) (fun _ => hd0 _) (hb0 _) (hdb0 _)
      (fun _ _ => hW2 _) (fun _ => hs1 _) (fun _ => hd1 _) (hb1 _) (hdb1 _)) _) _

end SimP

end
-- ==== Proof.lean ====
/-
  A two-layer SimP-GCN forward pass: one fused kernel against the plain reference.

  The kernel is one pallas_call over 100 grid points.  It keeps an 18-column table of per-node quantities on chip
  (the projected features and two gate columns, from ONE product against the weight matrix widened by two columns),
  streams 200-row blocks of the two dense adjacency matrices, and blends the two aggregates as `q + s · (p - q)`;
  points 0–49 compute the first layer into an on-chip buffer, point 50 refills the table from it, points 50–99
  compute the result.  The reference computes the three linear forms separately and blends as `s · p + (1 - s) · q`.

  Frames: the invariant the points carry and the body at each of the four control cases (Proof/Frame.lean, for
  every float instance; the word-level program's copy under Proof/Bits/).  Values at the ideal instance: the result
  array in closed form (Proof/FrameValue.lean), read entry by entry as the kernel's two layers (Proof/KerValue.lean);
  the reference's run read entry by entry as its two layers (Proof/RefValue.lean); the precondition makes every
  input entry a real number (Proof/Finite.lean), and over real numbers the two spellings agree (Proof/MathLaw.lean):
  distributivity, which the extended reals have only away from the infinities, is the one law that needs it.
-/
import proofs.«161867_g88347477279355_cont_sun_m_1058_36_alg».proof.Defs
import proofs.«161867_g88347477279355_cont_sun_m_1058_36_alg».proof.Proof.Gen.Kernel
import proofs.«161867_g88347477279355_cont_sun_m_1058_36_alg».proof.Proof.Gen.KernelIdeal
import proofs.«161867_g88347477279355_cont_sun_m_1058_36_alg».proof.Proof.Gen.ReferenceIdeal
import proofs.«161867_g88347477279355_cont_sun_m_1058_36_alg».proof.Proof.Gen.Pre_finite_inputs
import proofs.«161867_g88347477279355_cont_sun_m_1058_36_alg».proof.Proof.Bits.Frame
import proofs.«161867_g88347477279355_cont_sun_m_1058_36_alg».proof.Proof.FrameValue
import proofs.«161867_g88347477279355_cont_sun_m_1058_36_alg».proof.Proof.KerValue
import proofs.«161867_g88347477279355_cont_sun_m_1058_36_alg».proof.Proof.RefValue
import proofs.«161867_g88347477279355_cont_sun_m_1058_36_alg».proof.Proof.Finite
import proofs.«161867_g88347477279355_cont_sun_m_1058_36_alg».proof.Proof.Bridge

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's closed form
    is its two layers of the arguments, the reference's term is its two layers of the same arguments, and the two
    agree because the precondition makes every entry a real number. -/
theorem algebraic : Cert.algebraic_KernelIdeal_ReferenceIdeal := by
  intro m ρ m' ρ' hpre hagree
  refine ⟨fun c => Cert.KernelIdeal.Hand.outFinal (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  have hf := Cert.Proof.Finite.finite_of_pre m hpre c
  refine (Cert.ReferenceIdeal.RefValue.ref_value m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (SimP.kerOut_eq_refOut _ _ _ _ _ _ _ _ _ _ _ _ _ hf.1 hf.2.1 hf.2.2.1 hf.2.2.2.1 hf.2.2.2.2.1 hf.2.2.2.2.2.1 hf.2.2.2.2.2.2.1 hf.2.2.2.2.2.2.2.1 hf.2.2.2.2.2.2.2.2.1 hf.2.2.2.2.2.2.2.2.2.1 hf.2.2.2.2.2.2.2.2.2.2.1 hf.2.2.2.2.2.2.2.2.2.2.2.1 hf.2.2.2.2.2.2.2.2.2.2.2.2).symm.trans
    (Cert.KernelIdeal.Hand.ker_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
